-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S500000x1 : Shape := ⟨2, ![500000, 1]⟩
abbrev S500000x2 : Shape := ⟨2, ![500000, 2]⟩
abbrev S_ : Shape := ⟨0, ![]⟩
abbrev S500000 : Shape := ⟨1, ![500000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x1 : S_.BroadcastsInDim S500000x1 (![] : Fin 0 → Fin S500000x1.rank)
  reducesTo_S500000x1_S_d0_1 : S500000x1.ReducesTo [0, 1] S_
  slices_S500000x2_S500000x1_0_1 : S500000x2.Slices ![0, 1] S500000x1
  shapeCasts_S500000x1_S500000 : S500000x1.ShapeCasts S500000
  bcast_S_S500000 : S_.BroadcastsInDim S500000 (![] : Fin 0 → Fin S500000.rank)
  reducesTo_S500000_S_d0 : S500000.ReducesTo [0] S_

variable [Facts]

def fn_part1 {F : FTy → Type} [FloatOps F] (main_v14 : IVec S_ 1) (main_v16 : IVec S500000 32) (main_c_4 : IVec S_ 32) : IVec S_ 1 :=
  let main_v17 : IVec S500000 32 := broadcastInDim S500000 ![] bcast_S_S500000 main_c_4
  let main_v18 : IVec S500000 1 := cmpi .slt main_v16 main_v17
  let main_c_5 : IVec S_ 1 := constantI S_ 1 1#1
  let main_v19 : IVec S_ 1 := (fun x v => Host.reduce IntOp.andi x v reducesTo_S500000_S_d0 h_S_) main_v18 main_c_5
  let main_v20 : IVec S_ 1 := andi main_v14 main_v19
  main_v20

def fn {F : FTy → Type} [FloatOps F] (main_arg0 : FVec F S100000x128 .f32) (main_arg1 : FVec F S500000x1 .f32) (main_arg2 : IVec S500000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x1 .f32 := Host.absf main_arg1
  let main_cst_0 : FVec F S_ .f32 := constant S_ .f32 0x7F800000#32
  let main_v5 : FVec F S500000x1 .f32 := broadcastInDim S500000x1 ![] bcast_S_S500000x1 main_cst_0
  let main_v6 : IVec S500000x1 1 := cmpf .olt main_v4 main_v5
  let main_c_1 : IVec S_ 1 := constantI S_ 1 1#1
  let main_v7 : IVec S_ 1 := (fun x v => Host.reduce IntOp.andi x v reducesTo_S500000x1_S_d0_1 h_S_) main_v6 main_c_1
  let main_v8 : IVec S_ 1 := andi main_v3 main_v7
  let main_v9 : IVec S500000x1 32 := (extractStridedSlice S500000x1 ![0, 1] · slices_S500000x2_S500000x1_0_1) main_arg2
  let main_v10 : IVec S500000 32 := shapeCast S500000 main_v9 shapeCasts_S500000x1_S500000
  let main_c_2 : IVec S_ 32 := constantI S_ 32 0#32
  let main_v11 : IVec S500000 32 := broadcastInDim S500000 ![] bcast_S_S500000 main_c_2
  let main_v12 : IVec S500000 1 := cmpi .sge main_v10 main_v11
  let main_c_3 : IVec S_ 1 := constantI S_ 1 1#1
  let main_v13 : IVec S_ 1 := (fun x v => Host.reduce IntOp.andi x v reducesTo_S500000_S_d0 h_S_) main_v12 main_c_3
  let main_v14 : IVec S_ 1 := andi main_v8 main_v13
  let main_v15 : IVec S500000x1 32 := (extractStridedSlice S500000x1 ![0, 1] · slices_S500000x2_S500000x1_0_1) main_arg2
  let main_v16 : IVec S500000 32 := shapeCast S500000 main_v15 shapeCasts_S500000x1_S500000
  let main_c_4 : IVec S_ 32 := constantI S_ 32 100000#32
  fn_part1 (F := F) main_v14 main_v16 main_c_4
-- ==== Kernel.lean ====
abbrev S100000x128 : Shape := ⟨2, ![100000, 128]⟩
abbrev S500000x1 : Shape := ⟨2, ![500000, 1]⟩
abbrev S500000x2 : Shape := ⟨2, ![500000, 2]⟩
abbrev S500000 : Shape := ⟨1, ![500000]⟩
abbrev S_ : Shape := ⟨0, ![]⟩
abbrev S100000 : Shape := ⟨1, ![100000]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S128 : Shape := ⟨1, ![128]⟩
abbrev S128x1 : Shape := ⟨2, ![128, 1]⟩
abbrev S507904 : Shape := ⟨1, ![507904]⟩
abbrev S248x2048 : Shape := ⟨2, ![248, 2048]⟩
abbrev S8x2048 : Shape := ⟨2, ![8, 2048]⟩

abbrev nBuf : Space → Nat
  | .hbm => 34
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S500000x1, .f32⟩
  | .hbm, ⟨2, _⟩ => ⟨S500000x2, .i32⟩
  | .hbm, ⟨3, _⟩ => ⟨S500000x1, .i32⟩
  | .hbm, ⟨4, _⟩ => ⟨S500000, .i32⟩
  | .hbm, ⟨5, _⟩ => ⟨S500000x1, .i32⟩
  | .hbm, ⟨6, _⟩ => ⟨S500000, .i32⟩
  | .hbm, ⟨7, _⟩ => ⟨S500000, .f32⟩
  | .hbm, ⟨8, _⟩ => ⟨S_, .f32⟩
  | .hbm, ⟨9, _⟩ => ⟨S100000, .f32⟩
  | .hbm, ⟨10, _⟩ => ⟨S500000x1, .i32⟩
  | .hbm, ⟨11, _⟩ => ⟨S100000, .f32⟩
  | .hbm, ⟨12, _⟩ => ⟨S100000x1, .f32⟩
  | .hbm, ⟨13, _⟩ => ⟨S1x128, .f32⟩
  | .hbm, ⟨14, _⟩ => ⟨S128x1, .f32⟩
  | .hbm, ⟨15, _⟩ => ⟨S100000x1, .f32⟩
  | .hbm, ⟨16, _⟩ => ⟨S100000, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000, .f32⟩
  | .hbm, ⟨26, _⟩ => ⟨S_, .i32⟩
  | .hbm, ⟨27, _⟩ => ⟨S_, .f32⟩
  | .hbm, ⟨28, _⟩ => ⟨S507904, .f32⟩
  | .hbm, ⟨29, _⟩ => ⟨S248x2048, .f32⟩
  | .hbm, ⟨30, _⟩ => ⟨S248x2048, .f32⟩
  | .hbm, ⟨31, _⟩ => ⟨S507904, .f32⟩
  | .hbm, ⟨32, _⟩ => ⟨S500000, .f32⟩
  | .hbm, ⟨33, _⟩ => ⟨S500000x1, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S1x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S128x1, .f32⟩
  | .local _ .vmem, ⟨9, _⟩ => ⟨S2000x1, .f32⟩
  | .local _ .vmem, ⟨10, _⟩ => ⟨S2000x1, .f32⟩
  | .local _ .vmem, ⟨11, _⟩ => ⟨S8x2048, .f32⟩
  | .local _ .vmem, ⟨12, _⟩ => ⟨S8x2048, .f32⟩
  | .local _ .vmem, ⟨13, _⟩ => ⟨S8x2048, .f32⟩
  | .local _ .vmem, ⟨14, _⟩ => ⟨S8x2048, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call0_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v15 : BitVec 1 := Scalar.cmpi .eq arg0 c49_i32
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![31], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

class Facts₀ : Prop where
  slices_S500000x2_S500000x1_0_0 : S500000x2.Slices ![0, 0] S500000x1
  shapeCasts_S500000x1_S500000 : S500000x1.ShapeCasts S500000
  slices_S500000x2_S500000x1_0_1 : S500000x2.Slices ![0, 1] S500000x1
  bcast_S_S100000 : S_.BroadcastsInDim S100000 (![] : Fin 0 → Fin S100000.rank)
  bcast_S500000_S500000x1_0 : S500000.BroadcastsInDim S500000x1 (![0] : Fin 1 → Fin S500000x1.rank)
  shapeCasts_S100000_S100000x1 : S100000.ShapeCasts S100000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  reduces_S2000x128_S128 : S2000x128.Reduces [0] S128
  shapeCasts_S128_S1x128 : S128.ShapeCasts S1x128
  transposes_S1x128_S128x1_1_0 : S1x128.Transposes [1, 0] S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  shapeCasts_S100000x1_S100000 : S100000x1.ShapeCasts S100000
  bcast_S_S500000 : S_.BroadcastsInDim S500000 (![] : Fin 0 → Fin S500000.rank)
  pads_S500000_S507904_079040 : S500000.Pads (![0] : Fin 1 → Nat) ![7904] ![0] S507904
  h_S_ : 0 < S_.numel
  shapeCasts_S507904_S248x2048 : S507904.ShapeCasts S248x2048
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  shapeCasts_S248x2048_S507904 : S248x2048.ShapeCasts S507904
  slices_S507904_S500000_0 : S507904.Slices ![0] S500000
  shapeCasts_S500000_S500000x1 : S500000.ShapeCasts S500000x1
  scatter_S100000_S500000x1_S500000_n_0_0_1_wf : ScatterDims.WF S100000 S500000x1 S500000 [] [0] [0] 1
  dot_S2000x128_S128x1_S2000x1_1_0_0_1_n_n_wf : DotDims.WF S2000x128 S128x1 S2000x1 [1] [0] [0] [1] [] []
  gather_S100000_S500000x1_S500000_n_0_n_n_0_1_1_wf : GatherDims.WF S100000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S128x1.size a
  hwx1_1 : ∀ i : grid1.Coords, EltTy.bits .f32 = 32 ∨ (Rect.block (s := S128x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8x2048.size a ≤ S248x2048.size a
  hwx2_0 : ∀ i : grid2.Coords, EltTy.bits .f32 = 32 ∨ (Rect.block (s := S248x2048) S8x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x2048.size a ≤ S248x2048.size a
  hwx2_1 : ∀ i : grid2.Coords, EltTy.bits .f32 = 32 ∨ (Rect.block (s := S248x2048) S8x2048.size (cc2_transform_1 i) (hinb2_1 i)).WholeWords (EltTy.packing .f32)

variable [Facts₀]

def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S128x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v21) S8x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S8x2048.size cc2_transform_1 reads2_1 true false 2 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S100000x128 : Shape := ⟨2, ![100000, 128]⟩
abbrev S500000x1 : Shape := ⟨2, ![500000, 1]⟩
abbrev S500000x2 : Shape := ⟨2, ![500000, 2]⟩
abbrev S500000 : Shape := ⟨1, ![500000]⟩
abbrev S_ : Shape := ⟨0, ![]⟩
abbrev S500000x128 : Shape := ⟨2, ![500000, 128]⟩
abbrev S128x1 : Shape := ⟨2, ![128, 1]⟩

abbrev nBuf : Space → Nat
  | .hbm => 39
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S500000x1, .f32⟩
  | .hbm, ⟨2, _⟩ => ⟨S500000x2, .i32⟩
  | .hbm, ⟨3, _⟩ => ⟨S500000x1, .i32⟩
  | .hbm, ⟨4, _⟩ => ⟨S500000, .i32⟩
  | .hbm, ⟨5, _⟩ => ⟨S_, .i32⟩
  | .hbm, ⟨6, _⟩ => ⟨S500000, .i32⟩
  | .hbm, ⟨7, _⟩ => ⟨S500000, .i1⟩
  | .hbm, ⟨8, _⟩ => ⟨S_, .i32⟩
  | .hbm, ⟨9, _⟩ => ⟨S500000, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000x128, .f32⟩
  | .hbm, ⟨14, _⟩ => ⟨S500000x1, .i32⟩
  | .hbm, ⟨15, _⟩ => ⟨S500000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x128, .f32⟩
  | .hbm, ⟨25, _⟩ => ⟨S128x1, .f32⟩
  | .hbm, ⟨26, _⟩ => ⟨S500000x1, .f32⟩
  | .hbm, ⟨27, _⟩ => ⟨S500000x1, .f32⟩
  | .hbm, ⟨28, _⟩ => ⟨S_, .f32⟩
  | .hbm, ⟨29, _⟩ => ⟨S500000x1, .f32⟩
  | .hbm, ⟨30, _⟩ => ⟨S500000x1, .f32⟩
  | .hbm, ⟨31, _⟩ => ⟨S500000x1, .f32⟩
  | .hbm, ⟨32, _⟩ => ⟨S500000x1, .f32⟩
  | .hbm, ⟨33, _⟩ => ⟨S_, .f32⟩
  | .hbm, ⟨34, _⟩ => ⟨S500000x1, .f32⟩
  | .hbm, ⟨35, _⟩ => ⟨S500000x1, .f32⟩
  | .hbm, ⟨36, _⟩ => ⟨S_, .f32⟩
  | .hbm, ⟨37, _⟩ => ⟨S500000x1, .f32⟩
  | .hbm, ⟨38, _⟩ => ⟨S500000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  slices_S500000x2_S500000x1_0_0 : S500000x2.Slices ![0, 0] S500000x1
  shapeCasts_S500000x1_S500000 : S500000x1.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S500000x2_S500000x1_0_1 : S500000x2.Slices ![0, 1] S500000x1
  bcast_S_S500000x1 : S_.BroadcastsInDim S500000x1 (![] : Fin 0 → Fin S500000x1.rank)
  gather_S100000x128_S500000x1_S500000x128_1_0_n_n_0_1_1128_wf : GatherDims.WF S100000x128 S500000x1 S500000x128 [1] [0] [] [0] [] 1 ![1, 128]
  dot_S500000x128_S500000x1_S128x1_0_0_1_1_n_n_wf : DotDims.WF S500000x128 S500000x1 S128x1 [0] [0] [1] [1] [] []
  dot_S500000x128_S128x1_S500000x1_1_0_0_1_n_n_wf : DotDims.WF S500000x128 S128x1 S500000x1 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x128_S500000x1_S128x1_0_0_1_1_n_n : DotDims S500000x128 S500000x1 S128x1 where
  lhsContracting := [0]
  rhsContracting := [0]
  lhsNonContracting := [1]
  rhsNonContracting := [1]
  lhsBatch := []
  rhsBatch := []
  wf := dot_S500000x128_S500000x1_S128x1_0_0_1_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.KI.Reg0Runs.lean ====
/-
  The first launch's body, run once per control case. The body zeroes a [1, 128] scratch row at the first grid point,
  adds to it the column sums of (a [2000, 128] block of the node table, each row scaled by that node's weight) at every
  point, and copies it to the [1, 128] output at the last point. Three cases: the first point (reset, no copy-out), a
  middle point (neither), the last point (copy-out, no reset). Here: the two branch conditions in closed form over the
  50 points, where the output window is idle and not written back, and for each case the body's triple on whole
  buffers, with what its stores leave in the scratch (and, at the last point, in the output) as a list of pieces.
-/
import proofs.«425700_j4569845202979_3_alg».proof.Proof.Gen.KernelIdeal.Launch
import proofs.«425700_j4569845202979_3_alg».proof.Proof.Gen.KernelIdeal.Skeleton
import proofs.«425700_j4569845202979_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's branch conditions -/

/-- The first `if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second `if`: the grid coordinate is 49. -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The buffers the body is called with -/

/-- One staging buffer of the output window, through which its contents are stated. -/
abbrev VO0_2 : View sig .tc .vmem S1x128 .f32 := (Memref.whole cc0_stg2_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The scratch row. -/
abbrev scM0 : Memref sig .tc .vmem S1x128 .f32 := Memref.whole cc0_scratch0
abbrev VS0 : View sig .tc .vmem S1x128 .f32 := scM0.view

/-! ## The body's triple, case by case -/

set_option maxHeartbeats 1000000 in
/-- THE FIRST POINT (reset taken, copy-out not taken): the inputs' buffers at `x0`, `x1`, the output's at `xi2` handed back
    untouched, the scratch at anything; the scratch ends with the pieces `LS0` written. -/
noncomputable def kernelRun0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨[], ?_, fun xi2 E K => ?run⟩
  case run =>
    simp only [cc0_btw_kernel_eq_skeleton]; unfold cc0_btw_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither taken): as above, the scratch at what the point before left, `xs0`. -/
noncomputable def kernelRun0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨[], ?_, fun xi2 E K => ?run⟩
  case run =>
    simp only [cc0_btw_kernel_eq_skeleton]; unfold cc0_btw_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (reset not taken, copy-out taken): the output's buffer at anything; it ends with the pieces `L2` written,
    the scratch with `LS0`. -/
noncomputable def kernelRun0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨?_, ?_, fun E K => ?run⟩
  case run =>
    simp only [cc0_btw_kernel_eq_skeleton]; unfold cc0_btw_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Reg0.lean ====
/-
  The first launch (the weighted column sums of the node table, accumulated block by block in a scratch row that is
  zeroed at the first point and copied to the output at the last), at the buffer contents `V` the launch is entered from:
  what each case's stores leave in the scratch row and in the output block, what the two hold after each of the 50
  points (by recursion on the point: a later point adds to what the point before left), the invariant that carries the
  scratch row from point to point, the proof data, and the body obligation at every point.
-/
import proofs.«425700_j4569845202979_3_alg».proof.Proof.KI.Reg0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

/-- The first point's pieces for the scratch row cover it. -/
theorem scover0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) (y : S1x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x128.size (by sl_kernel_rfl) y

/-- What the first point leaves in the scratch row. -/
def sout0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) : Vec F S1x128 .f32 :=
  VS0.read (Elt F) (VS0.writes (Elt F) VS0.junk (kernelRun0_A c i arg1 harg1 arg2 harg2 arg3 harg3 arg4 harg4 hc0 hc1 x0 x1).2.1)

theorem scover0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) (y : S1x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x128.size (by sl_kernel_rfl) y

/-- What a middle point leaves in the scratch row, over what the point before left. -/
def sout0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) : Vec F S1x128 .f32 :=
  VS0.read (Elt F) (VS0.writes (Elt F) VS0.junk (kernelRun0_B c i arg1 harg1 arg2 harg2 arg3 harg3 arg4 harg4 hc0 hc1 x0 x1 xs0).2.1)

theorem scover0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) (y : S1x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x128.size (by sl_kernel_rfl) y

/-- What the last point leaves in the scratch row. -/
def sout0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) : Vec F S1x128 .f32 :=
  VS0.read (Elt F) (VS0.writes (Elt F) VS0.junk (kernelRun0_C c i arg1 harg1 arg2 harg2 arg3 harg3 arg4 harg4 hc0 hc1 x0 x1 xs0).2.1)

theorem cover0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) (y : S1x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x128.size (by sl_kernel_rfl) y

/-- What the last point leaves in the output block. -/
def out0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) : Vec F S1x128 .f32 :=
  VO0_2.read (Elt F) (VO0_2.writes (Elt F) VO0_2.junk (kernelRun0_C c i arg1 harg1 arg2 harg2 arg3 harg3 arg4 harg4 hc0 hc1 x0 x1 xs0).1)

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the scratch row hold after each point -/

/-- After the body at position `n`: (the output block, the scratch row). The output component is a placeholder away
    from the last point (the window is idle there and not written back). -/
def outsAt0 (c : Dev nD) : (n : ℕ) → n < cfg0.N → Vec F S1x128 .f32 × Vec F S1x128 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h1 : (n + 1) % 50 = 49 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) ((hcond0_1 ⟨n + 1, hn⟩).mpr h1) (iblk0 V c 0 ⟨n + 1, hn⟩) (iblk0 V c 1 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point: the reset case's contents. -/
theorem outsAt0_A (c : Dev nD) (t : Fin cfg0.N) (h0 : t.val % 50 = 0) (h1 : ¬t.val % 50 = 49) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exfalso; have hN : n + 1 < 50 := lt_of_lt_of_eq hn (show cfg0.N = 50 from N_0); (try dsimp only at h0); omega

/-- At a middle point: that case's contents, over what the point before left. -/
theorem outsAt0_B (c : Dev nD) (t : Fin cfg0.N) (h0 : ¬t.val % 50 = 0) (h1 : ¬t.val % 50 = 49) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: the copy-out case's contents, over what the point before left. -/
theorem outsAt0_C (c : Dev nD) (t : Fin cfg0.N) (h0 : ¬t.val % 50 = 0) (h1 : t.val % 50 = 49) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-! ## The invariant that carries the scratch row -/

/-- The other scoped buffers of the core that are no staging buffer of this launch (the later launches' staging
    buffers), each whole at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f))

/-- The class invariant with the scratch row as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point the class's (the scratch row at anything); afterwards the
    scratch row at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The proof data of the first launch on core `c`: the arrays as entered; after the body each input's buffer at its
    block, the output's at `outsAt0`'s first component; the carrying invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl
theorem q0 (c : Dev nD) (w : Fin cfg0.W) : (dat0 V c).q w = fullShare := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; the invariant hands the body the scratch
    row at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 50 = 49
  · have h0 : ¬t.val % 50 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS_castSucc V c t, PhiS_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 50 = 0
    · have hz : t.val = 0 := by omega
      rw [outsAt0_A V c t h0 h1]
      unfold sout0_A; (try dsimp only)
      rw [PhiS_castSucc V c t, PhiS_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
    · have hz : t.val ≠ 0 := by omega
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _)
          iexact Hr
        iexact Hg
      isplitl [Ho]; · iexact Ho
      isplitl [H0]; · iexact H0
      isplitl [H1]; · iexact H1
      iexists _; iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives that back: the scratch row's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.KernelIdeal.Hand

end
-- ==== Proof.KI.Reg1.lean ====
/-
  The second launch (per-node scores: each [2000, 128] block of the node table times the [128, 1] column, 50 points),
  at the buffer contents `V` the launch is entered from: the windows' blocks read off their arrays, what the body
  stores into the output block (one store of the whole [2000, 1] block: the matrix product of the two input blocks
  onto a zero accumulator), the body's triple, the proof data (arrays as entered, each input's buffer left at its
  block, the output's at the stored value, nothing carried between points), and the body obligation at every point.
-/
import proofs.«425700_j4569845202979_3_alg».proof.Proof.Gen.KernelIdeal.Launch
import proofs.«425700_j4569845202979_3_alg».proof.Proof.Gen.KernelIdeal.Skeleton
import proofs.«425700_j4569845202979_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-table window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column window's staging buffer holds the column at every point: fetched at the first point only, and its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1a : Rect S2000x128 := Rect.unit (s := S2000x128) ![0, 0] S2000x128.size inb_S2000x128_S2000x128_0_0
abbrev r1b : Rect S128x1 := Rect.unit (s := S128x1) ![0, 0] S128x1.size inb_S128x1_S128x1_0_0
abbrev r1c : Rect S2000x1 := Rect.unit (s := S2000x1) ![0, 0] S2000x1.size inb_S2000x1_S2000x1_0_0

/-- The output block after the body, from the two input blocks: one store of the whole block. -/
def out1_2 (x0 : Vec F S2000x128 .f32) (x1 : Vec F S128x1 .f32) : Vec F S2000x1 .f32 :=
  View.canon [⟨r1c, k1_pay1 (View.ld x0 r1a) (View.ld x1 r1b)⟩]

/-- That store covers the block. -/
theorem cover1_2 (p0 : Vec F S2000x1 .f32) (y : S2000x1.Idx) :
    ∃ pc ∈ ([⟨r1c, p0⟩] : List (View.Piece (Elt F) S2000x1 .f32)), y ∈ pc.1.set :=
  View.cover_of_tiled [⟨r1c, p0⟩] S2000x1.size (by rfl) y

set_option maxHeartbeats 1000000 in
/-- The body on whole staging memrefs, the inputs' at `x0`, `x1` and the output's at anything, runs to the
    continuation holding the inputs' as they were and the output's at `out1_2 x0 x1`. -/
theorem sound_kernel1 (c : Dev nD) (E : Set ℕ) (i : grid1.Coords) (arg1 : Memref sig .tc .vmem S2000x128 .f32) (harg1 : arg1.IsWhole) (arg2 : Memref sig .tc .vmem S128x1 .f32) (harg2 : arg2.IsWhole) (arg3 : Memref sig .tc .vmem S2000x1 .f32) (harg3 : arg3.IsWhole)
    (x0 : Vec F S2000x128 .f32) (x1 : Vec F S128x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_p_kernel i arg1 harg1 arg2 harg2 arg3 harg3) K := by
  simp only [cc1_p_kernel_eq_skeleton]; unfold cc1_p_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  The third launch (the elementwise pass over the padded [248, 2048] score array, 31 points of an [8, 2048] block),
  at the buffer contents `V` the launch is entered from: a block of the input read off its array, what the body
  stores into the output block (one store of the whole block: the pointwise payload of the input block), the body's
  triple, the proof data (arrays as entered, the input's buffer left at its block, the output's at the stored value,
  nothing carried between points), and the body obligation at every point.
-/
import proofs.«425700_j4569845202979_3_alg».proof.Proof.Gen.KernelIdeal.Launch
import proofs.«425700_j4569845202979_3_alg».proof.Proof.Gen.KernelIdeal.Skeleton
import proofs.«425700_j4569845202979_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole [8, 2048] block. -/
abbrev r2 : Rect S8x2048 := Rect.unit (s := S8x2048) ![0, 0] S8x2048.size inb_S8x2048_S8x2048_0_0

/-- The output block after the body, from the input block: one store of the whole block. -/
def out2_1 (x0 : Vec F S8x2048 .f32) : Vec F S8x2048 .f32 :=
  View.canon [⟨r2, k2_pay1 (View.ld x0 r2)⟩]

/-- That store covers the block. -/
theorem cover2_1 (p0 : Vec F S8x2048 .f32) (y : S8x2048.Idx) :
    ∃ pc ∈ ([⟨r2, p0⟩] : List (View.Piece (Elt F) S8x2048 .f32)), y ∈ pc.1.set :=
  View.cover_of_tiled [⟨r2, p0⟩] S8x2048.size (by rfl) y

set_option maxHeartbeats 1000000 in
/-- The body on whole staging memrefs, the input's at `x0` and the output's at anything, runs to the continuation
    holding the input's as it was and the output's at `out2_1 x0`. -/
theorem sound_kernel2 (c : Dev nD) (E : Set ℕ) (i : grid2.Coords) (arg1 : Memref sig .tc .vmem S8x2048 .f32) (harg1 : arg1.IsWhole) (arg2 : Memref sig .tc .vmem S8x2048 .f32) (harg2 : arg2.IsWhole)
    (x0 : Vec F S8x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_sigmoid_log_kernel i arg1 harg1 arg2 harg2) K := by
  simp only [cc2_sigmoid_log_kernel_eq_skeleton]; unfold cc2_sigmoid_log_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of the third launch on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the third launch, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Chain.lean ====
/-
  The buffer contents of a core at every boundary between two segments of the program (a stretch of host
  operations, or one of the three launches): a fold from the launch memory. After a stretch, its operations applied;
  after a launch, that launch's arrays at what its write-backs leave and every other buffer as entered.
-/
import proofs.«425700_j4569845202979_3_alg».proof.Proof.KI.Reg0
import proofs.«425700_j4569845202979_3_alg».proof.Proof.KI.Reg1
import proofs.«425700_j4569845202979_3_alg».proof.Proof.KI.Reg2
import proofs.«425700_j4569845202979_3_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the first launch's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first launch's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second launch's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the three host stretches between the second and the third launch (the third launch's entry). -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev E7 : (c : Dev nD) → (b : Ref sig .tc) → Buf (Elt F) ((c : Thread nD τ).loc b) := fun c b => W7 m c b
/-- At the third launch's exit. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b
theorem hF2 (c : Dev nD) (w : Fin cfg2.W) : (dat2 (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-- After the last host stretch: the contents the program ends with. -/
abbrev W9 : Dev nD → Valuation τ sig (Elt F) := fun c => StableHlo.after hostOps3 (W8 m c)

end Cert.KernelIdeal.Hand

end
-- ==== Proof.KI.Run.lean ====
/-
  The launch. @main is nine segments in order: a stretch of host operations, the first launch, a stretch, the second
  launch, three stretches, the third launch, a last stretch. Between two segments a core holds every unscoped buffer
  whole at the boundary's contents (the fold W0 … W9 from the launch memory), its generator register at some state,
  and owes no other core anything. A stretch takes the buffers from one boundary's contents to its operations applied
  to them. A launch takes its windows' arrays out of the unscoped buffers at the contents its proof data are entered
  from, runs its points, and puts the arrays back at what the write-backs leave, every other buffer untouched.
  Composed from the launch memory with zero counters: every weakly fair execution terminates, faults nowhere, and
  ends with every unscoped buffer of every core at the last boundary's contents.
-/
import proofs.«425700_j4569845202979_3_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The three launches' proof data, and what rides beside the buffers -/

/-- Each launch's proof data at the contents its launch is entered from: the first at the first boundary after a
    stretch, the second at the third boundary, the third at the seventh. -/
def allDat : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c

/-- No host loop bounds the run. -/
abbrev noBound : Variants := Variants.none
/-- No core owes another anything at any time, so no pair of a semaphore and an index carries a level. -/
abbrev noPairs : GSem nD τ sig → Finset Unit := fun _ => ∅
abbrev noLevel : GSem nD τ sig → Unit → ℕ := fun _ _ => 0

/-- Beside the buffers from the first launch's exit on: the generator register at some state, and the core owing nothing
    (its waits having recorded some set of pairs). -/
abbrev idle (c : Dev nD) : sProp 𝕄 :=
  iprop((∃ r, prngReg c r) ∗ ∃ W, owes (c : Thread nD τ) (0 : CellTallies nD τ sig Unit) W)
/-- Beside the buffers up to the first launch's entry: the same, no wait having recorded any pair yet. -/
abbrev idle₀ (c : Dev nD) : sProp 𝕄 :=
  iprop((∃ r, prngReg c r) ∗ owes (c : Thread nD τ) (0 : CellTallies nD τ sig Unit) ∅)

/-- A stretch of host operations as a segment: the unscoped buffers held at `W c` go to the operations applied to
    `W c`, and `R c` rides along unchanged. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ noBound noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last boundary without the dues: every unscoped buffer at `W9`, the generator register at some state. -/
abbrev atEnd (c : Dev nD) : sProp 𝕄 :=
  iprop(StableHlo.held (c : Thread nD τ) (Pipeline.ucRefs τ sig) (W9 m c) ∗ ∃ r, prngReg c r)

/-! ## The dues at a launch's two ends -/

/-- Owing nothing with nothing recorded is the first launch's dues before its first point: its tallies are zero
    there, and the empty set lies within any bound. -/
theorem dues_in0 (c : Dev nD) :
    (owes (c : Thread nD τ) (0 : CellTallies nD τ sig Unit) ∅ : sProp 𝕄) ⊢ (dat0 (E1 m) c).owesAt () 0 := by
  unfold Pipeline.Dat.owesAt Pipeline.owesWithin
  rw [owed0]
  iintro H
  iexists ∅
  isplitr
  · ipureintro; rw [Finset.coe_empty]; exact Set.empty_subset _
  iexact H

/-- The first launch's dues after its last point are the core owing nothing: its tallies are zero there too. -/
theorem dues_out0 (c : Dev nD) :
    (dat0 (E1 m) c).owesAt () (Fin.last cfg0.N)
      ⊢ (iprop(∃ W, owes (c : Thread nD τ) (0 : CellTallies nD τ sig Unit) W) : sProp 𝕄) := by
  unfold Pipeline.Dat.owesAt Pipeline.owesWithin
  rw [owed0]
  iintro ⟨%W, -, H⟩
  iexists W
  iexact H

/-! ## The launches as segments -/

set_option backward.isDefEq.respectTransparency.types false in
/-- THE FIRST LAUNCH, entered from every unscoped buffer at `W1` and left at `W2`. Its three arrays split out of the
    unscoped buffers at the contents the proof data are entered from and go back at what the write-backs leave; the
    generator register and the scoped buffers no window stages make the invariant before the first point, and the
    invariant after the last gives them back; the dues are zero at both ends; the kernel has no semaphore of its own. -/
def launchSeg0 : Pipeline.RegionSeg (pcfgs (F := F)) adm (allDat m) () defs₀ noBound noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun c t => owed0 (E1 m) c t
  pre c := iprop(StableHlo.held (c : Thread nD τ) (Pipeline.ucRefs τ sig) (W1 m c) ∗ idle₀ c)
  post c := iprop(StableHlo.held (c : Thread nD τ) (Pipeline.ucRefs τ sig) (W2 m c) ∗ idle c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (allDat m) launch0.win launch0.arr_whole c
      ((allDat m 0 c).share_full fun w => q0 (E1 m) c w) (E1 m c) fun w => A_eq0 (E1 m) c w
    rw [Pipeline.unscopedBufs_held] at hsplit
    have hdue := dues_in0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hdue; iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allDat m) ((allDat m 0 c).share_full fun w => q0 (E1 m) c w)
      (E1 m c) (E2 m c) ((allDat m 0 c).arrAt · cfg0.N) (hF0 m c) (hrest0 m c)
    rw [Pipeline.unscopedBufs_held] at hjoin
    have hdue := dues_out0 m c
    iintro ⟨Ha, HO, HY, Hrest⟩
    imodintro
    isplitl [Ha Hrest]
    · iapply hjoin; isplitl [Ha] <;> iassumption
    isplitl [HY]; · iexact HY
    iapply hdue; iexact HO

set_option backward.isDefEq.respectTransparency.types false in
/-- THE SECOND LAUNCH, entered from every unscoped buffer at `W3` and left at `W4`. Its arrays split out of the unscoped
    buffers at the contents the proof data are entered from and go back at what the write-backs leave; its invariant
    at every point is the generator register beside the scoped buffers no window stages; the dues are zero
    throughout; the kernel has no semaphore of its own. -/
def launchSeg1 : Pipeline.RegionSeg (pcfgs (F := F)) adm (allDat m) () defs₀ noBound noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ idle c)
  post c := iprop(StableHlo.held (c : Thread nD τ) (Pipeline.ucRefs τ sig) (W4 m c) ∗ idle c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (allDat m) launch1.win launch1.arr_whole c
      ((allDat m 1 c).share_full fun _ => rfl) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDat m 1 c).Φ 0 = Pipeline.ΦA spec1 c from rfl]; unfold Pipeline.ΦA
    iintro ⟨Hp, -, Hr⟩
    isplitl [Hr]; · iexact Hr
    iexact Hp
  hout c := by
    rw [Pipeline.ownSems0_none, show (allDat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allDat m) ((allDat m 1 c).share_full fun _ => rfl)
      (E3 m c) (E4 m c) ((allDat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD LAUNCH, entered from every unscoped buffer at `W7` and left at `W8`. Its arrays split out of the unscoped
    buffers at the contents the proof data are entered from and go back at what the write-backs leave; its invariant
    at every point is the generator register beside the scoped buffers no window stages; the dues are zero
    throughout; the kernel has no semaphore of its own. -/
def launchSeg2 : Pipeline.RegionSeg (pcfgs (F := F)) adm (allDat m) () defs₀ noBound noPairs noLevel 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ noPairs noLevel 2 fun _ _ => rfl
  pre c := iprop(StableHlo.held (c : Thread nD τ) (Pipeline.ucRefs τ sig) (W7 m c) ∗ idle c)
  post c := iprop(StableHlo.held (c : Thread nD τ) (Pipeline.ucRefs τ sig) (W8 m c) ∗ idle c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (allDat m) launch2.win launch2.arr_whole c
      ((allDat m 2 c).share_full fun _ => rfl) (E7 m c) fun w => A_eq2 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDat m 2 c).Φ 0 = Pipeline.ΦA spec2 c from rfl]; unfold Pipeline.ΦA
    iintro ⟨Hp, -, Hr⟩
    isplitl [Hr]; · iexact Hr
    iexact Hp
  hout c := by
    rw [Pipeline.ownSems0_none, show (allDat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allDat m) ((allDat m 2 c).share_full fun _ => rfl)
      (E7 m c) (E8 m c) ((allDat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the nine segments, and the run -/

/-- The nine segments in @main's order, each entered from the boundary the one before it left. -/
abbrev nine : List (Pipeline.Seg (pcfgs (F := F)) adm (allDat m) () defs₀ noBound noPairs noLevel) :=
  [ .host (stretch hostOps0 hostOps0_sub hostOps0_fresh (W0 m) idle₀),
    .region (launchSeg0 m),
    .host (stretch hostOps1 hostOps1_sub hostOps1_fresh (W2 m) idle),
    .region (launchSeg1 m),
    .host (stretch hostOps2 hostOps2_sub hostOps2_fresh (W4 m) idle),
    .host (stretch hostOps2_1 hostOps2_1_sub hostOps2_1_fresh (W5 m) idle),
    .host (stretch hostOps2_2 hostOps2_2_sub hostOps2_2_fresh (W6 m) idle),
    .region (launchSeg2 m),
    .host (stretch hostOps3 hostOps3_sub hostOps3_fresh (W8 m) idle) ]

/-- @main is the run of the nine: it is the chain of its nine items, and the segments' run is the chain of theirs. -/
theorem main_is_nine (c : Dev nD) : main (F := F) c = Pipeline.Seg.run (nine m) :=
  (main_chain c).trans (by chain_rfl)

set_option backward.isDefEq.respectTransparency.types false in
/-- THE RUN. From any memory with zero counters every weakly fair execution of @main terminates, faults nowhere, and
    ends with every unscoped buffer of every core at the last boundary's contents `W9`: the launch deals each core its
    unscoped buffers at the launch memory, its generator register and no dues, which is the first boundary; the nine
    segments chain boundary to boundary; the last boundary's buffers, held whole against the final state, are what
    that state's memory holds. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) adm (allDat m) () cellOf_inj emb₁ defs₀ noBound noPairs noLevel m ρ main (nine m)
    (fun c Q => by rw [main_is_nine m c])
    (by simp only [nine, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ idle₀ c)) (Tₙ := atEnd m)
    (hch := ⟨fun _ => .rfl, fun _ => .rfl, fun _ => .rfl, fun _ => .rfl, fun _ => .rfl, fun _ => .rfl, fun _ => .rfl,
      fun _ => .rfl, fun _ => .rfl, fun c => by
        change iprop(StableHlo.held (c : Thread nD τ) (Pipeline.ucRefs τ sig) (W9 m c) ∗ idle c) ⊢ _
        iintro ⟨Hh, Hp, HO⟩
        isplitr [HO]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.KernelIdeal.Hand

end
-- ==== Proof.KI.Keep.lean ====
/-
  What a segment of the program does not write keeps its contents. A stretch of host operations changes only the
  references it writes; a launch changes only the arrays of its output windows: every other buffer leaves the launch
  as it entered, and the array of an input window, never written back, ends as it entered too. Followed from
  boundary to boundary this gives the three argument arrays at the boundaries where they are read, as launched; the
  intermediate main_v1 still at its first value at the second launch's exit; and the arrays the three launches
  leave, as their output windows' final contents.
-/
import proofs.«425700_j4569845202979_3_alg».proof.Proof.KI.Chain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## One segment: a stretch of host operations keeps every reference it does not write -/

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W6_keep (c : Dev nD) (r : Ref sig .tc) (h : r ∉ hostOps2_1_W) : W6 m c r = W5 m c r :=
  StableHlo.after_of_writes_sub hostOps2_1 _ hostOps2_1_writes h
theorem W7_keep (c : Dev nD) (r : Ref sig .tc) (h : r ∉ hostOps2_2_W) : W7 m c r = W6 m c r :=
  StableHlo.after_of_writes_sub hostOps2_2 _ hostOps2_2_writes h
theorem W9_keep (c : Dev nD) (r : Ref sig .tc) (h : r ∉ hostOps3_W) : W9 m c r = W8 m c r :=
  StableHlo.after_of_writes_sub hostOps3 _ hostOps3_writes h

/-! ## One segment: a launch leaves the array of an input window as it entered -/

/-- main_arg0 is the first launch's window 0, an input: at the launch's exit it holds what it held at the entry. -/
theorem W2_in_arg0 (c : Dev nD) : W2 m c main_arg0 = W1 m c main_arg0 :=
  (W2_arr m c 0).trans (((dat0 (E1 m) c).arrAt_in 0 rfl _).trans (A_eq0 (E1 m) c 0))

/-- main_arg0 is the second launch's window 0, an input again. -/
theorem W4_in_arg0 (c : Dev nD) : W4 m c main_arg0 = W3 m c main_arg0 :=
  (W4_arr m c 0).trans (((dat1 (E3 m) c).arrAt_in 0 rfl _).trans (A_eq1 (E3 m) c 0))

/-! ## The argument arrays, as launched -/

theorem W1_arg0 (c : Dev nD) : W1 m c main_arg0 = m ((c : Thread nD τ).loc main_arg0) :=
  (W1_keep m c main_arg0 (by decide)).trans rfl
theorem W1_arg1 (c : Dev nD) : W1 m c main_arg1 = m ((c : Thread nD τ).loc main_arg1) :=
  (W1_keep m c main_arg1 (by decide)).trans rfl
theorem W1_arg2 (c : Dev nD) : W1 m c main_arg2 = m ((c : Thread nD τ).loc main_arg2) :=
  (W1_keep m c main_arg2 (by decide)).trans rfl

/-- At the second launch's entry: the stretch before it writes main_v10 only, the first launch read main_arg0. -/
theorem W3_arg0 (c : Dev nD) : W3 m c main_arg0 = m ((c : Thread nD τ).loc main_arg0) :=
  (W3_keep m c main_arg0 (by decide)).trans <| (W2_in_arg0 m c).trans <| W1_arg0 m c

/-- At the end: no stretch writes main_arg0, the first two launches read it, the third does not touch it. -/
theorem W9_arg0 (c : Dev nD) : W9 m c main_arg0 = m ((c : Thread nD τ).loc main_arg0) :=
  (W9_keep m c main_arg0 (by decide)).trans <| (W8_of_ne m c main_arg0 (by decide)).trans <|
  (W7_keep m c main_arg0 (by decide)).trans <| (W6_keep m c main_arg0 (by decide)).trans <|
  (W5_keep m c main_arg0 (by decide)).trans <| (W4_in_arg0 m c).trans <| W3_arg0 m c

/-- At the end: no stretch writes main_arg1 and it is no launch's array. -/
theorem W9_arg1 (c : Dev nD) : W9 m c main_arg1 = m ((c : Thread nD τ).loc main_arg1) :=
  (W9_keep m c main_arg1 (by decide)).trans <| (W8_of_ne m c main_arg1 (by decide)).trans <|
  (W7_keep m c main_arg1 (by decide)).trans <| (W6_keep m c main_arg1 (by decide)).trans <|
  (W5_keep m c main_arg1 (by decide)).trans <| (W4_of_ne m c main_arg1 (by decide)).trans <|
  (W3_keep m c main_arg1 (by decide)).trans <| (W2_of_ne m c main_arg1 (by decide)).trans <| W1_arg1 m c

/-- At the end: no stretch writes main_arg2 and it is no launch's array. -/
theorem W9_arg2 (c : Dev nD) : W9 m c main_arg2 = m ((c : Thread nD τ).loc main_arg2) :=
  (W9_keep m c main_arg2 (by decide)).trans <| (W8_of_ne m c main_arg2 (by decide)).trans <|
  (W7_keep m c main_arg2 (by decide)).trans <| (W6_keep m c main_arg2 (by decide)).trans <|
  (W5_keep m c main_arg2 (by decide)).trans <| (W4_of_ne m c main_arg2 (by decide)).trans <|
  (W3_keep m c main_arg2 (by decide)).trans <| (W2_of_ne m c main_arg2 (by decide)).trans <| W1_arg2 m c

/-! ## What the launches leave, and an intermediate carried past two of them -/

/-- main_v9 is the first launch's window 2: at the exit it holds that window's final contents. -/
theorem W2_v9 (c : Dev nD) : W2 m c main_v9 = (dat0 (E1 m) c).arrAt 2 cfg0.N :=
  W2_arr m c 2

/-- main_v1, written by the first stretch, is no array of the first two launches and the stretch between them
    writes main_v10 only. -/
theorem W4_v1 (c : Dev nD) : W4 m c main_v1 = W1 m c main_v1 :=
  (W4_of_ne m c main_v1 (by decide)).trans <| (W3_keep m c main_v1 (by decide)).trans <|
  W2_of_ne m c main_v1 (by decide)

/-- main_v11 is the second launch's window 2. -/
theorem W4_v11 (c : Dev nD) : W4 m c main_v11 = (dat1 (E3 m) c).arrAt 2 cfg1.N :=
  W4_arr m c 2

/-- main_v22 is the third launch's window 1. -/
theorem W8_v22 (c : Dev nD) : W8 m c main_v22 = (dat2 (E7 m) c).arrAt 1 cfg2.N :=
  W8_arr m c 1

end Cert.KernelIdeal.Hand

end
-- ==== Proof.K.Reg0Runs.lean ====
/-
  The first launch's body, run once per control case. The body zeroes a [1, 128] scratch row at the first grid point,
  adds to it the column sums of (a [2000, 128] block of the node table, each row scaled by that node's weight) at every
  point, and copies it to the [1, 128] output at the last point. Three cases: the first point (reset, no copy-out), a
  middle point (neither), the last point (copy-out, no reset). Here: the two branch conditions in closed form over the
  50 points, where the output window is idle and not written back, and for each case the body's triple on whole
  buffers, with what its stores leave in the scratch (and, at the last point, in the output) as a list of pieces.
-/
import proofs.«425700_j4569845202979_3_alg».proof.Proof.Gen.Kernel.Launch
import proofs.«425700_j4569845202979_3_alg».proof.Proof.Gen.Kernel.Skeleton
import proofs.«425700_j4569845202979_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's branch conditions -/

/-- The first `if`: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 50 = 0 :=
  (by decide +kernel : ∀ t : Fin grid0.N, cond0_0 (grid0.coords t) ↔ t.val % 50 = 0)

/-- The second `if`: the grid coordinate is 49. -/
abbrev cond0_1 (i : grid0.Coords) : Prop := k0_cond2 i = 1#1
/-- It holds at the last point only. -/
theorem hcond0_1 : ∀ t : Fin cfg0.N, cond0_1 (grid0.coords t) ↔ t.val % 50 = 49 :=
  (by decide +kernel : ∀ t : Fin grid0.N, cond0_1 (grid0.coords t) ↔ t.val % 50 = 49)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the output window is idle (the body stores nothing into it) and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last point it is live. -/
theorem liveAt0_2 : ∀ t : Fin cfg0.N, cond0_1 (grid0.coords t) → cfg0.idle 2 (grid0.coords t) = false := by decide +kernel

/-! ## The buffers the body is called with -/

/-- One staging buffer of the output window, through which its contents are stated. -/
abbrev VO0_2 : View sig .tc .vmem S1x128 .f32 := (Memref.whole cc0_stg2_0 : Memref sig .tc .vmem S1x128 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
/-- The scratch row. -/
abbrev scM0 : Memref sig .tc .vmem S1x128 .f32 := Memref.whole cc0_scratch0
abbrev VS0 : View sig .tc .vmem S1x128 .f32 := scM0.view

/-! ## The body's triple, case by case -/

set_option maxHeartbeats 1000000 in
/-- THE FIRST POINT (reset taken, copy-out not taken): the inputs' buffers at `x0`, `x1`, the output's at `xi2` handed back
    untouched, the scratch at anything; the scratch ends with the pieces `LS0` written. -/
noncomputable def kernelRun0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨[], ?_, fun xi2 E K => ?run⟩
  case run =>
    simp only [cc0_btw_kernel_eq_skeleton]; unfold cc0_btw_kernel_skel
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- A MIDDLE POINT (neither taken): as above, the scratch at what the point before left, `xs0`. -/
noncomputable def kernelRun0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) :
    Σ' (L2 : List (View.Piece (Elt F) S1x128 .f32)), { LS0 : List (View.Piece (Elt F) S1x128 .f32) //
      ∀ (xi2 : Vec F S1x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨[], ?_, fun xi2 E K => ?run⟩
  case run =>
    simp only [cc0_btw_kernel_eq_skeleton]; unfold cc0_btw_kernel_skel
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

set_option maxHeartbeats 1000000 in
/-- THE LAST POINT (reset not taken, copy-out taken): the output's buffer at anything; it ends with the pieces `L2` written,
    the scratch with `LS0`. -/
noncomputable def kernelRun0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) :
    Σ' (L2 : List (View.Piece (Elt F) S1x128 .f32)), { LS0 : List (View.Piece (Elt F) S1x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0_btw_kernel i arg1 harg1 arg2 harg2 arg3 harg3 arg4 harg4) K } := by
  refine ⟨?_, ?_, fun E K => ?run⟩
  case run =>
    simp only [cc0_btw_kernel_eq_skeleton]; unfold cc0_btw_kernel_skel
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Reg0.lean ====
/-
  The first launch (the weighted column sums of the node table, accumulated block by block in a scratch row that is
  zeroed at the first point and copied to the output at the last), at the buffer contents `V` the launch is entered from:
  what each case's stores leave in the scratch row and in the output block, what the two hold after each of the 50
  points (by recursion on the point: a later point adds to what the point before left), the invariant that carries the
  scratch row from point to point, the proof data, and the body obligation at every point.
-/
import proofs.«425700_j4569845202979_3_alg».proof.Proof.K.Reg0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

/-- The first point's pieces for the scratch row cover it. -/
theorem scover0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) (y : S1x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S1x128.size (by sl_kernel_rfl) y

/-- What the first point leaves in the scratch row. -/
def sout0_A (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) : Vec F S1x128 .f32 :=
  VS0.read (Elt F) (VS0.writes (Elt F) VS0.junk (kernelRun0_A c i arg1 harg1 arg2 harg2 arg3 harg3 arg4 harg4 hc0 hc1 x0 x1).2.1)

theorem scover0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) (y : S1x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S1x128.size (by sl_kernel_rfl) y

/-- What a middle point leaves in the scratch row, over what the point before left. -/
def sout0_B (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) : Vec F S1x128 .f32 :=
  VS0.read (Elt F) (VS0.writes (Elt F) VS0.junk (kernelRun0_B c i arg1 harg1 arg2 harg2 arg3 harg3 arg4 harg4 hc0 hc1 x0 x1 xs0).2.1)

theorem scover0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) (y : S1x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S1x128.size (by sl_kernel_rfl) y

/-- What the last point leaves in the scratch row. -/
def sout0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) : Vec F S1x128 .f32 :=
  VS0.read (Elt F) (VS0.writes (Elt F) VS0.junk (kernelRun0_C c i arg1 harg1 arg2 harg2 arg3 harg3 arg4 harg4 hc0 hc1 x0 x1 xs0).2.1)

theorem cover0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) (y : S1x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S1x128.size (by sl_kernel_rfl) y

/-- What the last point leaves in the output block. -/
def out0_C (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) : Vec F S1x128 .f32 :=
  VO0_2.read (Elt F) (VO0_2.writes (Elt F) VO0_2.junk (kernelRun0_C c i arg1 harg1 arg2 harg2 arg3 harg3 arg4 harg4 hc0 hc1 x0 x1 xs0).1)

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output block and the scratch row hold after each point -/

/-- After the body at position `n`: (the output block, the scratch row). The output component is a placeholder away
    from the last point (the window is idle there and not written back). -/
def outsAt0 (c : Dev nD) : (n : ℕ) → n < cfg0.N → Vec F S1x128 .f32 × Vec F S1x128 .f32
  | 0, hn =>
    (sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩),
     sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h1 : (n + 1) % 50 = 49 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) ((hcond0_1 ⟨n + 1, hn⟩).mpr h1) (iblk0 V c 0 ⟨n + 1, hn⟩) (iblk0 V c 1 ⟨n + 1, hn⟩) (outsAt0 c n (Nat.lt_of_succ_lt hn)).2)
    else
      (sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) (fun h => h1 ((hcond0_1 ⟨n + 1, hn⟩).mp h)) (iblk0 V c 0 ⟨n + 1, hn⟩) (iblk0 V c 1 ⟨n + 1, hn⟩) (outsAt0 c n (Nat.lt_of_succ_lt hn)).2,
       sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => absurd ((hcond0_0 ⟨n + 1, hn⟩).mp h) (by have hN := lt_of_lt_of_eq hn (show cfg0.N = 50 from N_0); (try dsimp only); omega)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At the first point: the reset case's contents. -/
theorem outsAt0_A (c : Dev nD) (t : Fin cfg0.N) (h0 : t.val % 50 = 0) (h1 : ¬t.val % 50 = 49) :
    outsAt0 V c t.val t.isLt = (sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t),
      sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exfalso; have hN : n + 1 < 50 := lt_of_lt_of_eq hn (show cfg0.N = 50 from N_0); (try dsimp only at h0); omega

/-- At a middle point: that case's contents, over what the point before left. -/
theorem outsAt0_B (c : Dev nD) (t : Fin cfg0.N) (h0 : ¬t.val % 50 = 0) (h1 : ¬t.val % 50 = 49) :
    outsAt0 V c t.val t.isLt = (sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2,
      sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans rfl

/-- At the last point: the copy-out case's contents, over what the point before left. -/
theorem outsAt0_C (c : Dev nD) (t : Fin cfg0.N) (h0 : ¬t.val % 50 = 0) (h1 : t.val % 50 = 49) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h1); omega)
  | succ n => exact (dif_pos h1).trans rfl

/-! ## The invariant that carries the scratch row -/

/-- The other scoped buffers of the core that are no staging buffer of this launch (the later launches' staging
    buffers), each whole at some contents: they ride along untouched. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f))

/-- The class invariant with the scratch row as a memref owned at some contents. -/
theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA rest0; rw [scopedRest0_eq]; simp only [scM0, owns_whole]; try rfl

/-- The invariant before position `n`: before the first point the class's (the scratch row at anything); afterwards the
    scratch row at what the point before left in it. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ rest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

/-- The proof data of the first launch on core `c`: the arrays as entered; after the body each input's buffer at its
    block, the output's at `outsAt0`'s first component; the carrying invariant; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem owed0 (c : Dev nD) (t : Fin (cfg0.N + 1)) : (dat0 V c).owed t = 0 := rfl
theorem q0 (c : Dev nD) (w : Fin cfg0.W) : (dat0 V c).q w = fullShare := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the closed forms say which case the point is in; the invariant hands the body the scratch
    row at what the point before left (at anything at the first point) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 50 := lt_of_lt_of_eq t.isLt (show cfg0.N = 50 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 50 = 49
  · have h0 : ¬t.val % 50 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS_castSucc V c t, PhiS_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 50 = 0
    · have hz : t.val = 0 := by omega
      rw [outsAt0_A V c t h0 h1]
      unfold sout0_A; (try dsimp only)
      rw [PhiS_castSucc V c t, PhiS_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A c _ _ _ _ _ _ _ _ _ _ _ _ _)
          iexact Hr
        iexact Hg
      isplitl [Ho]; · iexact Ho
      isplitl [H0]; · iexact H0
      isplitl [H1]; · iexact H1
      iexists _; iexact H2
    · have hz : t.val ≠ 0 := by omega
      rw [outsAt0_B V c t h0 h1]
      unfold sout0_B; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B c _ _ _ _ _ _ _ _ _ _ _ _ _ _)
          iexact Hr
        iexact Hg
      isplitl [Ho]; · iexact Ho
      isplitl [H0]; · iexact H0
      isplitl [H1]; · iexact H1
      iexists _; iexact H2

/-- The body obligation of the first launch, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives that back: the scratch row's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 50 := N_0; omega)

end Cert.Kernel.Hand

end
-- ==== Proof.K.Reg1.lean ====
/-
  The second launch (per-node scores: each [2000, 128] block of the node table times the [128, 1] column, 50 points),
  at the buffer contents `V` the launch is entered from: the windows' blocks read off their arrays, what the body
  stores into the output block (one store of the whole [2000, 1] block: the matrix product of the two input blocks
  onto a zero accumulator), the body's triple, the proof data (arrays as entered, each input's buffer left at its
  block, the output's at the stored value, nothing carried between points), and the body obligation at every point.
-/
import proofs.«425700_j4569845202979_3_alg».proof.Proof.Gen.Kernel.Launch
import proofs.«425700_j4569845202979_3_alg».proof.Proof.Gen.Kernel.Skeleton
import proofs.«425700_j4569845202979_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node-table window's current staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The column window's staging buffer holds the column at every point: fetched at the first point only, and its
    block index never moves. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The rectangles the body touches: each buffer whole. -/
abbrev r1a : Rect S2000x128 := Rect.unit (s := S2000x128) ![0, 0] S2000x128.size inb_S2000x128_S2000x128_0_0
abbrev r1b : Rect S128x1 := Rect.unit (s := S128x1) ![0, 0] S128x1.size inb_S128x1_S128x1_0_0
abbrev r1c : Rect S2000x1 := Rect.unit (s := S2000x1) ![0, 0] S2000x1.size inb_S2000x1_S2000x1_0_0

/-- The output block after the body, from the two input blocks: one store of the whole block. -/
def out1_2 (x0 : Vec F S2000x128 .f32) (x1 : Vec F S128x1 .f32) : Vec F S2000x1 .f32 :=
  View.canon [⟨r1c, k1_pay1 (View.ld x0 r1a) (View.ld x1 r1b)⟩]

/-- That store covers the block. -/
theorem cover1_2 (p0 : Vec F S2000x1 .f32) (y : S2000x1.Idx) :
    ∃ pc ∈ ([⟨r1c, p0⟩] : List (View.Piece (Elt F) S2000x1 .f32)), y ∈ pc.1.set :=
  View.cover_of_tiled [⟨r1c, p0⟩] S2000x1.size (by rfl) y

set_option maxHeartbeats 1000000 in
/-- The body on whole staging memrefs, the inputs' at `x0`, `x1` and the output's at anything, runs to the
    continuation holding the inputs' as they were and the output's at `out1_2 x0 x1`. -/
theorem sound_kernel1 (c : Dev nD) (E : Set ℕ) (i : grid1.Coords) (arg1 : Memref sig .tc .vmem S2000x128 .f32) (harg1 : arg1.IsWhole) (arg2 : Memref sig .tc .vmem S128x1 .f32) (harg2 : arg2.IsWhole) (arg3 : Memref sig .tc .vmem S2000x1 .f32) (harg3 : arg3.IsWhole)
    (x0 : Vec F S2000x128 .f32) (x1 : Vec F S128x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1_p_kernel i arg1 harg1 arg2 harg2 arg3 harg3) K := by
  simp only [cc1_p_kernel_eq_skeleton]; unfold cc1_p_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of the second launch on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second launch, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  The third launch (the elementwise pass over the padded [248, 2048] score array, 31 points of an [8, 2048] block),
  at the buffer contents `V` the launch is entered from: a block of the input read off its array, what the body
  stores into the output block (one store of the whole block: the pointwise payload of the input block), the body's
  triple, the proof data (arrays as entered, the input's buffer left at its block, the output's at the stored value,
  nothing carried between points), and the body obligation at every point.
-/
import proofs.«425700_j4569845202979_3_alg».proof.Proof.Gen.Kernel.Launch
import proofs.«425700_j4569845202979_3_alg».proof.Proof.Gen.Kernel.Skeleton
import proofs.«425700_j4569845202979_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input's current staging buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The one rectangle the body touches: the whole [8, 2048] block. -/
abbrev r2 : Rect S8x2048 := Rect.unit (s := S8x2048) ![0, 0] S8x2048.size inb_S8x2048_S8x2048_0_0

/-- The output block after the body, from the input block: one store of the whole block. -/
def out2_1 (x0 : Vec F S8x2048 .f32) : Vec F S8x2048 .f32 :=
  View.canon [⟨r2, k2_pay1 (View.ld x0 r2)⟩]

/-- That store covers the block. -/
theorem cover2_1 (p0 : Vec F S8x2048 .f32) (y : S8x2048.Idx) :
    ∃ pc ∈ ([⟨r2, p0⟩] : List (View.Piece (Elt F) S8x2048 .f32)), y ∈ pc.1.set :=
  View.cover_of_tiled [⟨r2, p0⟩] S8x2048.size (by rfl) y

set_option maxHeartbeats 1000000 in
/-- The body on whole staging memrefs, the input's at `x0` and the output's at anything, runs to the continuation
    holding the input's as it was and the output's at `out2_1 x0`. -/
theorem sound_kernel2 (c : Dev nD) (E : Set ℕ) (i : grid2.Coords) (arg1 : Memref sig .tc .vmem S8x2048 .f32) (harg1 : arg1.IsWhole) (arg2 : Memref sig .tc .vmem S8x2048 .f32) (harg2 : arg2.IsWhole)
    (x0 : Vec F S8x2048 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_sigmoid_log_kernel i arg1 harg1 arg2 harg2) K := by
  simp only [cc2_sigmoid_log_kernel_eq_skeleton]; unfold cc2_sigmoid_log_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover2_1 _)

/-- The proof data of the third launch on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = out2_1 (iblk2 V c 0 t) := by dsimp only [dat2]

theorem before2_0 (c : Dev nD) (t : Fin cfg2.N) (d) : (dat2 V c).before 0 t d = iblk2 V c 0 t :=
  before2_0_of V (dat2 V c) (A_eq2 V c 0) (after2_0 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).Φ t.succ = (dat2 V c).Φ t.castSucc from rfl,
    show (dat2 V c).owesAt () t.succ = (dat2 V c).owesAt () t.castSucc from rfl,
    after2_0, after2_1]
  iintro ⟨HΦ, Ho, ⟨%d0, H0⟩, ⟨%d1, H1⟩⟩
  iapply (sound_kernel2 c Set.univ _ _ _ _ _ (iblk2 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the third launch, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Chain.lean ====
/-
  The buffer contents of a core at every boundary between two segments of the program (a stretch of host
  operations, or one of the three launches): a fold from the launch memory. After a stretch, its operations applied;
  after a launch, that launch's arrays at what its write-backs leave and every other buffer as entered.
-/
import proofs.«425700_j4569845202979_3_alg».proof.Proof.K.Reg0
import proofs.«425700_j4569845202979_3_alg».proof.Proof.K.Reg1
import proofs.«425700_j4569845202979_3_alg».proof.Proof.K.Reg2
import proofs.«425700_j4569845202979_3_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m (c, b)
/-- After the first host stretch (the first launch's entry). -/
abbrev W1 : Dev nD → Valuation τ sig (Elt F) := fun c => StableHlo.after hostOps0 (W0 m c)
/-- The same read at the TensorCore's references. -/
abbrev E1 : (c : Dev nD) → (b : Ref sig .tc) → Buf (Elt F) ((c : Thread nD τ).loc b) := fun c b => W1 m c b
/-- At the first launch's exit. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev E2 : (c : Dev nD) → (b : Ref sig .tc) → Buf (Elt F) ((c : Thread nD τ).loc b) := fun c b => W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- After the second host stretch (the second launch's entry). -/
abbrev W3 : Dev nD → Valuation τ sig (Elt F) := fun c => StableHlo.after hostOps1 (W2 m c)
abbrev E3 : (c : Dev nD) → (b : Ref sig .tc) → Buf (Elt F) ((c : Thread nD τ).loc b) := fun c b => W3 m c b
/-- At the second launch's exit. -/
def W4 (c : Dev nD) : Valuation τ sig (Elt F) :=
  Pipeline.withArrays spec1 c (W3 m c) fun w => (dat1 (E3 m) c).arrAt w cfg1.N
theorem W4_arr (c : Dev nD) (w : Fin cfg1.W) :
    W4 m c (Proc.devRef .tc (Pipeline.arrRef spec1 w)) = (dat1 (E3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev E4 : (c : Dev nD) → (b : Ref sig .tc) → Buf (Elt F) ((c : Thread nD τ).loc b) := fun c b => W4 m c b
theorem hF1 (c : Dev nD) (w : Fin cfg1.W) : (dat1 (E3 m) c).arrAt w cfg1.N = E4 m c (Pipeline.arrRef spec1 w) :=
  (W4_arr m c w).symm
theorem hrest1 (c : Dev nD) : ∀ b, b ∉ Finset.univ.image (Pipeline.arrRef spec1) → E4 m c b = E3 m c b :=
  fun b hb => W4_of_ne m c b fun w e => hb (Finset.mem_image.mpr ⟨w, Finset.mem_univ _, e⟩)

/-- After the three host stretches between the second and the third launch (the third launch's entry). -/
abbrev W5 : Dev nD → Valuation τ sig (Elt F) := fun c => StableHlo.after hostOps2 (W4 m c)
abbrev W6 : Dev nD → Valuation τ sig (Elt F) := fun c => StableHlo.after hostOps2_1 (W5 m c)
abbrev W7 : Dev nD → Valuation τ sig (Elt F) := fun c => StableHlo.after hostOps2_2 (W6 m c)
abbrev E7 : (c : Dev nD) → (b : Ref sig .tc) → Buf (Elt F) ((c : Thread nD τ).loc b) := fun c b => W7 m c b
/-- At the third launch's exit. -/
def W8 (c : Dev nD) : Valuation τ sig (Elt F) :=
  Pipeline.withArrays spec2 c (W7 m c) fun w => (dat2 (E7 m) c).arrAt w cfg2.N
theorem W8_arr (c : Dev nD) (w : Fin cfg2.W) :
    W8 m c (Proc.devRef .tc (Pipeline.arrRef spec2 w)) = (dat2 (E7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev E8 : (c : Dev nD) → (b : Ref sig .tc) → Buf (Elt F) ((c : Thread nD τ).loc b) := fun c b => W8 m c b
theorem hF2 (c : Dev nD) (w : Fin cfg2.W) : (dat2 (E7 m) c).arrAt w cfg2.N = E8 m c (Pipeline.arrRef spec2 w) :=
  (W8_arr m c w).symm
theorem hrest2 (c : Dev nD) : ∀ b, b ∉ Finset.univ.image (Pipeline.arrRef spec2) → E8 m c b = E7 m c b :=
  fun b hb => W8_of_ne m c b fun w e => hb (Finset.mem_image.mpr ⟨w, Finset.mem_univ _, e⟩)

/-- After the last host stretch: the contents the program ends with. -/
abbrev W9 : Dev nD → Valuation τ sig (Elt F) := fun c => StableHlo.after hostOps3 (W8 m c)

end Cert.Kernel.Hand

end
-- ==== Proof.K.Run.lean ====
/-
  The launch. @main is nine segments in order: a stretch of host operations, the first launch, a stretch, the second
  launch, three stretches, the third launch, a last stretch. Between two segments a core holds every unscoped buffer
  whole at the boundary's contents (the fold W0 … W9 from the launch memory), its generator register at some state,
  and owes no other core anything. A stretch takes the buffers from one boundary's contents to its operations applied
  to them. A launch takes its windows' arrays out of the unscoped buffers at the contents its proof data are entered
  from, runs its points, and puts the arrays back at what the write-backs leave, every other buffer untouched.
  Composed from the launch memory with zero counters: every weakly fair execution terminates, faults nowhere, and
  ends with every unscoped buffer of every core at the last boundary's contents.
-/
import proofs.«425700_j4569845202979_3_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The three launches' proof data, and what rides beside the buffers -/

/-- Each launch's proof data at the contents its launch is entered from: the first at the first boundary after a
    stretch, the second at the third boundary, the third at the seventh. -/
def allDat : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E7 m) c

/-- No host loop bounds the run. -/
abbrev noBound : Variants := Variants.none
/-- No core owes another anything at any time, so no pair of a semaphore and an index carries a level. -/
abbrev noPairs : GSem nD τ sig → Finset Unit := fun _ => ∅
abbrev noLevel : GSem nD τ sig → Unit → ℕ := fun _ _ => 0

/-- Beside the buffers from the first launch's exit on: the generator register at some state, and the core owing nothing
    (its waits having recorded some set of pairs). -/
abbrev idle (c : Dev nD) : sProp 𝕄 :=
  iprop((∃ r, prngReg c r) ∗ ∃ W, owes (c : Thread nD τ) (0 : CellTallies nD τ sig Unit) W)
/-- Beside the buffers up to the first launch's entry: the same, no wait having recorded any pair yet. -/
abbrev idle₀ (c : Dev nD) : sProp 𝕄 :=
  iprop((∃ r, prngReg c r) ∗ owes (c : Thread nD τ) (0 : CellTallies nD τ sig Unit) ∅)

/-- A stretch of host operations as a segment: the unscoped buffers held at `W c` go to the operations applied to
    `W c`, and `R c` rides along unchanged. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) (R : Dev nD → sProp 𝕄) :
    Pipeline.HostSeg (Name := ℕ) (U := UR sig nD τ) (pcfgs (F := F)) defs₀ noBound noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last boundary without the dues: every unscoped buffer at `W9`, the generator register at some state. -/
abbrev atEnd (c : Dev nD) : sProp 𝕄 :=
  iprop(StableHlo.held (c : Thread nD τ) (Pipeline.ucRefs τ sig) (W9 m c) ∗ ∃ r, prngReg c r)

/-! ## The dues at a launch's two ends -/

/-- Owing nothing with nothing recorded is the first launch's dues before its first point: its tallies are zero
    there, and the empty set lies within any bound. -/
theorem dues_in0 (c : Dev nD) :
    (owes (c : Thread nD τ) (0 : CellTallies nD τ sig Unit) ∅ : sProp 𝕄) ⊢ (dat0 (E1 m) c).owesAt () 0 := by
  unfold Pipeline.Dat.owesAt Pipeline.owesWithin
  rw [owed0]
  iintro H
  iexists ∅
  isplitr
  · ipureintro; rw [Finset.coe_empty]; exact Set.empty_subset _
  iexact H

/-- The first launch's dues after its last point are the core owing nothing: its tallies are zero there too. -/
theorem dues_out0 (c : Dev nD) :
    (dat0 (E1 m) c).owesAt () (Fin.last cfg0.N)
      ⊢ (iprop(∃ W, owes (c : Thread nD τ) (0 : CellTallies nD τ sig Unit) W) : sProp 𝕄) := by
  unfold Pipeline.Dat.owesAt Pipeline.owesWithin
  rw [owed0]
  iintro ⟨%W, -, H⟩
  iexists W
  iexact H

/-! ## The launches as segments -/

set_option backward.isDefEq.respectTransparency.types false in
/-- THE FIRST LAUNCH, entered from every unscoped buffer at `W1` and left at `W2`. Its three arrays split out of the
    unscoped buffers at the contents the proof data are entered from and go back at what the write-backs leave; the
    generator register and the scoped buffers no window stages make the invariant before the first point, and the
    invariant after the last gives them back; the dues are zero at both ends; the kernel has no semaphore of its own. -/
def launchSeg0 : Pipeline.RegionSeg (pcfgs (F := F)) adm (allDat m) () defs₀ noBound noPairs noLevel 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ noPairs noLevel 0 fun c t => owed0 (E1 m) c t
  pre c := iprop(StableHlo.held (c : Thread nD τ) (Pipeline.ucRefs τ sig) (W1 m c) ∗ idle₀ c)
  post c := iprop(StableHlo.held (c : Thread nD τ) (Pipeline.ucRefs τ sig) (W2 m c) ∗ idle c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (allDat m) launch0.win launch0.arr_whole c
      ((allDat m 0 c).share_full fun w => q0 (E1 m) c w) (E1 m c) fun w => A_eq0 (E1 m) c w
    rw [Pipeline.unscopedBufs_held] at hsplit
    have hdue := dues_in0 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hdue; iexact HO
    isplitl [Hp]; · iexact Hp
    iexact Hrest
  hin c := by
    refine BIBase.Entails.trans ?_ (hin0 (E1 m) c)
    unfold Pipeline.ΦA
    iintro ⟨Hp, -, Hr⟩
    isplitl [Hr]; · iexact Hr
    iexact Hp
  hout c := by
    rw [Pipeline.ownSems0_none]
    refine BIBase.Entails.trans (hout0 (E1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (allDat m) ((allDat m 0 c).share_full fun w => q0 (E1 m) c w)
      (E1 m c) (E2 m c) ((allDat m 0 c).arrAt · cfg0.N) (hF0 m c) (hrest0 m c)
    rw [Pipeline.unscopedBufs_held] at hjoin
    have hdue := dues_out0 m c
    iintro ⟨Ha, HO, HY, Hrest⟩
    imodintro
    isplitl [Ha Hrest]
    · iapply hjoin; isplitl [Ha] <;> iassumption
    isplitl [HY]; · iexact HY
    iapply hdue; iexact HO

set_option backward.isDefEq.respectTransparency.types false in
/-- THE SECOND LAUNCH, entered from every unscoped buffer at `W3` and left at `W4`. Its arrays split out of the unscoped
    buffers at the contents the proof data are entered from and go back at what the write-backs leave; its invariant
    at every point is the generator register beside the scoped buffers no window stages; the dues are zero
    throughout; the kernel has no semaphore of its own. -/
def launchSeg1 : Pipeline.RegionSeg (pcfgs (F := F)) adm (allDat m) () defs₀ noBound noPairs noLevel 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ noPairs noLevel 1 fun _ _ => rfl
  pre c := iprop(StableHlo.held (c : Thread nD τ) (Pipeline.ucRefs τ sig) (W3 m c) ∗ idle c)
  post c := iprop(StableHlo.held (c : Thread nD τ) (Pipeline.ucRefs τ sig) (W4 m c) ∗ idle c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (allDat m) launch1.win launch1.arr_whole c
      ((allDat m 1 c).share_full fun _ => rfl) (E3 m c) fun w => A_eq1 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDat m 1 c).Φ 0 = Pipeline.ΦA spec1 c from rfl]; unfold Pipeline.ΦA
    iintro ⟨Hp, -, Hr⟩
    isplitl [Hr]; · iexact Hr
    iexact Hp
  hout c := by
    rw [Pipeline.ownSems0_none, show (allDat m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (allDat m) ((allDat m 1 c).share_full fun _ => rfl)
      (E3 m c) (E4 m c) ((allDat m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE THIRD LAUNCH, entered from every unscoped buffer at `W7` and left at `W8`. Its arrays split out of the unscoped
    buffers at the contents the proof data are entered from and go back at what the write-backs leave; its invariant
    at every point is the generator register beside the scoped buffers no window stages; the dues are zero
    throughout; the kernel has no semaphore of its own. -/
def launchSeg2 : Pipeline.RegionSeg (pcfgs (F := F)) adm (allDat m) () defs₀ noBound noPairs noLevel 2 where
  win := launch2.win.to₀
  block_pos := launch2.block_pos
  stage_whole := launch2.stage_whole
  K := PEmpty
  osem k := k.elim
  ho := Pipeline.OwnSemFacts.none _
  hbody c := (body_obligation2 (E7 m) c).loose
  hwaits := Pipeline.hwaits_of_owed_zero _ _ _ _ noPairs noLevel 2 fun _ _ => rfl
  pre c := iprop(StableHlo.held (c : Thread nD τ) (Pipeline.ucRefs τ sig) (W7 m c) ∗ idle c)
  post c := iprop(StableHlo.held (c : Thread nD τ) (Pipeline.ucRefs τ sig) (W8 m c) ∗ idle c)
  X c := iprop(∃ r, prngReg c r)
  Y c := iprop(∃ r, prngReg c r)
  Z c := Pipeline.unscopedRest (Ix := Unit) (Name := ℕ) (U := UR sig nD τ) (Lvl := ℕ) spec2 c (E7 m c)
  hentry c := by
    rw [Pipeline.ownSems0_none]
    have hsplit := Pipeline.arrays_of_unscopedBufs (p := 2) (pcfgs (F := F)) adm (allDat m) launch2.win launch2.arr_whole c
      ((allDat m 2 c).share_full fun _ => rfl) (E7 m c) fun w => A_eq2 (E7 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (allDat m 2 c).Φ 0 = Pipeline.ΦA spec2 c from rfl]; unfold Pipeline.ΦA
    iintro ⟨Hp, -, Hr⟩
    isplitl [Hr]; · iexact Hr
    iexact Hp
  hout c := by
    rw [Pipeline.ownSems0_none, show (allDat m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (allDat m) ((allDat m 2 c).share_full fun _ => rfl)
      (E7 m c) (E8 m c) ((allDat m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as the nine segments, and the run -/

/-- The nine segments in @main's order, each entered from the boundary the one before it left. -/
abbrev nine : List (Pipeline.Seg (pcfgs (F := F)) adm (allDat m) () defs₀ noBound noPairs noLevel) :=
  [ .host (stretch hostOps0 hostOps0_sub hostOps0_fresh (W0 m) idle₀),
    .region (launchSeg0 m),
    .host (stretch hostOps1 hostOps1_sub hostOps1_fresh (W2 m) idle),
    .region (launchSeg1 m),
    .host (stretch hostOps2 hostOps2_sub hostOps2_fresh (W4 m) idle),
    .host (stretch hostOps2_1 hostOps2_1_sub hostOps2_1_fresh (W5 m) idle),
    .host (stretch hostOps2_2 hostOps2_2_sub hostOps2_2_fresh (W6 m) idle),
    .region (launchSeg2 m),
    .host (stretch hostOps3 hostOps3_sub hostOps3_fresh (W8 m) idle) ]

/-- @main is the run of the nine: it is the chain of its nine items, and the segments' run is the chain of theirs. -/
theorem main_is_nine (c : Dev nD) : main (F := F) c = Pipeline.Seg.run (nine m) :=
  (main_chain c).trans (by chain_rfl)

set_option backward.isDefEq.respectTransparency.types false in
/-- THE RUN. From any memory with zero counters every weakly fair execution of @main terminates, faults nowhere, and
    ends with every unscoped buffer of every core at the last boundary's contents `W9`: the launch deals each core its
    unscoped buffers at the launch memory, its generator register and no dues, which is the first boundary; the nine
    segments chain boundary to boundary; the last boundary's buffers, held whole against the final state, are what
    that state's memory holds. -/
theorem run_all (m : (ℓ : Loc nD τ sig) → Buf (Elt F) ℓ) (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W9 m c b) :=
  Pipeline.θ_run_regions_kit (pcfgs (F := F)) adm (allDat m) () cellOf_inj emb₁ defs₀ noBound noPairs noLevel m ρ main (nine m)
    (fun c Q => by rw [main_is_nine m c])
    (by simp only [nine, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ idle₀ c)) (Tₙ := atEnd m)
    (hch := ⟨fun _ => .rfl, fun _ => .rfl, fun _ => .rfl, fun _ => .rfl, fun _ => .rfl, fun _ => .rfl, fun _ => .rfl,
      fun _ => .rfl, fun _ => .rfl, fun c => by
        change iprop(StableHlo.held (c : Thread nD τ) (Pipeline.ucRefs τ sig) (W9 m c) ∗ idle c) ⊢ _
        iintro ⟨Hh, Hp, HO⟩
        isplitr [HO]
        · isplitl [Hh]; · iexact Hh
          iexact Hp
        iexact HO⟩)
    (hinit := by
      refine Pipeline.initEach noPairs noLevel fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W9 m c b)
    (hfin := fun c s' => by
      iintro ⟨⟨Hh, -⟩, HSI⟩
      unfold StableHlo.held
      imodintro
      iapply (pointsTo_read_all (Pipeline.ucRefs τ sig) (fun b => (((c : Thread nD τ)).1, b)) (W9 m c) s')
      isplitl [Hh] <;> iassumption)
    (hQ := fun s h => h)

end Cert.Kernel.Hand

end
-- ==== Proof.K.Keep.lean ====
/-
  What a segment of the program does not write keeps its contents. A stretch of host operations changes only the
  references it writes; a launch changes only the arrays of its output windows: every other buffer leaves the launch
  as it entered, and the array of an input window, never written back, ends as it entered too. Followed from
  boundary to boundary this gives the three argument arrays at the boundaries where they are read, as launched; the
  intermediate main_v1 still at its first value at the second launch's exit; and the arrays the three launches
  leave, as their output windows' final contents.
-/
import proofs.«425700_j4569845202979_3_alg».proof.Proof.K.Chain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## One segment: a stretch of host operations keeps every reference it does not write -/

theorem W1_keep (c : Dev nD) (r : Ref sig .tc) (h : r ∉ hostOps0_W) : W1 m c r = W0 m c r :=
  StableHlo.after_of_writes_sub hostOps0 _ hostOps0_writes h
theorem W3_keep (c : Dev nD) (r : Ref sig .tc) (h : r ∉ hostOps1_W) : W3 m c r = W2 m c r :=
  StableHlo.after_of_writes_sub hostOps1 _ hostOps1_writes h
theorem W5_keep (c : Dev nD) (r : Ref sig .tc) (h : r ∉ hostOps2_W) : W5 m c r = W4 m c r :=
  StableHlo.after_of_writes_sub hostOps2 _ hostOps2_writes h
theorem W6_keep (c : Dev nD) (r : Ref sig .tc) (h : r ∉ hostOps2_1_W) : W6 m c r = W5 m c r :=
  StableHlo.after_of_writes_sub hostOps2_1 _ hostOps2_1_writes h
theorem W7_keep (c : Dev nD) (r : Ref sig .tc) (h : r ∉ hostOps2_2_W) : W7 m c r = W6 m c r :=
  StableHlo.after_of_writes_sub hostOps2_2 _ hostOps2_2_writes h
theorem W9_keep (c : Dev nD) (r : Ref sig .tc) (h : r ∉ hostOps3_W) : W9 m c r = W8 m c r :=
  StableHlo.after_of_writes_sub hostOps3 _ hostOps3_writes h

/-! ## One segment: a launch leaves the array of an input window as it entered -/

/-- main_arg0 is the first launch's window 0, an input: at the launch's exit it holds what it held at the entry. -/
theorem W2_in_arg0 (c : Dev nD) : W2 m c main_arg0 = W1 m c main_arg0 :=
  (W2_arr m c 0).trans (((dat0 (E1 m) c).arrAt_in 0 rfl _).trans (A_eq0 (E1 m) c 0))

/-- main_arg0 is the second launch's window 0, an input again. -/
theorem W4_in_arg0 (c : Dev nD) : W4 m c main_arg0 = W3 m c main_arg0 :=
  (W4_arr m c 0).trans (((dat1 (E3 m) c).arrAt_in 0 rfl _).trans (A_eq1 (E3 m) c 0))

/-! ## The argument arrays, as launched -/

theorem W1_arg0 (c : Dev nD) : W1 m c main_arg0 = m ((c : Thread nD τ).loc main_arg0) :=
  (W1_keep m c main_arg0 (by decide)).trans rfl
theorem W1_arg1 (c : Dev nD) : W1 m c main_arg1 = m ((c : Thread nD τ).loc main_arg1) :=
  (W1_keep m c main_arg1 (by decide)).trans rfl
theorem W1_arg2 (c : Dev nD) : W1 m c main_arg2 = m ((c : Thread nD τ).loc main_arg2) :=
  (W1_keep m c main_arg2 (by decide)).trans rfl

/-- At the second launch's entry: the stretch before it writes main_v10 only, the first launch read main_arg0. -/
theorem W3_arg0 (c : Dev nD) : W3 m c main_arg0 = m ((c : Thread nD τ).loc main_arg0) :=
  (W3_keep m c main_arg0 (by decide)).trans <| (W2_in_arg0 m c).trans <| W1_arg0 m c

/-- At the end: no stretch writes main_arg0, the first two launches read it, the third does not touch it. -/
theorem W9_arg0 (c : Dev nD) : W9 m c main_arg0 = m ((c : Thread nD τ).loc main_arg0) :=
  (W9_keep m c main_arg0 (by decide)).trans <| (W8_of_ne m c main_arg0 (by decide)).trans <|
  (W7_keep m c main_arg0 (by decide)).trans <| (W6_keep m c main_arg0 (by decide)).trans <|
  (W5_keep m c main_arg0 (by decide)).trans <| (W4_in_arg0 m c).trans <| W3_arg0 m c

/-- At the end: no stretch writes main_arg1 and it is no launch's array. -/
theorem W9_arg1 (c : Dev nD) : W9 m c main_arg1 = m ((c : Thread nD τ).loc main_arg1) :=
  (W9_keep m c main_arg1 (by decide)).trans <| (W8_of_ne m c main_arg1 (by decide)).trans <|
  (W7_keep m c main_arg1 (by decide)).trans <| (W6_keep m c main_arg1 (by decide)).trans <|
  (W5_keep m c main_arg1 (by decide)).trans <| (W4_of_ne m c main_arg1 (by decide)).trans <|
  (W3_keep m c main_arg1 (by decide)).trans <| (W2_of_ne m c main_arg1 (by decide)).trans <| W1_arg1 m c

/-- At the end: no stretch writes main_arg2 and it is no launch's array. -/
theorem W9_arg2 (c : Dev nD) : W9 m c main_arg2 = m ((c : Thread nD τ).loc main_arg2) :=
  (W9_keep m c main_arg2 (by decide)).trans <| (W8_of_ne m c main_arg2 (by decide)).trans <|
  (W7_keep m c main_arg2 (by decide)).trans <| (W6_keep m c main_arg2 (by decide)).trans <|
  (W5_keep m c main_arg2 (by decide)).trans <| (W4_of_ne m c main_arg2 (by decide)).trans <|
  (W3_keep m c main_arg2 (by decide)).trans <| (W2_of_ne m c main_arg2 (by decide)).trans <| W1_arg2 m c

/-! ## What the launches leave, and an intermediate carried past two of them -/

/-- main_v9 is the first launch's window 2: at the exit it holds that window's final contents. -/
theorem W2_v9 (c : Dev nD) : W2 m c main_v9 = (dat0 (E1 m) c).arrAt 2 cfg0.N :=
  W2_arr m c 2

/-- main_v1, written by the first stretch, is no array of the first two launches and the stretch between them
    writes main_v10 only. -/
theorem W4_v1 (c : Dev nD) : W4 m c main_v1 = W1 m c main_v1 :=
  (W4_of_ne m c main_v1 (by decide)).trans <| (W3_keep m c main_v1 (by decide)).trans <|
  W2_of_ne m c main_v1 (by decide)

/-- main_v11 is the second launch's window 2. -/
theorem W4_v11 (c : Dev nD) : W4 m c main_v11 = (dat1 (E3 m) c).arrAt 2 cfg1.N :=
  W4_arr m c 2

/-- main_v22 is the third launch's window 1. -/
theorem W8_v22 (c : Dev nD) : W8 m c main_v22 = (dat2 (E7 m) c).arrAt 1 cfg2.N :=
  W8_arr m c 1

end Cert.Kernel.Hand

end
-- ==== Proof.LibIndex.lean ====
/-
  Reading a row gather and an accumulating row scatter at an index.
  A row gather takes row `idx[t]` of a two-axis operand for every `t`: the start index is read signed and clamped
  into the operand's rows. An accumulating scatter adds update row `t` into operand row `idx[t]`: the start index
  is read signed and NOT clamped, and an update whose row is outside the operand is dropped; so at the ideal
  instance the result at row `n` is the operand's entry plus the sum of the updates over the `t` with `idx[t] = n`.
-/
import Idealize.ShloMosaic.PureOps.Ideal
import Idealize.ShloMosaic.Lib.ValueIdx

noncomputable section

namespace Cert.LibIndex

open Idealize.ShloMosaic Idealize.ShloMosaic.ValueIdx

/-- The dimension numbers of a row gather: operand `[N, C]`, indices `[T, 1]`, result `[T, C]`; result row `t` is the
    operand's row at the start index `idx[t, 0]`, whole (slice sizes `[1, C]`, the row axis collapsed). -/
abbrev rowGatherDims (N T C : Nat)
    (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

section Gather
variable {N T C w : Nat}
  (wf : GatherDims.WF ⟨2, ![N, C]⟩ ⟨2, ![T, 1]⟩ ⟨2, ![T, C]⟩ [1] [0] [] [0] [] 1 ![1, C])

/-- Result position `(t, j)` reads its start index at `(t, 0)`: the result's one batch axis (axis 0) supplies the
    indices' axis 0, and the index vector (axis 1, of extent 1) has only the component `0`. -/
theorem rowGather_siIdx (t : Fin T) (j : Fin C) (c : Fin (rowGatherDims N T C wf).startIndexMap.length) :
    (rowGatherDims N T C wf).siIdx (ix2 t j) c = ix2 t (0 : Fin 1) := by
  funext b
  refine Fin.ext ?_
  match b with
  | ⟨0, _⟩ => rfl
  | ⟨1, _⟩ =>
    have hc : c.val < 1 := c.isLt
    show c.val = 0
    omega

/-- On the row axis the slice starts at the start index read signed and clamped into `[0, N - 1]`: the axis is the one
    the start index map names, and the slice there has one row. -/
theorem rowGather_row_start (idx : IVec ⟨2, ![T, 1]⟩ w) (t : Fin T) (j : Fin C) :
    (rowGatherDims N T C wf).start (ix2 t j) idx 0 = min (idx (ix2 t (0 : Fin 1))).toInt.toNat (N - 1) := by
  unfold GatherDims.start
  rw [dif_pos (show (0 : Fin 2) ∈ (rowGatherDims N T C wf).startIndexMap from List.mem_singleton.mpr rfl),
    rowGather_siIdx]
  rfl

/-- The row axis is collapsed, so the result gives it no offset. -/
theorem rowGather_row_off (t : Fin T) (j : Fin C) : (rowGatherDims N T C wf).offCoord (ix2 t j) 0 = 0 :=
  GatherDims.offCoord_eq_zero _ _ _ (fun h => ((GatherDims.mem_sKept _ _).mp h).1 (List.mem_singleton.mpr rfl))

/-- The column axis is not named by the start index map: its slice starts at `0`. -/
theorem rowGather_col_start (idx : IVec ⟨2, ![T, 1]⟩ w) (t : Fin T) (j : Fin C) :
    (rowGatherDims N T C wf).start (ix2 t j) idx 1 = 0 := by
  unfold GatherDims.start
  rw [dif_neg]
  intro h
  exact absurd (congrArg Fin.val (List.mem_singleton.mp h)) Nat.one_ne_zero

/-- The column axis is the operand's one kept axis, read by the result's one offset axis (axis 1): the offset is `j`. -/
theorem rowGather_col_off (t : Fin T) (j : Fin C) :
    (rowGatherDims N T C wf).offCoord (ix2 t j) 1 = j.val := rfl

end Gather

/-- THE ROW GATHER READ AT `(t, j)`: the operand at row `idx[t, 0]` (read signed, clamped into `[0, N − 1]`), column `j`. -/
theorem rowGather_apply {α : Type} {N T C w : Nat} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (t : Fin T) (j : Fin C) :
    Host.gather (rowGatherDims N T C wf) x idx (ix2 t j)
      = x (ix2 (⟨min (idx (ix2 t (0 : Fin 1))).toInt.toNat (N - 1), by omega⟩ : Fin N) j) := by
  -- the gather reads the operand at the position whose coordinate on each axis is
  -- slice start + batching coordinate + offset; there is no batching axis, so the middle term is 0 on both axes
  have hb : ∀ a, (rowGatherDims N T C wf).batchCoord (ix2 t j) a = 0 :=
    fun a => GatherDims.batchCoord_eq_zero _ _ a List.not_mem_nil
  unfold Host.gather
  congr 1
  funext a
  refine Fin.ext ?_
  match a with
  | ⟨0, _⟩ =>
    -- row axis: clamped start index + 0 + 0
    show (rowGatherDims N T C wf).start (ix2 t j) idx 0 + (rowGatherDims N T C wf).batchCoord (ix2 t j) 0
        + (rowGatherDims N T C wf).offCoord (ix2 t j) 0 = min (idx (ix2 t (0 : Fin 1))).toInt.toNat (N - 1)
    rw [hb, rowGather_row_off, rowGather_row_start]
    rfl
  | ⟨1, _⟩ =>
    -- column axis: 0 + 0 + j
    show (rowGatherDims N T C wf).start (ix2 t j) idx 1 + (rowGatherDims N T C wf).batchCoord (ix2 t j) 1
        + (rowGatherDims N T C wf).offCoord (ix2 t j) 1 = j.val
    rw [hb, rowGather_col_off, rowGather_col_start]
    omega

/-! ## Accumulating scatters -/

/-- An update at `j` lands on operand position `i` exactly when, on every operand axis, its (unclamped, signed) window
    start plus its window coordinate is `i`'s coordinate: the landing position exists when that sum is inside the
    operand on every axis, and then is that sum; and a coordinate of `i` is inside the operand. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i hin
    rw [Option.some.injEq]
    constructor
    · intro he a
      have h1 := hin a
      have h2 : (d.start j idx a + (d.window j a : Int)).toNat = (i a).val := by rw [← he]
      omega
    · intro hall
      funext a
      refine Fin.ext ?_
      have h1 := hall a
      show (d.start j idx a + (d.window j a : Int)).toNat = (i a).val
      omega
  · rename_i hout
    constructor
    · intro he
      cases he
    · intro hall
      refine absurd (fun a => ?_) hout
      have h1 := hall a
      have h2 := (i a).isLt
      omega

/-- The dimension numbers of an accumulating row scatter: operand `[N, H]`, indices `[T, 1]`, updates `[T, H]`; update
    row `t` goes to operand row `idx[t, 0]`. -/
abbrev rowScatterDims (N T H : Nat)
    (wf : ScatterDims.WF ⟨2, ![N, H]⟩ ⟨2, ![T, 1]⟩ ⟨2, ![T, H]⟩ [1] [0] [0] 1) :
    ScatterDims ⟨2, ![N, H]⟩ ⟨2, ![T, 1]⟩ ⟨2, ![T, H]⟩ where
  updateWindowDims := [1]
  insertedWindowDims := [0]
  scatterDimsToOperandDims := [0]
  indexVectorDim := 1
  wf := wf

section RowScatter
variable {N T H w : Nat} (wf : ScatterDims.WF ⟨2, ![N, H]⟩ ⟨2, ![T, 1]⟩ ⟨2, ![T, H]⟩ [1] [0] [0] 1)

/-- Update position `(t, k)` reads its start index at `(t, 0)`: the updates' one scatter axis (axis 0) supplies the
    indices' axis 0, and the index vector (axis 1, of extent 1) has only the component `0`. -/
theorem rowScatter_siIdx (t : Fin T) (k : Fin H) (c : Fin (rowScatterDims N T H wf).scatterDimsToOperandDims.length) :
    (rowScatterDims N T H wf).siIdx (ix2 t k) c = ix2 t (0 : Fin 1) := by
  funext b
  refine Fin.ext ?_
  match b with
  | ⟨0, _⟩ => rfl
  | ⟨1, _⟩ =>
    have hc : c.val < 1 := c.isLt
    show c.val = 0
    omega

/-- On the row axis the window starts at the start index, read signed and left as it is. -/
theorem rowScatter_row_start (idx : IVec ⟨2, ![T, 1]⟩ w) (t : Fin T) (k : Fin H) :
    (rowScatterDims N T H wf).start (ix2 t k) idx 0 = (idx (ix2 t (0 : Fin 1))).toInt := by
  unfold ScatterDims.start
  rw [dif_pos (show (0 : Fin 2) ∈ (rowScatterDims N T H wf).scatterDimsToOperandDims from List.mem_singleton.mpr rfl),
    rowScatter_siIdx]

/-- The row axis is the inserted one: the update has no window coordinate there. -/
theorem rowScatter_row_window (t : Fin T) (k : Fin H) : (rowScatterDims N T H wf).window (ix2 t k) 0 = 0 := rfl

/-- The column axis is not a scattered axis: the window starts at `0` there. -/
theorem rowScatter_col_start (idx : IVec ⟨2, ![T, 1]⟩ w) (t : Fin T) (k : Fin H) :
    (rowScatterDims N T H wf).start (ix2 t k) idx 1 = 0 := by
  unfold ScatterDims.start
  rw [dif_neg]
  intro h
  exact absurd (congrArg Fin.val (List.mem_singleton.mp h)) Nat.one_ne_zero

/-- The column axis is the operand's one kept axis, filled by the updates' one window axis (axis 1): the window
    coordinate there is the update's column. -/
theorem rowScatter_col_window (t : Fin T) (k : Fin H) : (rowScatterDims N T H wf).window (ix2 t k) 1 = k.val := rfl

/-- Update `(t, k)` lands on operand position `(n, h)` exactly when its start index, read signed, is `n` and its
    column is `h`. -/
theorem rowScatter_lands_iff (idx : IVec ⟨2, ![T, 1]⟩ w) (t : Fin T) (k : Fin H) (n : Fin N) (h : Fin H) :
    (rowScatterDims N T H wf).resultIdx? (ix2 t k) idx = some (ix2 n h)
      ↔ (idx (ix2 t (0 : Fin 1))).toInt = (n.val : Int) ∧ k = h := by
  rw [resultIdx?_eq_some_iff]
  constructor
  · intro hall
    have h0 := hall 0
    have h1 := hall 1
    rw [rowScatter_row_start, rowScatter_row_window] at h0
    rw [rowScatter_col_start, rowScatter_col_window] at h1
    have h0' : (idx (ix2 t (0 : Fin 1))).toInt + ((0 : Nat) : Int) = (n.val : Int) := h0
    have h1' : (0 : Int) + (k.val : Int) = (h.val : Int) := h1
    exact ⟨by omega, Fin.ext (by omega)⟩
  · rintro ⟨h0, rfl⟩ a
    match a with
    | ⟨0, _⟩ =>
      show (rowScatterDims N T H wf).start (ix2 t k) idx 0 + (((rowScatterDims N T H wf).window (ix2 t k) 0 : Nat) : Int)
        = (n.val : Int)
      rw [rowScatter_row_start, rowScatter_row_window]
      omega
    | ⟨1, _⟩ =>
      show (rowScatterDims N T H wf).start (ix2 t k) idx 1 + (((rowScatterDims N T H wf).window (ix2 t k) 1 : Nat) : Int)
        = (k.val : Int)
      rw [rowScatter_col_start, rowScatter_col_window]
      omega

end RowScatter

/-- THE ACCUMULATING ROW SCATTER READ AT `(n, h)`, at the ideal instance: the operand's entry plus the updates' entries
    `(t, h)` over the rows `t` whose start index, read signed, is `n`. -/
theorem rowScatterAdd_apply {N T H w : Nat}
    (wf : ScatterDims.WF ⟨2, ![N, H]⟩ ⟨2, ![T, 1]⟩ ⟨2, ![T, H]⟩ [1] [0] [0] 1)
    (x : (⟨2, ![N, H]⟩ : Shape).Idx → EReal) (idx : IVec ⟨2, ![T, 1]⟩ w) (upd : (⟨2, ![T, H]⟩ : Shape).Idx → EReal)
    (n : Fin N) (h : Fin H) :
    Ideal.hostScatterAdd (rowScatterDims N T H wf) x idx upd (ix2 n h)
      = x (ix2 n h) + ∑ t ∈ Finset.univ.filter (fun t : Fin T => (idx (ix2 t (0 : Fin 1))).toInt = (n.val : Int)), upd (ix2 t h) := by
  unfold Ideal.hostScatterAdd
  congr 1
  -- the updates landing on (n, h) are the (t, h) with idx[t] = n: re-index their sum by the row t
  refine Finset.sum_nbij' (fun y => (y 0 : Fin T)) (fun t => ix2 t h) ?_ ?_ ?_ ?_ ?_
  · intro y hy
    obtain ⟨t, k, rfl⟩ : ∃ t k, y = ix2 t k := ⟨y 0, y 1, eq_ix2 y⟩
    exact Finset.mem_filter.mpr
      ⟨Finset.mem_univ _, ((rowScatter_lands_iff wf idx t k n h).mp (Finset.mem_filter.mp hy).2).1⟩
  · intro t ht
    exact Finset.mem_filter.mpr
      ⟨Finset.mem_univ _, (rowScatter_lands_iff wf idx t h n h).mpr ⟨(Finset.mem_filter.mp ht).2, rfl⟩⟩
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl
  · intro t _
    rfl
  · intro y hy
    obtain ⟨t, k, rfl⟩ : ∃ t k, y = ix2 t k := ⟨y 0, y 1, eq_ix2 y⟩
    obtain ⟨_, rfl⟩ := (rowScatter_lands_iff wf idx t k n h).mp (Finset.mem_filter.mp hy).2
    rfl

/-- The dimension numbers of an accumulating scatter of scalars: operand `[N]`, indices `[T, 1]`, updates `[T]`. -/
abbrev vecScatterDims (N T : Nat)
    (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

section VecScatter
variable {N T w : Nat} (wf : ScatterDims.WF ⟨1, ![N]⟩ ⟨2, ![T, 1]⟩ ⟨1, ![T]⟩ [] [0] [0] 1)

/-- Update position `t` reads its start index at `(t, 0)`: the updates' only axis is a scatter axis and supplies the
    indices' axis 0; the index vector (axis 1, of extent 1) has only the component `0`. -/
theorem vecScatter_siIdx (t : Fin T) (c : Fin (vecScatterDims N T wf).scatterDimsToOperandDims.length) :
    (vecScatterDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- On the operand's only axis the window starts at the start index, read signed and left as it is. -/
theorem vecScatter_start (idx : IVec ⟨2, ![T, 1]⟩ w) (t : Fin T) :
    (vecScatterDims N T wf).start (ix1 t) idx 0 = (idx (ix2 t (0 : Fin 1))).toInt := by
  unfold ScatterDims.start
  rw [dif_pos (show (0 : Fin 1) ∈ (vecScatterDims N T wf).scatterDimsToOperandDims from List.mem_singleton.mpr rfl),
    vecScatter_siIdx]

/-- That axis is inserted (a scalar update has no window): the window coordinate is `0`. -/
theorem vecScatter_window (t : Fin T) : (vecScatterDims N T wf).window (ix1 t) 0 = 0 := rfl

/-- Update `t` lands on operand position `n` exactly when its start index, read signed, is `n`. -/
theorem vecScatter_lands_iff (idx : IVec ⟨2, ![T, 1]⟩ w) (t : Fin T) (n : Fin N) :
    (vecScatterDims N T wf).resultIdx? (ix1 t) idx = some (ix1 n) ↔ (idx (ix2 t (0 : Fin 1))).toInt = (n.val : Int) := by
  rw [resultIdx?_eq_some_iff]
  constructor
  · intro hall
    have h0 := hall 0
    rw [vecScatter_start, vecScatter_window] at h0
    have h0' : (idx (ix2 t (0 : Fin 1))).toInt + ((0 : Nat) : Int) = (n.val : Int) := h0
    omega
  · intro h0 a
    match a with
    | ⟨0, _⟩ =>
      show (vecScatterDims N T wf).start (ix1 t) idx 0 + (((vecScatterDims N T wf).window (ix1 t) 0 : Nat) : Int)
        = (n.val : Int)
      rw [vecScatter_start, vecScatter_window]
      omega

end VecScatter

/-- THE ACCUMULATING SCATTER OF SCALARS READ AT `n`, at the ideal instance. -/
theorem vecScatterAdd_apply {N T w : Nat}
    (wf : ScatterDims.WF ⟨1, ![N]⟩ ⟨2, ![T, 1]⟩ ⟨1, ![T]⟩ [] [0] [0] 1)
    (x : (⟨1, ![N]⟩ : Shape).Idx → EReal) (idx : IVec ⟨2, ![T, 1]⟩ w) (upd : (⟨1, ![T]⟩ : Shape).Idx → EReal)
    (n : Fin N) :
    Ideal.hostScatterAdd (vecScatterDims N T wf) x idx upd (ix1 n)
      = x (ix1 n) + ∑ t ∈ Finset.univ.filter (fun t : Fin T => (idx (ix2 t (0 : Fin 1))).toInt = (n.val : Int)), upd (ix1 t) := by
  unfold Ideal.hostScatterAdd
  congr 1
  -- an update position is its one coordinate t, and it lands on n exactly when idx[t] = n
  refine Finset.sum_nbij' (fun y => (y 0 : Fin T)) (fun t => ix1 t) ?_ ?_ ?_ ?_ ?_
  · intro y hy
    obtain ⟨t, rfl⟩ : ∃ t, y = ix1 t := ⟨y 0, eq_ix1 y⟩
    exact Finset.mem_filter.mpr ⟨Finset.mem_univ _, (vecScatter_lands_iff wf idx t n).mp (Finset.mem_filter.mp hy).2⟩
  · intro t ht
    exact Finset.mem_filter.mpr ⟨Finset.mem_univ _, (vecScatter_lands_iff wf idx t n).mpr (Finset.mem_filter.mp ht).2⟩
  · intro y _
    exact (eq_ix1 y).symm
  · intro t _
    rfl
  · intro y _
    exact congrArg upd (eq_ix1 y)

end Cert.LibIndex

end
-- ==== Proof.Val.Spec.lean ====
/-
  The result of the program as a function of its three argument arrays, in the two arrangements the two programs
  compute it in, over the extended reals.

  An index word against the 100000 rows of the node table is read as a take reads it: a negative word has 100000
  added, and the outcome is clamped, as a signed number, into [0, 99999] (`takeRow`).

  The reference's arrangement: btw[d] = Σ_e embed[row(dst e), d] · weight[e], score[e] = Σ_d embed[row(src e), d] · btw[d].
  The kernel's arrangement: the weights are first summed per node, wnode[n] = 0 + Σ_{e : dst e = n} weight[e] (an edge
  whose dst word is no row contributes to no node), then btw[d] = Σ_n embed[n, d] · wnode[n], and the score reads
  p[n] = Σ_d embed[n, d] · btw[d] at row(src e). Both end with logistic (log score + eps).
-/
import Idealize.ShloMosaic.PureOps.Ideal
import Idealize.ShloMosaic.Lib.ValueIdx

noncomputable section

namespace Cert.Spec

open Idealize.ShloMosaic Idealize.ShloMosaic.ValueIdx

abbrev SE : Shape := ⟨2, ![100000, 128]⟩
abbrev SW : Shape := ⟨2, ![500000, 1]⟩
abbrev SI : Shape := ⟨2, ![500000, 2]⟩

/-- An index word as a take reads it, first step: a negative word has 100000 added. -/
def wrapW (w : BitVec 32) : BitVec 32 := Scalar.select (IntOp.cmpi .slt w 0#32) (IntOp.addi w 100000#32) w

/-- An index word as a take reads it: wrapped, then clamped as a signed number into the table's rows. -/
def takeRow (w : BitVec 32) : Fin 100000 := ⟨min (wrapW w).toInt.toNat (100000 - 1), by omega⟩

/-- The additive constant under the logistic: the float word of 1e-5. -/
def eps : EReal := Ideal.ofBits .f32 0x3727C5AC#32

/-- The closing activation. -/
def act (x : EReal) : EReal := Ideal.logistic (Ideal.log x + eps)

variable (emb : SE.Idx → EReal) (wt : SW.Idx → EReal) (idx : IVec SI 32)

/-- The reference's contraction over the edges. -/
def btwRef (d : Fin 128) : EReal :=
  ∑ e : Fin 500000, emb (ix2 (takeRow (idx (ix2 e (1 : Fin 2)))) d) * wt (ix2 e (0 : Fin 1))

/-- The reference's score of edge `e`. -/
def scoreRef (e : Fin 500000) : EReal :=
  ∑ d : Fin 128, emb (ix2 (takeRow (idx (ix2 e (0 : Fin 2)))) d) * btwRef emb wt idx d

/-- The reference's result. -/
def resRef : SW.Idx → EReal := fun i => act (scoreRef emb wt idx (i 0))

/-- The weight landing on node `n`: the edges whose dst word, read signed, is `n`. -/
def wnode (n : Fin 100000) : EReal :=
  0 + ∑ e ∈ Finset.univ.filter (fun e : Fin 500000 => (idx (ix2 e (1 : Fin 2))).toInt = (n.val : Int)), wt (ix2 e (0 : Fin 1))

/-- The kernel's contraction over the nodes. -/
def btwKer (d : Fin 128) : EReal := ∑ n : Fin 100000, emb (ix2 n d) * wnode wt idx n

/-- The kernel's per-node score. -/
def pKer (n : Fin 100000) : EReal := ∑ d : Fin 128, emb (ix2 n d) * btwKer emb wt idx d

/-- The kernel's result. -/
def resKer : SW.Idx → EReal := fun i => act (pKer emb wt idx (takeRow (idx (ix2 (i 0) (0 : Fin 2)))))

end Cert.Spec

end
-- ==== Proof.Val.Ref.lean ====
/-
  The reference's result array as one function of the argument arrays, read off its run one operation at a time.

  Column 0 of the index pairs (src) and column 1 (dst) are each sliced out, flattened, wrapped (a negative word has
  100000 added) and set back as a column; the two row gathers read the node table at those words, signed and clamped
  into the table's rows. The first contraction sums over the edges the dst row times the edge's weight, the second over
  the 128 features the src row times that sum; the closing operations 1 / (1 + exp (−(log s + eps))) are, on the
  extended reals, the logistic of log s + eps. So the result is the specification's reference arrangement.
-/
import proofs.«425700_j4569845202979_3_alg».proof.Proof.Gen.ReferenceIdeal.Read
import proofs.«425700_j4569845202979_3_alg».proof.Proof.LibIndex
import proofs.«425700_j4569845202979_3_alg».proof.Proof.Val.Spec
import Idealize.ShloMosaic.Lib.IdealHost

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The index words -/

/-- Column broadcast, flattening and slice compose to reading column 0 of the index pairs at the edge. -/
theorem idx_src (e : Fin 500000) :
    idx_main_v0 (idx_main_v1 (idx_main_v7 (ix2 e (0 : Fin 1)))) = ix2 e (0 : Fin 2) := by
  funext a
  refine Fin.ext ?_
  match a with
  | ⟨0, _⟩ => show e.val / 1 = e.val; omega
  | ⟨1, _⟩ => rfl

/-- Column broadcast, flattening and slice compose to reading column 1 of the index pairs at the edge. -/
theorem idx_dst (e : Fin 500000) :
    idx_main_v9 (idx_main_v10 (idx_main_v16 (ix2 e (0 : Fin 1)))) = ix2 e (1 : Fin 2) := by
  funext a
  refine Fin.ext ?_
  match a with
  | ⟨0, _⟩ => show e.val / 1 = e.val; omega
  | ⟨1, _⟩ => rfl

/-- The start-index column of the first gather holds the wrapped src word of each edge. -/
theorem wrapped_src (a2 : IVec S500000x2 32) (e : Fin 500000) :
    val_main_v7 (F := Ideal) a2 (ix2 e (0 : Fin 1)) = Cert.Spec.wrapW (a2 (ix2 e (0 : Fin 2))) := by
  rw [val_main_v7_apply, val_main_v6_apply, val_main_v3_apply, val_main_v5_apply, val_main_v2_apply, val_main_c_apply,
    val_main_v4_apply, val_main_c_0_apply, val_main_v1_apply, val_main_v0_apply, idx_src]
  rfl

/-- The start-index column of the second gather holds the wrapped dst word of each edge. -/
theorem wrapped_dst (a2 : IVec S500000x2 32) (e : Fin 500000) :
    val_main_v16 (F := Ideal) a2 (ix2 e (0 : Fin 1)) = Cert.Spec.wrapW (a2 (ix2 e (1 : Fin 2))) := by
  rw [val_main_v16_apply, val_main_v15_apply, val_main_v12_apply, val_main_v14_apply, val_main_v11_apply,
    val_main_c_1_apply, val_main_v13_apply, val_main_c_2_apply, val_main_v10_apply, val_main_v9_apply, idx_dst]
  rfl

/-! ## The two row gathers -/

/-- The gather's dimension numbers are a row gather's: 100000 rows of 128, one start index per edge. -/
theorem gather_is_rowGather :
    gather_S100000x128_S500000x1_S500000x128_1_0_n_n_0_1_1128 = Cert.LibIndex.rowGatherDims 100000 500000 128 gather_S100000x128_S500000x1_S500000x128_1_0_n_n_0_1_1128_wf := rfl

/-- The first gather holds, for edge e and feature d, the node table at the src row of e. -/
theorem src_rows (a0 : FVec Ideal S100000x128 .f32) (a2 : IVec S500000x2 32) (e : Fin 500000) (d : Fin 128) :
    val_main_v8 (F := Ideal) a0 a2 (ix2 e d) = a0 (ix2 (Cert.Spec.takeRow (a2 (ix2 e (0 : Fin 2)))) d) := by
  unfold val_main_v8
  rw [gather_is_rowGather, Cert.LibIndex.rowGather_apply (by decide)]
  refine congrArg (fun r : Fin 100000 => a0 (ix2 r d)) (Fin.ext ?_)
  show min (val_main_v7 (F := Ideal) a2 (ix2 e (0 : Fin 1))).toInt.toNat (100000 - 1)
    = min (Cert.Spec.wrapW (a2 (ix2 e (0 : Fin 2)))).toInt.toNat (100000 - 1)
  rw [wrapped_src]

/-- The second gather holds, for edge e and feature d, the node table at the dst row of e. -/
theorem dst_rows (a0 : FVec Ideal S100000x128 .f32) (a2 : IVec S500000x2 32) (e : Fin 500000) (d : Fin 128) :
    val_main_v17 (F := Ideal) a0 a2 (ix2 e d) = a0 (ix2 (Cert.Spec.takeRow (a2 (ix2 e (1 : Fin 2)))) d) := by
  unfold val_main_v17
  rw [gather_is_rowGather, Cert.LibIndex.rowGather_apply (by decide)]
  refine congrArg (fun r : Fin 100000 => a0 (ix2 r d)) (Fin.ext ?_)
  show min (val_main_v16 (F := Ideal) a2 (ix2 e (0 : Fin 1))).toInt.toNat (100000 - 1)
    = min (Cert.Spec.wrapW (a2 (ix2 e (1 : Fin 2)))).toInt.toNat (100000 - 1)
  rw [wrapped_dst]

/-! ## The two contractions -/

/-- The contraction over the edges, at feature d, is the specification's: dst row times weight, summed. -/
theorem contraction_edges (a0 : FVec Ideal S100000x128 .f32) (a1 : FVec Ideal S500000x1 .f32) (a2 : IVec S500000x2 32)
    (d : Fin 128) :
    val_main_v18 (F := Ideal) a0 a1 a2 (ix2 d (0 : Fin 1)) = Cert.Spec.btwRef a0 a1 a2 d := by
  rw [val_main_v18_apply]
  unfold Cert.Spec.btwRef
  refine Finset.sum_congr rfl fun e _ => ?_
  have hl : lidx_main_v18 (ix2 d (0 : Fin 1)) e = ix2 e d := by
    funext a; refine Fin.ext ?_
    match a with
    | ⟨0, _⟩ => rfl
    | ⟨1, _⟩ => rfl
  have hr : ridx_main_v18 (ix2 d (0 : Fin 1)) e = ix2 e (0 : Fin 1) := by
    funext a; refine Fin.ext ?_
    match a with
    | ⟨0, _⟩ => rfl
    | ⟨1, _⟩ => rfl
  rw [hl, hr, dst_rows]

/-- The contraction over the features, at edge e, is the specification's score: src row times the edge sum, summed. -/
theorem contraction_features (a0 : FVec Ideal S100000x128 .f32) (a1 : FVec Ideal S500000x1 .f32) (a2 : IVec S500000x2 32)
    (i : S500000x1.Idx) :
    val_main_v19 (F := Ideal) a0 a1 a2 i = Cert.Spec.scoreRef a0 a1 a2 (i 0) := by
  obtain ⟨e, z, rfl⟩ : ∃ (e : Fin 500000) (z : Fin 1), i = ix2 e z := ⟨i 0, i 1, eq_ix2 i⟩
  show val_main_v19 (F := Ideal) a0 a1 a2 (ix2 e z) = Cert.Spec.scoreRef a0 a1 a2 e
  rw [val_main_v19_apply]
  unfold Cert.Spec.scoreRef
  refine Finset.sum_congr rfl fun d _ => ?_
  have hl : lidx_main_v19 (ix2 e z) d = ix2 e d := by
    funext a; refine Fin.ext ?_
    match a with
    | ⟨0, _⟩ => rfl
    | ⟨1, _⟩ => rfl
  have hr : ridx_main_v19 (ix2 e z) d = ix2 d (0 : Fin 1) := by
    funext a; refine Fin.ext ?_
    match a with
    | ⟨0, _⟩ => rfl
    | ⟨1, _⟩ =>
      have h1 : z.val < 1 := z.isLt
      show z.val = 0
      omega
  rw [hl, hr, src_rows, contraction_edges]

/-! ## The result -/

/-- The reference's last stage is the specification's reference arrangement: the closing quotient, sum, exponential,
    negation, sum and logarithm are the logistic of log score + eps. -/
theorem val_main_v28_is_spec (a0 : FVec Ideal S100000x128 .f32) (a1 : FVec Ideal S500000x1 .f32) (a2 : IVec S500000x2 32) :
    val_main_v28 (F := Ideal) a0 a1 a2 = Cert.Spec.resRef a0 a1 a2 := by
  funext i
  rw [val_main_v28_apply, val_main_v27_apply, val_main_cst_4_apply, val_main_v26_apply, val_main_v25_apply,
    val_main_cst_3_apply, val_main_v24_apply, val_main_v23_apply, val_main_v22_apply, val_main_v21_apply,
    val_main_cst_apply, val_main_v20_apply, contraction_features]
  simp only [Ideal.hostDivf_def, Ideal.hostUnary_exp_def, Ideal.hostUnary_log_def, Ideal.hostNegf_def, Ideal.negf_def,
    Ideal.addf_def, Ideal.ofBits_def, Ideal.ofBits_one_f32]
  rfl

/-- The term the reference's run states for its result buffer is the specification's reference arrangement of the
    three argument arrays. -/
theorem ref_is_spec (a0 : FVec Ideal S100000x128 .f32) (a1 : FVec Ideal S500000x1 .f32) (a2 : IVec S500000x2 32) :
    Host.divf (broadcastInDim S500000x1 ![] bcast_S_S500000x1 (constant S_ .f32 0x3F800000#32)) (addf (broadcastInDim S500000x1 ![] bcast_S_S500000x1 (constant S_ .f32 0x3F800000#32)) (Host.exp (Host.negf (addf (Host.log (Host.dotGeneral dot_S500000x128_S128x1_S500000x1_1_0_0_1_n_n none (Host.gather gather_S100000x128_S500000x1_S500000x128_1_0_n_n_0_1_1128 (a0) (broadcastInDim S500000x1 ![0] bcast_S500000_S500000x1_0 (select (cmpi .slt (shapeCast _ (extractStridedSlice S500000x1 ![0, 0] (a2) slices_S500000x2_S500000x1_0_0) shapeCasts_S500000x1_S500000) (broadcastInDim S500000 ![] bcast_S_S500000 (constantI S_ 32 0#32))) (addi (shapeCast _ (extractStridedSlice S500000x1 ![0, 0] (a2) slices_S500000x2_S500000x1_0_0) shapeCasts_S500000x1_S500000) (broadcastInDim S500000 ![] bcast_S_S500000 (constantI S_ 32 100000#32))) (shapeCast _ (extractStridedSlice S500000x1 ![0, 0] (a2) slices_S500000x2_S500000x1_0_0) shapeCasts_S500000x1_S500000)))) (Host.dotGeneral dot_S500000x128_S500000x1_S128x1_0_0_1_1_n_n none (Host.gather gather_S100000x128_S500000x1_S500000x128_1_0_n_n_0_1_1128 (a0) (broadcastInDim S500000x1 ![0] bcast_S500000_S500000x1_0 (select (cmpi .slt (shapeCast _ (extractStridedSlice S500000x1 ![0, 1] (a2) slices_S500000x2_S500000x1_0_1) shapeCasts_S500000x1_S500000) (broadcastInDim S500000 ![] bcast_S_S500000 (constantI S_ 32 0#32))) (addi (shapeCast _ (extractStridedSlice S500000x1 ![0, 1] (a2) slices_S500000x2_S500000x1_0_1) shapeCasts_S500000x1_S500000) (broadcastInDim S500000 ![] bcast_S_S500000 (constantI S_ 32 100000#32))) (shapeCast _ (extractStridedSlice S500000x1 ![0, 1] (a2) slices_S500000x2_S500000x1_0_1) shapeCasts_S500000x1_S500000)))) (a1)))) (broadcastInDim S500000x1 ![] bcast_S_S500000x1 (constant S_ .f32 0x3727C5AC#32))))))
      = Cert.Spec.resRef a0 a1 a2 :=
  (val_main_v28_eq (F := Ideal) a0 a1 a2).trans (val_main_v28_is_spec a0 a1 a2)

end Cert.ReferenceIdeal.RefValue

end
-- ==== Proof.Val.Algebra.lean ====
/-
  The two arrangements of the result agree: summing the weights per node first and contracting over the nodes is the
  same as contracting over the edges with each edge's dst row, once every number is finite and every dst word names a
  row.

  A dst word w with 0 ≤ w < 100000 (read signed) is left alone by the wrap (it is not negative) and by the clamp (it is
  inside [0, 99999]), so the row a take reads at w is the node whose number is w. Hence the edges landing on node n are
  exactly the fibre of e ↦ row(dst e) over n, and

    Σ_n emb[n,d] · (0 + Σ_{e : dst e = n} wt e) = Σ_n Σ_{e : row(dst e) = n} emb[row(dst e), d] · wt e = Σ_e emb[row(dst e), d] · wt e.

  The first equality is distributivity of the product over a finite sum. On the extended reals that law holds only
  when the terms are finite, so the numbers are first written as real numbers, the whole identity is proved on the
  reals, and the coercion is carried across sums and products. The src side is literally the same term in both
  arrangements.
-/
import proofs.«425700_j4569845202979_3_alg».proof.Proof.Val.Spec
import Mathlib.Data.EReal.Basic
import Mathlib.Data.EReal.Operations
import Mathlib.Algebra.BigOperators.Group.Finset.Basic
import Mathlib.Algebra.BigOperators.Ring.Finset

noncomputable section

open scoped BigOperators

namespace Cert.Spec

open Idealize.ShloMosaic Idealize.ShloMosaic.ValueIdx

/-- A word that is not negative, read signed, is left alone by the wrap. -/
theorem wrapW_of_nonneg (w : BitVec 32) (h : 0 ≤ w.toInt) : wrapW w = w := by
  have hs : w.slt 0#32 = false := by
    simp only [BitVec.slt, BitVec.toInt_zero, decide_eq_false_iff_not, not_lt]
    exact h
  simp [wrapW, IntOp.cmpi, Scalar.select, hs]

/-- A word naming a row, read signed, is that row: neither the wrap nor the clamp moves it. -/
theorem takeRow_val (w : BitVec 32) (h0 : 0 ≤ w.toInt) (h1 : w.toInt < 100000) :
    ((takeRow w).val : Int) = w.toInt := by
  simp only [takeRow, wrapW_of_nonneg w h0]
  omega

/-- The edges whose dst word is the number of node n are the fibre over n of the map sending an edge to its dst row. -/
theorem dst_fibre (w : BitVec 32) (h0 : 0 ≤ w.toInt) (h1 : w.toInt < 100000) (n : Fin 100000) :
    w.toInt = (n.val : Int) ↔ takeRow w = n := by
  have hv := takeRow_val w h0 h1
  constructor
  · intro h; apply Fin.ext; omega
  · intro h; subst h; exact hv.symm

/-- The coercion of the reals into the extended reals goes through a finite sum. -/
theorem coe_finsum {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable (emb : SE.Idx → EReal) (wt : SW.Idx → EReal) (idx : IVec SI 32)

/-- The contraction over the nodes of the per-node weights is the contraction over the edges. -/
theorem btwKer_eq_btwRef
    (hE : ∀ i, ∃ r : ℝ, emb i = (r : EReal)) (hW : ∀ i, ∃ r : ℝ, wt i = (r : EReal))
    (hD : ∀ e : Fin 500000, 0 ≤ (idx (ix2 e (1 : Fin 2))).toInt ∧ (idx (ix2 e (1 : Fin 2))).toInt < 100000)
    (d : Fin 128) : btwKer emb wt idx d = btwRef emb wt idx d := by
  choose E hE' using hE
  choose W hW' using hW
  simp only [btwKer, btwRef, wnode, hE', hW', zero_add, coe_finsum, ← EReal.coe_mul]
  rw [EReal.coe_eq_coe_iff]
  simp only [Finset.mul_sum]
  rw [← Finset.sum_fiberwise (Finset.univ : Finset (Fin 500000))
    (fun e => takeRow (idx (ix2 e (1 : Fin 2))))
    (fun e => E (ix2 (takeRow (idx (ix2 e (1 : Fin 2)))) d) * W (ix2 e (0 : Fin 1)))]
  refine Finset.sum_congr rfl fun n _ => ?_
  refine Finset.sum_congr (Finset.filter_congr fun e _ => dst_fibre _ (hD e).1 (hD e).2 n) fun e he => ?_
  rw [(Finset.mem_filter.mp he).2]

/-- The two arrangements of the result agree. -/
theorem resKer_eq_resRef
    (hE : ∀ i, ∃ r : ℝ, emb i = (r : EReal)) (hW : ∀ i, ∃ r : ℝ, wt i = (r : EReal))
    (hD : ∀ e : Fin 500000, 0 ≤ (idx (ix2 e (1 : Fin 2))).toInt ∧ (idx (ix2 e (1 : Fin 2))).toInt < 100000) :
    resKer emb wt idx = resRef emb wt idx := by
  funext i
  simp only [resKer, resRef, pKer, scoreRef, btwKer_eq_btwRef emb wt idx hE hW hD]

end Cert.Spec

end
-- ==== Proof.LibSlice.lean ====
/-
  Reading a layer's slice of a stacked weight array at an index.
  The five layers' weights are stacked along a leading axis; a layer's matrix is cut out by a unit-stride slice
  `[l : l+1, off : off+a, 0 : b]` and a reshape that drops the leading axis of extent one, and a layer's bias vector
  by `[l : l+1, 0 : a]` and the same reshape, possibly reshaped again to a one-row matrix. Each of these, read at an
  index, is the stacked array at layer `l` and the shifted position.
-/
import Idealize.ShloMosaic.PureOps.Ideal
import Idealize.ShloMosaic.Lib.ValueIdx
import Idealize.ShloMosaic.Lib.Pipeline.Value

noncomputable section

namespace Cert.LibSlice

open Idealize.ShloMosaic Idealize.ShloMosaic.ValueIdx

/-- A layer's matrix: rows `off … off + a − 1` of layer `l`'s `[r, b]` matrix, read at `(d, k)`. -/
theorem mat_slice_apply {α : Type} {L r a b : Nat} (W : (⟨3, ![L, r, b]⟩ : Shape).Idx → α) (l : Fin L) (off : Nat) (hoff : off + a ≤ r)
    (hs : (⟨3, ![L, r, b]⟩ : Shape).Slices ![l.val, off, 0] ⟨3, ![1, a, b]⟩)
    (hc : (⟨3, ![1, a, b]⟩ : Shape).ShapeCasts ⟨2, ![a, b]⟩) (d : Fin a) (k : Fin b) :
    shapeCast ⟨2, ![a, b]⟩ (extractStridedSlice ⟨3, ![1, a, b]⟩ ![l.val, off, 0] W hs) hc (ix2 d k)
      = W (ix3 l (⟨off + d.val, by omega⟩ : Fin r) k) := by
  -- the reshape keeps the row-major position: (0, d, k) of [1, a, b] and (d, k) of [a, b] both sit at d * b + k
  refine (shapeCast_apply _ hc (ix2 d k) (ix3 (0 : Fin 1) d k) ?_).trans ?_
  · rw [Shape.rowMajor_val_three, Shape.rowMajor_val_two]
    show ((0 : Nat) * a + d.val) * b + k.val = d.val * b + k.val
    rw [Nat.zero_mul, Nat.zero_add]
  -- the slice shifts each coordinate by its offset: (0, d, k) reads the stacked array at (l + 0, off + d, 0 + k)
  · exact extractStridedSlice_apply _ W hs _ _ (fun x => match x with
      | ⟨0, _⟩ => by show l.val = l.val + 0; omega
      | ⟨1, _⟩ => by show off + d.val = off + d.val; rfl
      | ⟨2, _⟩ => by show k.val = 0 + k.val; omega)

/-- A layer's bias vector, read at `k`. -/
theorem vec_slice_apply {α : Type} {L a : Nat} (B : (⟨2, ![L, a]⟩ : Shape).Idx → α) (l : Fin L)
    (hs : (⟨2, ![L, a]⟩ : Shape).Slices ![l.val, 0] ⟨2, ![1, a]⟩)
    (hc : (⟨2, ![1, a]⟩ : Shape).ShapeCasts ⟨1, ![a]⟩) (k : Fin a) :
    shapeCast ⟨1, ![a]⟩ (extractStridedSlice ⟨2, ![1, a]⟩ ![l.val, 0] B hs) hc (ix1 k) = B (ix2 l k) := by
  -- the reshape: (0, k) of [1, a] and k of [a] both sit at position k
  refine (shapeCast_apply _ hc (ix1 k) (ix2 (0 : Fin 1) k) ?_).trans ?_
  · rw [Shape.rowMajor_val_two, Shape.rowMajor_val_one]
    show (0 : Nat) * a + k.val = k.val
    rw [Nat.zero_mul, Nat.zero_add]
  -- the slice: (0, k) reads the stacked array at (l + 0, 0 + k)
  · exact extractStridedSlice_apply _ B hs _ _ (fun x => match x with
      | ⟨0, _⟩ => by show l.val = l.val + 0; omega
      | ⟨1, _⟩ => by show k.val = 0 + k.val; omega)

/-- A vector reshaped to a one-row matrix, read at `(0, k)`. -/
theorem row_of_vec_apply {α : Type} {a : Nat} (v : (⟨1, ![a]⟩ : Shape).Idx → α)
    (hc : (⟨1, ![a]⟩ : Shape).ShapeCasts ⟨2, ![1, a]⟩) (k : Fin a) :
    shapeCast ⟨2, ![1, a]⟩ v hc (ix2 (0 : Fin 1) k) = v (ix1 k) := by
  -- k of [a] and (0, k) of [1, a] both sit at position k
  refine shapeCast_apply v hc (ix2 (0 : Fin 1) k) (ix1 k) ?_
  rw [Shape.rowMajor_val_two, Shape.rowMajor_val_one]
  show k.val = (0 : Nat) * a + k.val
  rw [Nat.zero_mul, Nat.zero_add]

/-- A vector reshaped to a one-column matrix, read at `(n, 0)`. -/
theorem col_of_vec_apply {α : Type} {a : Nat} (v : (⟨1, ![a]⟩ : Shape).Idx → α)
    (hc : (⟨1, ![a]⟩ : Shape).ShapeCasts ⟨2, ![a, 1]⟩) (n : Fin a) :
    shapeCast ⟨2, ![a, 1]⟩ v hc (ix2 n (0 : Fin 1)) = v (ix1 n) := by
  -- n of [a] and (n, 0) of [a, 1] both sit at position n
  refine shapeCast_apply v hc (ix2 n (0 : Fin 1)) (ix1 n) ?_
  rw [Shape.rowMajor_val_two, Shape.rowMajor_val_one]
  show n.val = n.val * 1 + (0 : Nat)
  rw [Nat.mul_one, Nat.add_zero]

/-- One column of a two-column word array, reshaped to a vector, read at `t`. -/
theorem col_slice_apply {α : Type} {T : Nat} (e : (⟨2, ![T, 2]⟩ : Shape).Idx → α) (j : Fin 2)
    (hs : (⟨2, ![T, 2]⟩ : Shape).Slices ![0, j.val] ⟨2, ![T, 1]⟩)
    (hc : (⟨2, ![T, 1]⟩ : Shape).ShapeCasts ⟨1, ![T]⟩) (t : Fin T) :
    shapeCast ⟨1, ![T]⟩ (extractStridedSlice ⟨2, ![T, 1]⟩ ![0, j.val] e hs) hc (ix1 t) = e (ix2 t j) := by
  -- the reshape: (t, 0) of [T, 1] and t of [T] both sit at position t
  refine (shapeCast_apply _ hc (ix1 t) (ix2 t (0 : Fin 1)) ?_).trans ?_
  · rw [Shape.rowMajor_val_two, Shape.rowMajor_val_one]
    show t.val * 1 + (0 : Nat) = t.val
    rw [Nat.mul_one, Nat.add_zero]
  -- the slice: (t, 0) reads the two-column array at (0 + t, j + 0)
  · exact extractStridedSlice_apply _ e hs _ _ (fun x => match x with
      | ⟨0, _⟩ => by show t.val = 0 + t.val; omega
      | ⟨1, _⟩ => by show j.val = j.val + 0; omega)

/-- At the ideal instance a change of float format is the identity. -/
theorem truncf_ideal {s : Shape} {φ ψ : FTy} (x : FVec Ideal s φ) (h : ψ.bits < φ.bits) :
    (truncf ψ x h : s.Idx → EReal) = x := by
  -- element by element the ideal instance's format change returns its operand
  funext i
  rfl

end Cert.LibSlice

end
-- ==== Proof.Val.Pre.lean ====
/-
  The precondition decoded. The printed predicate is a conjunction of four "for all" statements, each a reduction by
  "and" of a mask of comparisons into one bit: |embed| < +∞ at every entry, |weight| < +∞ at every entry, column 1 of
  the edge table ≥ 0 (signed) at every edge, and column 1 of the edge table < 100000 (signed) at every edge. That the
  bit is 1 gives each comparison at each index; an extended real whose absolute value lies below +∞ is a real number,
  and a signed comparison of 32-bit words that holds is the comparison of their integer values.
-/
import proofs.«425700_j4569845202979_3_alg».proof.Pre_finite_inputs
import proofs.«425700_j4569845202979_3_alg».proof.Proof.Gen.Pre_finite_inputs
import proofs.«425700_j4569845202979_3_alg».proof.Proof.LibSlice
import Idealize.ShloMosaic.Lib.ReduceAll
import Idealize.ShloMosaic.Lib.StableHlo.Predicate
import Idealize.ShloMosaic.Lib.ValueIdx
import Idealize.ShloMosaic.PureOps.Ideal

noncomputable section

namespace Cert.Pre_finite_inputs.Decode

open Idealize.ShloMosaic Idealize.ShloMosaic.ValueIdx Cert.Pre_finite_inputs

/-- The shape of one bit has one index. -/
instance subsingleton_bit : Subsingleton S_.Idx := ⟨fun a b => funext fun d => d.elim0⟩

/-- The pattern 0x7F800000 (exponent all ones, significand zero, sign clear) denotes +∞. -/
theorem ofBits_inf : Ideal.ofBits .f32 0x7F800000#32 = (⊤ : EReal) := by
  simp [Ideal.ofBits, Ideal.ieee]

/-- An extended real whose absolute value max x (−x) is below +∞ is a real number: at −∞ the absolute value is
    max (−∞) (+∞) = +∞, at +∞ it is +∞, and neither is below +∞. -/
theorem real_of_abs_lt_inf (x : EReal)
    (hx : Ideal.cmp .olt (max x (-x)) (Ideal.ofBits .f32 0x7F800000#32) = 1#1) : ∃ r : ℝ, x = (r : EReal) := by
  rw [ofBits_inf] at hx
  unfold Ideal.cmp at hx
  rw [StableHlo.Predicate.ofBool_eq_one_iff] at hx
  have hlt : max x (-x) < ⊤ := of_decide_eq_true hx
  induction x using EReal.rec with
  | bot => exact absurd hlt (by simp)
  | top => exact absurd hlt (by simp)
  | coe r => exact ⟨r, rfl⟩

variable [Cert.Pre_finite_inputs.Facts]

/-- Column 1 of the edge table, cut out as a one-column array and reshaped to a vector, read at edge t, is the table's
    entry (t, 1). -/
theorem col1_apply (a2 : IVec S500000x2 32) (t : Fin 500000) :
    shapeCast S500000 (extractStridedSlice S500000x1 ![0, 1] a2 Facts.slices_S500000x2_S500000x1_0_1)
        Facts.shapeCasts_S500000x1_S500000 (ix1 t) = a2 (ix2 t (1 : Fin 2)) :=
  Cert.LibSlice.col_slice_apply a2 (1 : Fin 2) _ _ t

/-- The four conjuncts of the predicate, each read at an index: the two float masks as comparisons of extended reals,
    the two word masks as signed comparisons of the edge table's column 1 with the constants 0 and 100000. -/
theorem conjuncts (a0 : FVec Ideal S100000x128 .f32) (a1 : FVec Ideal S500000x1 .f32) (a2 : IVec S500000x2 32)
    (h : Cert.Pre_finite_inputs.fn (F := Ideal) a0 a1 a2 = fun _ => 1#1) :
    (∀ i : S100000x128.Idx, Ideal.cmp .olt (max (a0 i) (-(a0 i))) (Ideal.ofBits .f32 0x7F800000#32) = 1#1)
    ∧ (∀ i : S500000x1.Idx, Ideal.cmp .olt (max (a1 i) (-(a1 i))) (Ideal.ofBits .f32 0x7F800000#32) = 1#1)
    ∧ (∀ e : Fin 500000, IntOp.cmpi .sge (a2 (ix2 e (1 : Fin 2))) 0#32 = 1#1)
    ∧ (∀ e : Fin 500000, IntOp.cmpi .slt (a2 (ix2 e (1 : Fin 2))) 100000#32 = 1#1) := by
  -- the predicate's one bit, with every operation of the printed chain in view
  have e := congrFun h ix0
  dsimp only [fn, fn_part1] at e
  -- a conjunction of bits is 1 exactly when each bit is
  simp only [andi, IntOp.andi_eq_one] at e
  obtain ⟨⟨⟨h0, h1⟩, h2⟩, h3⟩ := e
  refine ⟨fun i => ?_, fun i => ?_, fun t => ?_, fun t => ?_⟩
  -- each reduction by "and" into the one bit that is 1 met a 1 at every index of its mask; the float masks at an
  -- index are the comparison of |entry| with the broadcast constant
  · exact Host.reduce_andi_all _ _ _ _ ix0 h0 i
  · exact Host.reduce_andi_all _ _ _ _ ix0 h1 i
  -- the word masks at edge t compare column 1 of the edge table, read at t, with the broadcast constant
  · have q : IntOp.cmpi .sge (shapeCast S500000 (extractStridedSlice S500000x1 ![0, 1] a2
        Facts.slices_S500000x2_S500000x1_0_1) Facts.shapeCasts_S500000x1_S500000 (ix1 t)) 0#32 = 1#1 :=
      Host.reduce_andi_all _ _ _ _ ix0 h2 (ix1 t)
    rw [col1_apply] at q
    exact q
  · have q : IntOp.cmpi .slt (shapeCast S500000 (extractStridedSlice S500000x1 ![0, 1] a2
        Facts.slices_S500000x2_S500000x1_0_1) Facts.shapeCasts_S500000x1_S500000 (ix1 t)) 100000#32 = 1#1 :=
      Host.reduce_andi_all _ _ _ _ ix0 h3 (ix1 t)
    rw [col1_apply] at q
    exact q

/-- Every entry of the embedding table is a real number. -/
theorem embed_real (a0 : FVec Ideal S100000x128 .f32) (a1 : FVec Ideal S500000x1 .f32) (a2 : IVec S500000x2 32)
    (h : Cert.Pre_finite_inputs.fn (F := Ideal) a0 a1 a2 = fun _ => 1#1) :
    ∀ i : S100000x128.Idx, ∃ r : ℝ, a0 i = (r : EReal) :=
  fun i => real_of_abs_lt_inf (a0 i) ((conjuncts a0 a1 a2 h).1 i)

/-- Every edge weight is a real number. -/
theorem weight_real (a0 : FVec Ideal S100000x128 .f32) (a1 : FVec Ideal S500000x1 .f32) (a2 : IVec S500000x2 32)
    (h : Cert.Pre_finite_inputs.fn (F := Ideal) a0 a1 a2 = fun _ => 1#1) :
    ∀ i : S500000x1.Idx, ∃ r : ℝ, a1 i = (r : EReal) :=
  fun i => real_of_abs_lt_inf (a1 i) ((conjuncts a0 a1 a2 h).2.1 i)

/-- Every destination index (column 1 of the edge table), read as a signed integer, lies in [0, 100000): a signed
    comparison of words that holds is the comparison of their integer values, and the constants' values are 0 and
    100000. -/
theorem dst_range (a0 : FVec Ideal S100000x128 .f32) (a1 : FVec Ideal S500000x1 .f32) (a2 : IVec S500000x2 32)
    (h : Cert.Pre_finite_inputs.fn (F := Ideal) a0 a1 a2 = fun _ => 1#1) :
    ∀ e : Fin 500000, 0 ≤ (a2 (ix2 e (1 : Fin 2))).toInt ∧ (a2 (ix2 e (1 : Fin 2))).toInt < 100000 := by
  intro e
  obtain ⟨-, -, hge, hlt⟩ := conjuncts a0 a1 a2 h
  have z0 : (0#32 : BitVec 32).toInt = 0 := by decide
  have z1 : (100000#32 : BitVec 32).toInt = 100000 := by decide
  have a := IntOp.cmpi_sge.1 (hge e)
  have b := IntOp.cmpi_slt.1 (hlt e)
  rw [z0] at a
  rw [z1] at b
  exact ⟨a, b⟩

end Cert.Pre_finite_inputs.Decode

end
-- ==== Proof.LibVecGather.lean ====
/-
  Reading a gather of scalars, and two small broadcasts, at an index.
  `x[idx]` of a flat array `x : [N]` at an index column `idx : [T, 1]` lowers to a gather whose result element `t` is the
  operand at the start index `idx[t, 0]`, read signed and clamped into `[0, N − 1]` (a negative index reads entry `0`,
  an index past the end reads the last entry). A vector broadcast to a one-column matrix along axis 0 reads, at `(t, z)`,
  the vector at `t`. A one-element vector broadcast to `[1, 1]` and on to `[N, 1]` reads its one element everywhere.
-/
import Idealize.ShloMosaic.PureOps.Ideal
import Idealize.ShloMosaic.Lib.ValueIdx
import Idealize.ShloMosaic.Lib.Pipeline.Value

noncomputable section

namespace Cert.LibVecGather

open Idealize.ShloMosaic Idealize.ShloMosaic.ValueIdx

/-- The dimension numbers of a gather of scalars: operand `[N]`, indices `[T, 1]`, result `[T]`; result element `t` is the
    operand's entry at the start index `idx[t, 0]` (slice size `[1]`, the one operand axis collapsed). -/
abbrev vecGatherDims (N T : Nat)
    (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- Result position `t` reads its start index at `(t, 0)`: the result's one axis is a batch axis and supplies the indices'
    axis 0; the index vector (axis 1, of extent 1) has only the component `0`. -/
theorem vecGather_siIdx {N T : Nat} (wf : GatherDims.WF ⟨1, ![N]⟩ ⟨2, ![T, 1]⟩ ⟨1, ![T]⟩ [] [0] [] [0] [] 1 ![1])
    (t : Fin T) (c : Fin (vecGatherDims N T wf).startIndexMap.length) :
    (vecGatherDims N T wf).siIdx (ix1 t) c = ix2 t (0 : Fin 1) := by
  funext b
  refine Fin.ext ?_
  match b with
  | ⟨0, _⟩ => rfl
  | ⟨1, _⟩ =>
    have hc : c.val < 1 := c.isLt
    show c.val = 0
    omega

/-- THE GATHER OF SCALARS READ AT `t`: the operand at the start index `idx[t, 0]`, read signed and clamped into `[0, N − 1]`. -/
theorem vecGather_apply {α : Type} {N T w : Nat} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (t : Fin T) :
    Host.gather (vecGatherDims N T wf) x idx (ix1 t)
      = x (ix1 (⟨min (idx (ix2 t (0 : Fin 1))).toInt.toNat (N - 1), by omega⟩ : Fin N)) := by
  unfold Host.gather
  congr 1
  funext a
  obtain rfl : a = 0 := Subsingleton.elim _ _
  refine Fin.ext ?_
  -- the operand's one coordinate is slice start + batching coordinate + offset; the last two are 0
  show (vecGatherDims N T wf).start (ix1 t) idx 0 + (vecGatherDims N T wf).batchCoord (ix1 t) 0
      + (vecGatherDims N T wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl),
    vecGather_siIdx]
  rfl

/-- A vector of `T ≠ 1` entries broadcast along axis 0 to a `[T, 1]` column reads, at `(t, z)`, its entry `t`. -/
theorem column_apply {α : Type} {T : Nat} (hT : T ≠ 1)
    (h : (⟨1, ![T]⟩ : Shape).BroadcastsInDim ⟨2, ![T, 1]⟩ (![0] : Fin 1 → Fin 2))
    (v : (⟨1, ![T]⟩ : Shape).Idx → α) (t : Fin T) (z : Fin 1) :
    broadcastInDim ⟨2, ![T, 1]⟩ ![0] h v (ix2 t z) = v (ix1 t) :=
  broadcastInDim_apply _ h v (ix2 t z) (ix1 t) (fun a => match a with
    | ⟨0, _⟩ => by show t.val = if T = 1 then 0 else t.val; rw [if_neg hT])

/-- A one-element vector broadcast to `[1, 1]` (as the column axis) and then to `[N, 1]` reads its element everywhere. -/
theorem bias_apply {α : Type} {N : Nat}
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (b : (⟨1, ![1]⟩ : Shape).Idx → α) (i : (⟨2, ![N, 1]⟩ : Shape).Idx) :
    broadcastInDim ⟨2, ![N, 1]⟩ ![0, 1] h2 (broadcastInDim ⟨2, ![1, 1]⟩ ![1] h1 b) i = b (ix1 (0 : Fin 1)) := by
  rw [broadcastInDim_apply _ h2 _ i (ix2 (0 : Fin 1) (0 : Fin 1)) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  exact broadcastInDim_apply _ h1 b _ (ix1 (0 : Fin 1)) (fun a => match a with
    | ⟨0, _⟩ => by show 0 = if (1 : Nat) = 1 then 0 else ((ix2 (0 : Fin 1) (0 : Fin 1)) 1).val; rw [if_pos rfl])

end Cert.LibVecGather

end
-- ==== Proof.Val.Host.lean ====
/-
  The host stretches of the kernel program, read at an index, at the ideal instance.

  Between its three launches the program rearranges arrays on the host. For arbitrary buffer contents `X` before a
  stretch, each theorem says what one entry of the array the next launch (or the caller) reads holds afterwards:

  * before the first launch: the src words (column 0 of the edge array) as a vector, and the weight landing on each
    node — the weights scattered by the dst words (column 1) and added into zeros — as a column;
  * between the first and the second launch: the one-row array of weighted column sums, transposed to a column;
  * between the second and the third launch: the per-node scores taken at the src words (a negative word has 100000
    added; the outcome is clamped into the table's rows), padded with zeros on the right to 507904 entries and laid
    out row-major as `[248, 2048]`;
  * after the third launch: that layout undone — flattened, the first 500000 entries kept, stood up as a column.

  Every step is one layout or indexing operation read at one index: a reshape keeps the row-major position, a slice
  shifts by its offsets, a transpose swaps the coordinates, a broadcast column repeats its vector, a take reads the
  operand at the clamped start index, an accumulating scatter is the exact sum of the updates that land.
-/
import proofs.«425700_j4569845202979_3_alg».proof.Proof.Gen.KernelIdeal.Launch
import proofs.«425700_j4569845202979_3_alg».proof.Proof.Val.Spec
import proofs.«425700_j4569845202979_3_alg».proof.Proof.LibIndex
import proofs.«425700_j4569845202979_3_alg».proof.Proof.LibSlice
import proofs.«425700_j4569845202979_3_alg».proof.Proof.LibVecGather
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.Hand

open Idealize.ShloMosaic Idealize.ShloMosaic.TcCoe Idealize.ShloMosaic.ValueIdx
open Cert.KernelIdeal Cert.KernelIdeal.Gen

/-- The src words as a vector: column 0 of the edge array, cut out and flattened. -/
theorem host0_v1 (X : Valuation τ sig (Elt Ideal)) (e : Fin 500000) :
    (StableHlo.after (hostOps0 (F := Ideal)) X main_v1 : S500000.Idx → BitVec 32) (ix1 e)
      = (X main_arg2 : S500000x2.Idx → BitVec 32) (ix2 e (0 : Fin 2)) := by
  -- later operations of the stretch write other arrays; this one holds the slice of column 0, reshaped
  have h : (StableHlo.after (hostOps0 (F := Ideal)) X (Proc.devRef .tc main_v1) : S500000.Idx → BitVec 32)
      = shapeCast S500000
          (extractStridedSlice S500000x1 ![0, 0] (X (Proc.devRef .tc main_arg2) : S500000x2.Idx → BitVec 32)
            slices_S500000x2_S500000x1_0_0)
          shapeCasts_S500000x1_S500000 := by
    after_results
    all_goals rfl
  rw [h]
  exact Cert.LibSlice.col_slice_apply _ (0 : Fin 2) slices_S500000x2_S500000x1_0_0 shapeCasts_S500000x1_S500000 e

/-- The weight landing on each node, as a column: the weights scattered by the dst words (column 1 of the edge
    array) and added into a vector of zeros. Entry `(n, 0)` is `0` plus the weights of the edges whose dst word,
    read signed, is `n`. -/
theorem host0_v8 (X : Valuation τ sig (Elt Ideal)) (n : Fin 100000) :
    (StableHlo.after (hostOps0 (F := Ideal)) X main_v8 : S100000x1.Idx → EReal) (ix2 n (0 : Fin 1))
      = Cert.Spec.wnode (X main_arg1 : S500000x1.Idx → EReal) (X main_arg2 : S500000x2.Idx → BitVec 32) n := by
  -- the stretch as one term: the accumulating scatter of the flattened weights, at the column of dst words
  -- (column 1 cut out, flattened, stood up as a one-column index array), into the broadcast zero; then a column
  have h : (StableHlo.after (hostOps0 (F := Ideal)) X (Proc.devRef .tc main_v8) : S100000x1.Idx → EReal)
      = shapeCast S100000x1
          (Host.scatterAdd (F := Ideal) scatter_S100000_S500000x1_S500000_n_0_0_1
            (broadcastInDim S100000 ![] bcast_S_S100000 (constant (F := Ideal) S_ .f32 0x00000000#32))
            (broadcastInDim S500000x1 ![0] bcast_S500000_S500000x1_0
              (shapeCast S500000
                (extractStridedSlice S500000x1 ![0, 1] (X (Proc.devRef .tc main_arg2) : S500000x2.Idx → BitVec 32)
                  slices_S500000x2_S500000x1_0_1)
                shapeCasts_S500000x1_S500000))
            (shapeCast S500000 (X (Proc.devRef .tc main_arg1) : S500000x1.Idx → EReal) shapeCasts_S500000x1_S500000))
          shapeCasts_S100000_S100000x1 := by
    after_results
    all_goals rfl
  rw [h]
  -- the column's entry (n, 0) is the vector's entry n
  refine (Cert.LibSlice.col_of_vec_apply _ shapeCasts_S100000_S100000x1 n).trans ?_
  -- at the ideal instance the accumulating scatter is the exact sum of the updates landing on n
  have hs : Host.scatterAdd (F := Ideal) (φ := .f32) (w := 32) scatter_S100000_S500000x1_S500000_n_0_0_1
      = Ideal.hostScatterAdd (Cert.LibIndex.vecScatterDims 100000 500000 scatter_S100000_S500000x1_S500000_n_0_0_1_wf) := rfl
  rw [hs]
  refine (Cert.LibIndex.vecScatterAdd_apply scatter_S100000_S500000x1_S500000_n_0_0_1_wf _ _ _ n).trans ?_
  unfold Cert.Spec.wnode
  refine congrArg₂ (· + ·) ?_ ?_
  -- the operand is the zero word's value everywhere
  · exact Ideal.ofBits_zero_f32
  -- the index column's entry (t, 0) is the dst word of edge t, and the update t is the weight of edge t
  · have hi : ∀ t : Fin 500000,
        (broadcastInDim S500000x1 ![0] bcast_S500000_S500000x1_0
          (shapeCast S500000
            (extractStridedSlice S500000x1 ![0, 1] (X (Proc.devRef .tc main_arg2) : S500000x2.Idx → BitVec 32)
              slices_S500000x2_S500000x1_0_1)
            shapeCasts_S500000x1_S500000)) (ix2 t (0 : Fin 1))
          = (X (Proc.devRef .tc main_arg2) : S500000x2.Idx → BitVec 32) (ix2 t (1 : Fin 2)) := fun t =>
      (Cert.LibVecGather.column_apply (by decide) bcast_S500000_S500000x1_0 _ t (0 : Fin 1)).trans
        (Cert.LibSlice.col_slice_apply _ (1 : Fin 2) slices_S500000x2_S500000x1_0_1 shapeCasts_S500000x1_S500000 t)
    have hu : ∀ t : Fin 500000,
        (shapeCast S500000 (X (Proc.devRef .tc main_arg1) : S500000x1.Idx → EReal) shapeCasts_S500000x1_S500000) (ix1 t)
          = (X (Proc.devRef .tc main_arg1) : S500000x1.Idx → EReal) (ix2 t (0 : Fin 1)) := fun t => by
      refine shapeCast_apply _ shapeCasts_S500000x1_S500000 (ix1 t) (ix2 t (0 : Fin 1)) ?_
      rw [Shape.rowMajor_val_two, Shape.rowMajor_val_one]
      show t.val * 1 + (0 : Nat) = t.val
      omega
    refine Finset.sum_congr ?_ (fun t _ => hu t)
    refine Finset.filter_congr (fun t _ => ?_)
    rw [hi t]

/-- The transpose of the one-row array: entry `(d, 0)` of the column is entry `(0, d)` of the row. -/
theorem host1_v10 (X : Valuation τ sig (Elt Ideal)) (d : Fin 128) :
    (StableHlo.after (hostOps1 (F := Ideal)) X main_v10 : S128x1.Idx → EReal) (ix2 d (0 : Fin 1))
      = (X main_v9 : S1x128.Idx → EReal) (ix2 (0 : Fin 1) d) := by
  -- the stretch is the one transpose
  have e : (StableHlo.after (hostOps1 (F := Ideal)) X (Proc.devRef .tc main_v10) : S128x1.Idx → EReal)
      = transpose S128x1 [1, 0] (X (Proc.devRef .tc main_v9) : S1x128.Idx → EReal) transposes_S1x128_S128x1_1_0 := by
    after_results
  rw [e]
  -- result axis 0 is source axis 1 and result axis 1 is source axis 0
  exact transpose_apply _ _ transposes_S1x128_S128x1_1_0 _ _ (fun b => match b with
    | ⟨0, _⟩ => rfl
    | ⟨1, _⟩ => rfl)

/-- The last stretch before the third launch: the padded vector laid out row-major as `[248, 2048]`. -/
theorem stretch2_2 (Y : Valuation τ sig (Elt Ideal)) :
    (StableHlo.after (hostOps2_2 (F := Ideal)) Y (Proc.devRef .tc main_v21) : S248x2048.Idx → EReal)
      = shapeCast S248x2048 (Y (Proc.devRef .tc main_v20) : S507904.Idx → EReal) shapeCasts_S507904_S248x2048 := by
  after_results
  all_goals rfl

/-- The padding stretch: the taken vector extended on the right by 7904 copies of the integer zero read as a float. -/
theorem stretch2_1 (Y : Valuation τ sig (Elt Ideal)) :
    (StableHlo.after (hostOps2_1 (F := Ideal)) Y (Proc.devRef .tc main_v20) : S507904.Idx → EReal)
      = pad S507904 ![0] ![7904] ![0] (Y (Proc.devRef .tc main_v19) : S500000.Idx → EReal)
          (sitofp (F := Ideal) .f32 (Y (Proc.devRef .tc main_c_1) : S_.Idx → BitVec 32))
          pads_S500000_S507904_079040 h_S_ := by
  after_results
  all_goals rfl

/-- The take: the per-node scores as a vector, gathered at the column of wrapped src words (a negative word has
    100000 added). -/
theorem stretch2_v19 (X : Valuation τ sig (Elt Ideal)) :
    (StableHlo.after (hostOps2 (F := Ideal)) X (Proc.devRef .tc main_v19) : S500000.Idx → EReal)
      = Host.gather gather_S100000_S500000x1_S500000_n_0_n_n_0_1_1
          (shapeCast S100000 (X (Proc.devRef .tc main_v11) : S100000x1.Idx → EReal) shapeCasts_S100000x1_S100000)
          (broadcastInDim S500000x1 ![0] bcast_S500000_S500000x1_0
            (select
              (cmpi .slt (X (Proc.devRef .tc main_v1) : S500000.Idx → BitVec 32)
                (broadcastInDim S500000 ![] bcast_S_S500000 (constantI S_ 32 0#32)))
              (addi (X (Proc.devRef .tc main_v1) : S500000.Idx → BitVec 32)
                (broadcastInDim S500000 ![] bcast_S_S500000 (constantI S_ 32 100000#32)))
              (X (Proc.devRef .tc main_v1) : S500000.Idx → BitVec 32))) := by
  after_results
  all_goals rfl

/-- What the third launch reads: the per-node scores taken at the src words (each wrapped, then clamped into the
    table's rows), zero-padded to 507904 entries and laid out row-major as `[248, 2048]`. Entry
    `(e / 2048, e % 2048)`, for an edge `e`, is the score of the row the src word of `e` names. -/
theorem host2_v21 (X : Valuation τ sig (Elt Ideal)) (e : Fin 500000) :
    (StableHlo.after (hostOps2_2 (F := Ideal))
        (StableHlo.after (hostOps2_1 (F := Ideal)) (StableHlo.after (hostOps2 (F := Ideal)) X)) main_v21
          : S248x2048.Idx → EReal)
        (ix2 (⟨e.val / 2048, by omega⟩ : Fin 248) (⟨e.val % 2048, by omega⟩ : Fin 2048))
      = (X main_v11 : S100000x1.Idx → EReal)
          (ix2 (Cert.Spec.takeRow ((X main_v1 : S500000.Idx → BitVec 32) (ix1 e))) (0 : Fin 1)) := by
  show (StableHlo.after (hostOps2_2 (F := Ideal))
        (StableHlo.after (hostOps2_1 (F := Ideal)) (StableHlo.after (hostOps2 (F := Ideal)) X))
          (Proc.devRef .tc main_v21) : S248x2048.Idx → EReal) _ = _
  rw [stretch2_2]
  -- (e / 2048, e % 2048) of [248, 2048] and e of [507904] sit at the same row-major position
  refine (shapeCast_apply _ shapeCasts_S507904_S248x2048 _ (ix1 (⟨e.val, by omega⟩ : Fin 507904)) ?_).trans ?_
  · rw [Shape.rowMajor_val_two, Shape.rowMajor_val_one]
    show e.val = e.val / 2048 * 2048 + e.val % 2048
    omega
  rw [stretch2_1]
  -- position e is below 500000: inside the padded vector's operand, no padding read
  refine (pad_apply_of_inside _ _ _ _ _ pads_S500000_S507904_079040 h_S_ _ (ix1 e) (fun a => match a with
    | ⟨0, _⟩ => by show e.val = 0 + e.val * (0 + 1); omega)).trans ?_
  rw [stretch2_v19]
  -- the take reads the operand at its start index, read signed and clamped into [0, 99999]
  refine (Cert.LibVecGather.vecGather_apply (by decide) gather_S100000_S500000x1_S500000_n_0_n_n_0_1_1_wf _ _ e).trans ?_
  -- the scores as a vector: entry r is entry (r, 0) of the column
  have hcol : ∀ r : Fin 100000,
      (shapeCast S100000 (X (Proc.devRef .tc main_v11) : S100000x1.Idx → EReal) shapeCasts_S100000x1_S100000) (ix1 r)
        = (X (Proc.devRef .tc main_v11) : S100000x1.Idx → EReal) (ix2 r (0 : Fin 1)) := fun r => by
    refine shapeCast_apply _ shapeCasts_S100000x1_S100000 (ix1 r) (ix2 r (0 : Fin 1)) ?_
    rw [Shape.rowMajor_val_two, Shape.rowMajor_val_one]
    show r.val * 1 + (0 : Nat) = r.val
    omega
  refine (hcol _).trans ?_
  -- the start index of edge e is the wrapped src word: the column's entry (e, 0) is the vector's entry e, and there
  -- the comparison with the zero word, the sum with the word of 100000 and the select are taken entry by entry
  have hw : (broadcastInDim S500000x1 ![0] bcast_S500000_S500000x1_0
        (select
          (cmpi .slt (X (Proc.devRef .tc main_v1) : S500000.Idx → BitVec 32)
            (broadcastInDim S500000 ![] bcast_S_S500000 (constantI S_ 32 0#32)))
          (addi (X (Proc.devRef .tc main_v1) : S500000.Idx → BitVec 32)
            (broadcastInDim S500000 ![] bcast_S_S500000 (constantI S_ 32 100000#32)))
          (X (Proc.devRef .tc main_v1) : S500000.Idx → BitVec 32))) (ix2 e (0 : Fin 1))
      = Cert.Spec.wrapW ((X (Proc.devRef .tc main_v1) : S500000.Idx → BitVec 32) (ix1 e)) :=
    (Cert.LibVecGather.column_apply (by decide) bcast_S500000_S500000x1_0 _ e (0 : Fin 1)).trans rfl
  refine congrArg (fun r : Fin 100000 => (X (Proc.devRef .tc main_v11) : S100000x1.Idx → EReal) (ix2 r (0 : Fin 1)))
    (Fin.ext ?_)
  show min (_ : BitVec 32).toInt.toNat (100000 - 1) = min (Cert.Spec.wrapW _).toInt.toNat (100000 - 1)
  rw [hw]

/-- The closing stretch: the `[248, 2048]` array flattened row-major, its first 500000 entries kept, and those
    stood up as a column. Entry `(e, 0)` of the result is entry `(e / 2048, e % 2048)` of the array. -/
theorem host3_v25 (X : Valuation τ sig (Elt Ideal)) (e : Fin 500000) :
    (StableHlo.after (hostOps3 (F := Ideal)) X main_v25 : S500000x1.Idx → EReal) (ix2 e (0 : Fin 1))
      = (X main_v22 : S248x2048.Idx → EReal)
          (ix2 (⟨e.val / 2048, by omega⟩ : Fin 248) (⟨e.val % 2048, by omega⟩ : Fin 2048)) := by
  -- the stretch as one term: reshape, slice, reshape
  have h : (StableHlo.after (hostOps3 (F := Ideal)) X (Proc.devRef .tc main_v25) : S500000x1.Idx → EReal)
      = shapeCast S500000x1
          (extractStridedSlice S500000 ![0]
            (shapeCast S507904 (X (Proc.devRef .tc main_v22) : S248x2048.Idx → EReal) shapeCasts_S248x2048_S507904)
            slices_S507904_S500000_0)
          shapeCasts_S500000_S500000x1 := by
    after_results
    all_goals rfl
  rw [h]
  -- the column's entry (e, 0) is the vector's entry e
  refine (Cert.LibSlice.col_of_vec_apply _ shapeCasts_S500000_S500000x1 e).trans ?_
  -- the slice starts at 0: entry e of the kept part is entry e of the flattened array
  refine (extractStridedSlice_apply _ _ slices_S507904_S500000_0 (ix1 e)
    (ix1 (⟨e.val, by omega⟩ : Fin 507904)) (fun a => match a with
      | ⟨0, _⟩ => by show e.val = 0 + e.val; omega)).trans ?_
  -- (e / 2048, e % 2048) of [248, 2048] and e of [507904] sit at the same row-major position
  refine shapeCast_apply _ shapeCasts_S248x2048_S507904 _
    (ix2 (⟨e.val / 2048, by omega⟩ : Fin 248) (⟨e.val % 2048, by omega⟩ : Fin 2048)) ?_
  rw [Shape.rowMajor_val_two, Shape.rowMajor_val_one]
  show e.val / 2048 * 2048 + e.val % 2048 = e.val
  omega

end Cert.KernelIdeal.Hand

end
-- ==== Proof.LibPlainDot.lean ====
/-
  A plain matrix product read at an entry.
  The dimension numbers "contract the left operand's axis 1 with the right operand's axis 0, no batch axis" describe the
  product of an [M, K] matrix with a [K, N] matrix. At the ideal instance its entry (p, q) is the sum over k of
  l[p, k] * r[k, q], both for the vector unit's product into a zero accumulator and for the host's dot_general. The lemmas
  are stated for any extents M, K, N and any proof of the dimension numbers' well-formedness, so every record with
  these six axis lists is an instance.
-/
import Idealize.ShloMosaic.PureOps.Ideal.Laws
import Idealize.ShloMosaic.Lib.ValueIdx

noncomputable section

namespace Cert.LibPlainDot

open Idealize.ShloMosaic Idealize.ShloMosaic.ValueIdx

/-- The dimension numbers of the plain product [M, K] × [K, N] → [M, N], over any proof that they are well formed. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section
variable {M K N : Nat} (wf : DotDims.WF ⟨2, ![M, K]⟩ ⟨2, ![K, N]⟩ ⟨2, ![M, N]⟩ [1] [0] [0] [1] [] [])

/-- The left operand's row is the result's row: axis 0 of the left operand is its one free axis. -/
theorem lhs_row (j : (⟨2, ![M, N]⟩ : Shape).Idx) (k : (plainDims M K N wf).contr.Idx) :
    ((plainDims M K N wf).lhsIdx j k 0).val = (j 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl

/-- The left operand's column is the contraction index. -/
theorem lhs_col (j : (⟨2, ![M, N]⟩ : Shape).Idx) (k : (plainDims M K N wf).contr.Idx) :
    ((plainDims M K N wf).lhsIdx j k 1).val = (k ⟨0, Nat.one_pos⟩).val :=
  (plainDims M K N wf).lhsIdx_val_of_single rfl j k

/-- The right operand's row is the contraction index. -/
theorem rhs_row (j : (⟨2, ![M, N]⟩ : Shape).Idx) (k : (plainDims M K N wf).contr.Idx) :
    ((plainDims M K N wf).rhsIdx j k 0).val = (k ⟨0, Nat.one_pos⟩).val :=
  (plainDims M K N wf).rhsIdx_val_of_single rfl j k

/-- The right operand's column is the result's column: axis 1 of the right operand is its one free axis. -/
theorem rhs_col (j : (⟨2, ![M, N]⟩ : Shape).Idx) (k : (plainDims M K N wf).contr.Idx) :
    ((plainDims M K N wf).rhsIdx j k 1).val = (j 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- THE CONTRACTION'S SUM over the one contracted axis, re-indexed by its coordinate k : Fin K: the operands are read
    at (p, k) and (k, q). -/
theorem sum_contr {α : Type} [AddCommMonoid α] (f : (⟨2, ![M, K]⟩ : Shape).Idx → (⟨2, ![K, N]⟩ : Shape).Idx → α)
    (p : Fin M) (q : Fin N) :
    ∑ k : (plainDims M K N wf).contr.Idx, f ((plainDims M K N wf).lhsIdx (ix2 p q) k) ((plainDims M K N wf).rhsIdx (ix2 p q) k)
      = ∑ k : Fin K, f (ix2 p k) (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_row wf _ _
      | ⟨1, _⟩ => exact (lhs_col wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_row wf _ _).trans hk
      | ⟨1, _⟩ => exact rhs_col wf _ _)
  rw [el, er]

/-- THE VECTOR UNIT'S PRODUCT INTO A ZERO ACCUMULATOR, at the ideal instance, read at (p, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (plainDims M K N wf) prec l r (constant ⟨2, ![M, N]⟩ .f32 0x00000000#32) (ix2 p q)
      = ∑ k : Fin K, l (ix2 p k) * r (ix2 k q) := by
  rw [Ideal.matmul_constant_zero_apply]
  exact sum_contr wf (fun a b => l a * r b) p q

/-- THE HOST'S dot_general, at the ideal instance, read at (p, q). -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (plainDims M K N wf) prec sched l r (ix2 p q)
      = ∑ k : Fin K, l (ix2 p k) * r (ix2 k q) := by
  rw [Ideal.dotGeneral_apply]
  exact sum_contr wf (fun a b => l a * r b) p q

end

end Cert.LibPlainDot

end
-- ==== Proof.Val.K12.lean ====
/-
  What the second and third launches leave in their output arrays, at the ideal instance, as functions of the arrays
  the launches are entered with.

  Second launch: row n of the [100000, 1] output is row n of the node table times the [128, 1] column,
  Σ_k table[n, k] · column[k, 0]. Each of the 50 points stores the product of its [2000, 128] block of the table with the
  column, and the 50 blocks of 2000 rows tile the 100000 rows.

  Third launch: every entry of the [248, 2048] output is logistic (log x + eps) of the input's entry. Each of the 31
  points stores that function of its [8, 2048] block, and the 31 blocks of 8 rows tile the 248 rows.

  In both, what a point writes back is its block of ONE whole-array function, so the array after the last write-back is
  that function.
-/
import proofs.«425700_j4569845202979_3_alg».proof.Proof.KI.Reg1
import proofs.«425700_j4569845202979_3_alg».proof.Proof.KI.Reg2
import proofs.«425700_j4569845202979_3_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-- The zero offsets of a whole-block rectangle, however spelt. -/
theorem hz2 : (![0, 0] : Fin 2 → Nat) = fun _ => 0 := funext fun a => by
  match a with
  | ⟨0, _⟩ => rfl
  | ⟨1, _⟩ => rfl

/-! ## The second launch: each row of the node table times the column -/

/-- Row n of a [100000, 128] table times a [128, 1] column: Σ_k table[n, k] · column[k, 0]. -/
abbrev rowDot (a0 : S100000x128.Idx → EReal) (a1 : S128x1.Idx → EReal) (n : Fin 100000) : EReal :=
  ∑ k : Fin 128, a0 (ix2 n k) * a1 (ix2 k (0 : Fin 1))

/-- The whole-array function: row (i 0) of the table times the column. -/
abbrev G1 (a0 : S100000x128.Idx → EReal) (a1 : S128x1.Idx → EReal) : S100000x1.Idx → EReal :=
  fun i => rowDot a0 a1 (⟨(i 0).val, idx2_lt0 i⟩ : Fin 100000)

/-- The body's stored value at entry (p, q) of the block: the plain [2000, 128] × [128, 1] product onto a zero
    accumulator, Σ_k x0[p, k] · x1[k, q]. -/
theorem pay1_apply (x0 : Vec Ideal S2000x128 .f32) (x1 : Vec Ideal S128x1 .f32) (p : Fin 2000) (q : Fin 1) :
    (k1_pay1 (F := Ideal) x0 x1 : S2000x1.Idx → EReal) (ix2 p q)
      = ∑ k : Fin 128, (x0 : S2000x128.Idx → EReal) (ix2 p k) * (x1 : S128x1.Idx → EReal) (ix2 k q) := by
  unfold k1_pay1
  rw [shapeCast_self]
  exact Cert.LibPlainDot.matmul_zero_apply dot_S2000x128_S128x1_S2000x1_1_0_0_1_n_n.wf none x0 x1 p q

/-- The same at any index of the block: its one column is column 0. -/
theorem pay1_apply_idx (x0 : Vec Ideal S2000x128 .f32) (x1 : Vec Ideal S128x1 .f32) (y : S2000x1.Idx) :
    (k1_pay1 (F := Ideal) x0 x1 : S2000x1.Idx → EReal) y
      = ∑ k : Fin 128, (x0 : S2000x128.Idx → EReal) (ix2 (⟨(y 0).val, idx2_lt0 y⟩ : Fin 2000) k)
          * (x1 : S128x1.Idx → EReal) (ix2 k (0 : Fin 1)) := by
  obtain ⟨p, q, rfl⟩ : ∃ (p : Fin 2000) (q : Fin 1), y = ix2 p q := ⟨y 0, y 1, eq_ix2 y⟩
  obtain rfl : q = 0 := Subsingleton.elim _ _
  exact pay1_apply x0 x1 p 0

/-- The index maps over the 50 points: the table's block moves with the output's along the rows and is the one block
    of columns, the column's block never moves, the output's is block t of rows. -/
theorem idx_facts1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The table's block at point t is rows 2000 t … 2000 t + 1999 of the table. -/
theorem iblk1_0_apply (c : Dev nD) (t : Fin cfg1.N) (y : S2000x128.Idx) (i : S100000x128.Idx)
    (h0 : (i 0).val = t.val * 2000 + (y 0).val) (h1 : (i 1).val = (y 1).val) :
    (iblk1 (F := Ideal) V c 0 t : S2000x128.Idx → EReal) y = (V c main_arg0 : S100000x128.Idx → EReal) i := by
  obtain ⟨e0, e1, e2, e3, e4, e5⟩ := idx_facts1 t
  show (V c main_arg0 : S100000x128.Idx → EReal) (((cfg1.win 0).blk t).view.emb y) = (V c main_arg0 : S100000x128.Idx → EReal) i
  congr 1
  funext a
  apply Fin.ext
  match a with
  | ⟨0, _⟩ => show win1_0.index t (0 : Fin 2) * 2000 + 1 * (y 0).val = (i 0).val; omega
  | ⟨1, _⟩ => show win1_0.index t (1 : Fin 2) * 128 + 1 * (y 1).val = (i 1).val; omega

/-- The column's block at every point is the column. -/
theorem iblk1_1_apply (c : Dev nD) (t : Fin cfg1.N) (y : S128x1.Idx) :
    (iblk1 (F := Ideal) V c 1 t : S128x1.Idx → EReal) y = (V c main_v10 : S128x1.Idx → EReal) y := by
  obtain ⟨e0, e1, e2, e3, e4, e5⟩ := idx_facts1 t
  show (V c main_v10 : S128x1.Idx → EReal) (((cfg1.win 1).blk t).view.emb y) = (V c main_v10 : S128x1.Idx → EReal) y
  congr 1
  funext a
  apply Fin.ext
  match a with
  | ⟨0, _⟩ => show win1_1.index t (0 : Fin 2) * 128 + 1 * (y 0).val = (y 0).val; omega
  | ⟨1, _⟩ => show win1_1.index t (1 : Fin 2) * 1 + 1 * (y 1).val = (y 1).val; omega

/-- What point t writes back is block t of G1 of the table and the column. -/
theorem flushed1_eq (c : Dev nD) (t : Fin cfg1.N) :
    (dat1 (F := Ideal) V c).flushed 2 t
      = ((cfg1.win 2).blk t).view.read (Elt Ideal) (G1 (V c main_arg0) (V c main_v10)) := by
  show (cfg1.win 2).cut (grid1.coords t) ((dat1 (F := Ideal) V c).after 2 t) = _
  rw [after1_2]
  unfold out1_2
  rw [View.canon_unit_zero hz2]
  simp only [View.ld_unit_zero (S := S2000x128) hz2, View.ld_unit_zero (S := S128x1) hz2]
  obtain ⟨e0, e1, e2, e3, e4, e5⟩ := idx_facts1 t
  funext j
  show (k1_pay1 (F := Ideal) (iblk1 V c 0 t) (iblk1 V c 1 t) : S2000x1.Idx → EReal) ((cfg1.win 2).xinj (grid1.coords t) j)
    = G1 (V c main_arg0) (V c main_v10) (((cfg1.win 2).blk t).view.emb j)
  refine (pay1_apply_idx _ _ _).trans ?_
  refine Finset.sum_congr rfl fun k _ => ?_
  refine congrArg₂ (· * ·) (iblk1_0_apply V c t _ _ ?_ rfl) (iblk1_1_apply V c t _)
  show win1_2.index t (0 : Fin 2) * 2000 + 1 * (j 0).val = t.val * 2000 + (j 0).val
  omega

/-- An index of the array is in point t's block iff each coordinate is in the block's range on its axis. -/
theorem mem_blk1 (t : Fin cfg1.N) (i : S100000x1.Idx) :
    i ∈ ((cfg1.win 2).blk t).view.set ↔ ∀ a : Fin 2, win1_2.index t a * S2000x1.size a ≤ (i a).val
      ∧ (i a).val < win1_2.index t a * S2000x1.size a + S2000x1.size a := by
  show i ∈ ((View.whole main_v11).slice (win1_2.rect t)).set ↔ _
  rw [View.set_slice_whole, Rect.mem_set_unit]
  exact Iff.rfl

/-- The 50 blocks of 2000 rows tile the 100000 rows: row r is in the block of point r / 2000. -/
theorem cover1 (i : S100000x1.Idx) :
    ∃ t : Fin cfg1.N, (cfg1.win 2).flush t = true ∧ i ∈ ((cfg1.win 2).blk t).view.set := by
  have hi0 : (i 0).val < 100000 := idx2_lt0 i
  have hi1 : (i 1).val < 1 := idx2_lt1 i
  have hN : cfg1.N = 50 := N_1
  have ht : (i 0).val / 2000 < cfg1.N := by rw [hN]; omega
  obtain ⟨e0, e1, e2, e3, e4, e5⟩ := idx_facts1 ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    rw [e4']; omega
  | ⟨1, _⟩ =>
    show win1_2.index ⟨(i 0).val / 2000, ht⟩ (1 : Fin 2) * 1 ≤ (i 1).val
      ∧ (i 1).val < win1_2.index ⟨(i 0).val / 2000, ht⟩ (1 : Fin 2) * 1 + 1
    rw [e5]; omega

/-- After the 50 write-backs the [100000, 1] output is G1 of the table and the column. -/
theorem arr1_fun (c : Dev nD) :
    ((dat1 (F := Ideal) V c).arrAt 2 cfg1.N : S100000x1.Idx → EReal) = G1 (V c main_arg0) (V c main_v10) :=
  (dat1 (F := Ideal) V c).arrAt_eq_of_cover 2 (G1 (V c main_arg0) (V c main_v10)) (fun t _ => flushed1_eq V c t) cover1

/-- After the 50 write-backs, row n of the [100000, 1] output is row n of the node table times the column. -/
theorem arr1 (c : Dev nD) (n : Fin 100000) :
    ((dat1 (F := Ideal) V c).arrAt 2 cfg1.N : S100000x1.Idx → EReal) (ix2 n 0)
      = rowDot (V c main_arg0) (V c main_v10) n :=
  congrFun (arr1_fun V c) (ix2 n 0)

/-! ## The third launch: logistic (log x + eps), entry by entry -/

/-- The whole-array function: logistic (log x + eps) of each entry. -/
abbrev G2 (a : S248x2048.Idx → EReal) : S248x2048.Idx → EReal :=
  fun i => Ideal.logistic (Ideal.log (a i) + Ideal.ofBits .f32 0x3727C5AC#32)

/-- The body's stored value at an entry of the block: the same function of the loaded block's entry. -/
theorem pay2_apply (x0 : Vec Ideal S8x2048 .f32) (j : S8x2048.Idx) :
    (k2_pay1 (F := Ideal) x0 : S8x2048.Idx → EReal) j
      = Ideal.logistic (Ideal.log ((x0 : S8x2048.Idx → EReal) j) + Ideal.ofBits .f32 0x3727C5AC#32) := by
  unfold k2_pay1
  rw [shapeCast_self]
  rfl

/-- The index maps over the 31 points: the input's block moves with the output's, which is block t of rows, the one
    block of columns. -/
theorem idx_facts2 : ∀ t : Fin cfg2.N, win2_0.index t (0 : Fin 2) = win2_1.index t (0 : Fin 2)
    ∧ win2_0.index t (1 : Fin 2) = win2_1.index t (1 : Fin 2)
    ∧ win2_1.index t (0 : Fin 2) = t.val
    ∧ win2_1.index t (1 : Fin 2) = 0 :=
  (by decide +kernel : ∀ t : Fin grid2.N, _)

/-- What point t writes back is block t of G2 of the input array. -/
theorem flushed2_eq (c : Dev nD) (t : Fin cfg2.N) :
    (dat2 (F := Ideal) V c).flushed 1 t = ((cfg2.win 1).blk t).view.read (Elt Ideal) (G2 (V c main_v21)) := by
  show (cfg2.win 1).cut (grid2.coords t) ((dat2 (F := Ideal) V c).after 1 t) = _
  rw [after2_1]
  unfold out2_1
  rw [View.canon_unit_zero hz2]
  simp only [View.ld_unit_zero (S := S8x2048) hz2]
  obtain ⟨e0, e1, e2, e3⟩ := idx_facts2 t
  funext j
  show (k2_pay1 (F := Ideal) (iblk2 V c 0 t) : S8x2048.Idx → EReal) ((cfg2.win 1).xinj (grid2.coords t) j)
    = G2 (V c main_v21) (((cfg2.win 1).blk t).view.emb j)
  refine (pay2_apply _ _).trans ?_
  show Ideal.logistic (Ideal.log ((V c main_v21 : S248x2048.Idx → EReal) (((cfg2.win 0).blk t).view.emb j)) + _)
    = Ideal.logistic (Ideal.log ((V c main_v21 : S248x2048.Idx → EReal) (((cfg2.win 1).blk t).view.emb j)) + _)
  have h0 : ((cfg2.win 0).blk t).view.emb j = ((cfg2.win 1).blk t).view.emb j := by
    funext a; apply Fin.ext
    match a with
    | ⟨0, _⟩ => show win2_0.index t (0 : Fin 2) * 8 + 1 * (j 0).val = win2_1.index t (0 : Fin 2) * 8 + 1 * (j 0).val; omega
    | ⟨1, _⟩ => show win2_0.index t (1 : Fin 2) * 2048 + 1 * (j 1).val = win2_1.index t (1 : Fin 2) * 2048 + 1 * (j 1).val; omega
  rw [h0]

/-- An index of the array is in point t's block iff each coordinate is in the block's range on its axis. -/
theorem mem_blk2 (t : Fin cfg2.N) (i : S248x2048.Idx) :
    i ∈ ((cfg2.win 1).blk t).view.set ↔ ∀ a : Fin 2, win2_1.index t a * S8x2048.size a ≤ (i a).val
      ∧ (i a).val < win2_1.index t a * S8x2048.size a + S8x2048.size a := by
  show i ∈ ((View.whole main_v22).slice (win2_1.rect t)).set ↔ _
  rw [View.set_slice_whole, Rect.mem_set_unit]
  exact Iff.rfl

/-- The 31 blocks of 8 rows tile the 248 rows: row r is in the block of point r / 8. -/
theorem cover2 (i : S248x2048.Idx) :
    ∃ t : Fin cfg2.N, (cfg2.win 1).flush t = true ∧ i ∈ ((cfg2.win 1).blk t).view.set := by
  have hi0 : (i 0).val < 248 := idx2_lt0 i
  have hi1 : (i 1).val < 2048 := idx2_lt1 i
  have hN : cfg2.N = 31 := N_2
  have ht : (i 0).val / 8 < cfg2.N := by rw [hN]; omega
  obtain ⟨e0, e1, e2, e3⟩ := idx_facts2 ⟨(i 0).val / 8, ht⟩
  have e2' : win2_1.index ⟨(i 0).val / 8, ht⟩ (0 : Fin 2) = (i 0).val / 8 := e2
  refine ⟨⟨(i 0).val / 8, ht⟩, flush2_1 _, ?_⟩
  rw [mem_blk2]
  intro a
  match a with
  | ⟨0, _⟩ =>
    show win2_1.index ⟨(i 0).val / 8, ht⟩ (0 : Fin 2) * 8 ≤ (i 0).val
      ∧ (i 0).val < win2_1.index ⟨(i 0).val / 8, ht⟩ (0 : Fin 2) * 8 + 8
    rw [e2']; omega
  | ⟨1, _⟩ =>
    show win2_1.index ⟨(i 0).val / 8, ht⟩ (1 : Fin 2) * 2048 ≤ (i 1).val
      ∧ (i 1).val < win2_1.index ⟨(i 0).val / 8, ht⟩ (1 : Fin 2) * 2048 + 2048
    rw [e3]; omega

/-- After the 31 write-backs the [248, 2048] output is G2 of the input array. -/
theorem arr2_fun (c : Dev nD) :
    ((dat2 (F := Ideal) V c).arrAt 1 cfg2.N : S248x2048.Idx → EReal) = G2 (V c main_v21) :=
  (dat2 (F := Ideal) V c).arrAt_eq_of_cover 1 (G2 (V c main_v21)) (fun t _ => flushed2_eq V c t) cover2

/-- After the 31 write-backs, every entry of the [248, 2048] output is logistic (log x + eps) of the input's entry. -/
theorem arr2 (c : Dev nD) (i : S248x2048.Idx) :
    ((dat2 (F := Ideal) V c).arrAt 1 cfg2.N : S248x2048.Idx → EReal) i
      = Ideal.logistic (Ideal.log ((V c main_v21 : S248x2048.Idx → EReal) i) + Ideal.ofBits .f32 0x3727C5AC#32) :=
  congrFun (arr2_fun V c) i

end Cert.KernelIdeal.Hand

end
-- ==== Proof.Val.K0Pieces.lean ====
/-
  What the first launch's scratch row holds, in closed terms of the two arithmetic payloads: each case's found
  pieces are one whole-row store (after a reset store, at the first point; read back for the copy-out, at the last),
  so the row after the first point is the accumulation step applied to the zero row, and after every later point the
  step applied to what the point before left; the output block written at the last point is that row.
-/
import proofs.«425700_j4569845202979_3_alg».proof.Proof.KI.Reg0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's rectangles start at the origin. -/
theorem origin0 : (![0, 0] : Fin 2 → Nat) = fun _ => 0 := by
  funext a; match a with | ⟨0, _⟩ => rfl | ⟨1, _⟩ => rfl

/-- A middle point leaves the step of (what the point before left, the two input blocks). -/
theorem sout0_B_eq (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : ¬cond0_1 i)
    (x0 : Vec F S2000x128 .f32) (x1 : Vec F S2000x1 .f32) (xs0 : Vec F S1x128 .f32) :
    sout0_B c i arg1 harg1 arg2 harg2 arg3 harg3 arg4 harg4 hc0 hc1 x0 x1 xs0 = k0_pay2 xs0 x0 x1 := by
  unfold sout0_B
  rw [View.read_writes_eq_canon _ _ _ (scover0_B c i arg1 harg1 arg2 harg2 arg3 harg3 arg4 harg4 hc0 hc1 x0 x1 xs0)]
  unfold kernelRun0_B
  dsimp only
  sl_unfold_words
  rw [View.canon_unit_zero origin0]
  simp only [View.readAt_eq_ld, harg4.read_unread, harg1.read_unread, harg2.read_unread,
    View.ld_unit_zero (S := S1x128) origin0, View.ld_unit_zero (S := S2000x128) origin0, View.ld_unit_zero (S := S2000x1) origin0]

/-- The first point leaves the step of (the zero row, the two input blocks): the reset store is read back. -/
theorem sout0_A_eq (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : cond0_0 i) (hc1 : ¬cond0_1 i)
    (x0 : Vec F S2000x128 .f32) (x1 : Vec F S2000x1 .f32) :
    sout0_A c i arg1 harg1 arg2 harg2 arg3 harg3 arg4 harg4 hc0 hc1 x0 x1 = k0_pay2 (k0_pay1 (F := F)) x0 x1 := by
  unfold sout0_A
  rw [View.read_writes_eq_canon _ _ _ (scover0_A c i arg1 harg1 arg2 harg2 arg3 harg3 arg4 harg4 hc0 hc1 x0 x1)]
  unfold kernelRun0_A
  dsimp only
  sl_unfold_words
  rw [View.canon_cons_unit_zero (S := S1x128) origin0]
  simp only [View.readAt_eq_ld, harg4.read_unread, harg1.read_unread, harg2.read_unread, View.readCov_unit_zero (S := S1x128) _ origin0,
    View.ld_unit_zero (S := S1x128) origin0, View.ld_unit_zero (S := S2000x128) origin0, View.ld_unit_zero (S := S2000x1) origin0]

/-- The last point leaves the same step in the scratch row, -/
theorem sout0_C_eq (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) :
    sout0_C c i arg1 harg1 arg2 harg2 arg3 harg3 arg4 harg4 hc0 hc1 x0 x1 xs0 = k0_pay2 xs0 x0 x1 := by
  unfold sout0_C
  rw [View.read_writes_eq_canon _ _ _ (scover0_C c i arg1 harg1 arg2 harg2 arg3 harg3 arg4 harg4 hc0 hc1 x0 x1 xs0)]
  unfold kernelRun0_C
  dsimp only
  sl_unfold_words
  rw [View.canon_unit_zero origin0]
  simp only [View.readAt_eq_ld, harg4.read_unread, harg1.read_unread, harg2.read_unread,
    View.ld_unit_zero (S := S1x128) origin0, View.ld_unit_zero (S := S2000x128) origin0, View.ld_unit_zero (S := S2000x1) origin0]

/-- and copies it to the output block. -/
theorem out0_C_eq (c : Dev nD) (i : grid0.Coords) (arg1 : Memref sig .tc .vmem S2000x128 .f32) (harg1 : arg1.IsWhole) (arg2 : Memref sig .tc .vmem S2000x1 .f32) (harg2 : arg2.IsWhole) (arg3 : Memref sig .tc .vmem S1x128 .f32) (harg3 : arg3.IsWhole) (arg4 : Memref sig .tc .vmem S1x128 .f32) (harg4 : arg4.IsWhole) (hc0 : ¬cond0_0 i) (hc1 : cond0_1 i)
    (x0 : Vec F S2000x128 .f32) (x1 : Vec F S2000x1 .f32) (xs0 : Vec F S1x128 .f32) :
    out0_C c i arg1 harg1 arg2 harg2 arg3 harg3 arg4 harg4 hc0 hc1 x0 x1 xs0 = k0_pay2 xs0 x0 x1 := by
  unfold out0_C
  rw [View.read_writes_eq_canon _ _ _ (cover0_C c i arg1 harg1 arg2 harg2 arg3 harg3 arg4 harg4 hc0 hc1 x0 x1 xs0)]
  unfold kernelRun0_C
  dsimp only
  sl_unfold_words
  rw [View.canon_unit_zero origin0, View.readCov_unit_zero (S := S1x128) _ origin0]
  simp only [View.readAt_eq_ld, harg4.read_unread, harg1.read_unread, harg2.read_unread,
    View.ld_unit_zero (S := S1x128) origin0, View.ld_unit_zero (S := S2000x128) origin0, View.ld_unit_zero (S := S2000x1) origin0]

variable (V : (c : Dev nD) → (b : Ref sig .tc) → Buf (Elt F) ((c : Thread nD τ).loc b))

/-- The scratch row after the first point. -/
theorem scr_zero (c : Dev nD) (h : 0 < cfg0.N) :
    (outsAt0 V c 0 h).2 = k0_pay2 (k0_pay1 (F := F)) (iblk0 V c 0 ⟨0, h⟩) (iblk0 V c 1 ⟨0, h⟩) := by
  show (outsAt0 V c (⟨0, h⟩ : Fin cfg0.N).val (⟨0, h⟩ : Fin cfg0.N).isLt).2 = _
  rw [outsAt0_A V c ⟨0, h⟩ (Nat.zero_mod _) (show ¬((0 : ℕ) % 50 = 49) by decide)]
  dsimp only
  exact sout0_A_eq c _ _ _ _ _ _ _ _ _ _ _ _ _

/-- The scratch row after a later point: the step over what the point before left. -/
theorem scr_succ (c : Dev nD) (n : ℕ) (hn : n + 1 < cfg0.N) :
    (outsAt0 V c (n + 1) hn).2
      = k0_pay2 (outsAt0 V c n (Nat.lt_of_succ_lt hn)).2 (iblk0 V c 0 ⟨n + 1, hn⟩) (iblk0 V c 1 ⟨n + 1, hn⟩) := by
  have hN : n + 1 < 50 := lt_of_lt_of_eq hn (show cfg0.N = 50 from N_0)
  have h0 : ¬(n + 1) % 50 = 0 := by omega
  show (outsAt0 V c (⟨n + 1, hn⟩ : Fin cfg0.N).val (⟨n + 1, hn⟩ : Fin cfg0.N).isLt).2 = _
  by_cases h1 : (n + 1) % 50 = 49
  · rw [outsAt0_C V c ⟨n + 1, hn⟩ h0 h1]
    dsimp only
    exact sout0_C_eq c _ _ _ _ _ _ _ _ _ _ _ _ _ _
  · rw [outsAt0_B V c ⟨n + 1, hn⟩ h0 h1]
    dsimp only
    exact sout0_B_eq c _ _ _ _ _ _ _ _ _ _ _ _ _ _

/-- The output block written at the last point is the scratch row there. -/
theorem out_last (c : Dev nD) (h : 49 < cfg0.N) : (outsAt0 V c 49 h).1 = (outsAt0 V c 49 h).2 := by
  show (outsAt0 V c (⟨49, h⟩ : Fin cfg0.N).val (⟨49, h⟩ : Fin cfg0.N).isLt).1 = (outsAt0 V c (⟨49, h⟩ : Fin cfg0.N).val (⟨49, h⟩ : Fin cfg0.N).isLt).2
  rw [outsAt0_C V c ⟨49, h⟩ (show ¬((49 : ℕ) % 50 = 0) by decide) (show (49 : ℕ) % 50 = 49 by decide)]
  dsimp only
  rw [out0_C_eq, sout0_C_eq]

end Cert.KernelIdeal.Hand

end
-- ==== Proof.Val.K0Arr.lean ====
/-
  The first launch's input blocks as rows of their arrays, and its output array after the 50 points.

  The node table's block at point t is rows 2000 t … 2000 t + 1999 of the table; the per-node weights' block is the same
  rows of the [100000, 1] column. The [1, 128] output is one block, at block index (0, 0) at every point; it is written
  back once, at the last point, and that one write-back covers the whole array: the array ends holding what the last
  point's body left in the output block.
-/
import proofs.«425700_j4569845202979_3_alg».proof.Proof.KI.Reg0
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

variable (V : (c : Dev nD) → (b : Ref sig .tc) → Buf (Elt F) ((c : Thread nD τ).loc b))

/-- The index maps over the 50 points: the table's and the weights' blocks are block t of rows and the one block of
    columns; the output's block never moves from (0, 0). -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0 :=
  (by decide +kernel : ∀ t : Fin grid0.N, _)

/-- Row r of block t is a row of the 100000: 2000 t + r with t below 50 and r below 2000. -/
theorem row0_lt (t : Fin cfg0.N) (r : Fin 2000) : 2000 * t.val + r.val < 100000 := by
  have ht : t.val < 50 := lt_of_lt_of_eq t.isLt (show cfg0.N = 50 from N_0)
  have hr : r.val < 2000 := r.isLt
  omega

/-- The last of the 50 points. -/
theorem last0 : 49 < cfg0.N := by
  rw [show cfg0.N = 50 from N_0]; decide

/-- The table's block at point t is rows 2000 t … 2000 t + 1999 of the table. -/
theorem iblk0_0_apply (c : Dev nD) (t : Fin cfg0.N) (r : Fin 2000) (d : Fin 128) :
    (iblk0 V c 0 t : S2000x128.Idx → Elt F .f32) (ix2 r d)
      = (V c main_arg0 : S100000x128.Idx → Elt F .f32) (ix2 (⟨2000 * t.val + r.val, row0_lt t r⟩ : Fin 100000) d) := by
  obtain ⟨e0, e1, e2, e3, e4, e5⟩ := idx_facts0 t
  show (V c main_arg0 : S100000x128.Idx → Elt F .f32) (((cfg0.win 0).blk t).view.emb (ix2 r d)) = _
  congr 1
  funext a
  apply Fin.ext
  match a with
  | ⟨0, _⟩ => show win0_0.index t (0 : Fin 2) * 2000 + 1 * r.val = 2000 * t.val + r.val; omega
  | ⟨1, _⟩ => show win0_0.index t (1 : Fin 2) * 128 + 1 * d.val = d.val; omega

/-- The per-node weights' block at point t is rows 2000 t … 2000 t + 1999 of the [100000, 1] column. -/
theorem iblk0_1_apply (c : Dev nD) (t : Fin cfg0.N) (r : Fin 2000) :
    (iblk0 V c 1 t : S2000x1.Idx → Elt F .f32) (ix2 r (0 : Fin 1))
      = (V c main_v8 : S100000x1.Idx → Elt F .f32) (ix2 (⟨2000 * t.val + r.val, row0_lt t r⟩ : Fin 100000) (0 : Fin 1)) := by
  obtain ⟨e0, e1, e2, e3, e4, e5⟩ := idx_facts0 t
  show (V c main_v8 : S100000x1.Idx → Elt F .f32) (((cfg0.win 1).blk t).view.emb (ix2 r (0 : Fin 1))) = _
  congr 1
  funext a
  apply Fin.ext
  match a with
  | ⟨0, _⟩ => show win0_1.index t (0 : Fin 2) * 2000 + 1 * r.val = 2000 * t.val + r.val; omega
  | ⟨1, _⟩ => show win0_1.index t (1 : Fin 2) * 1 + 1 * 0 = 0; omega

/-- The output's block at any point is the whole [1, 128] array: contents read through it are the contents. -/
theorem read_blk0_2 (t : Fin cfg0.N) (G : Vec F S1x128 .f32) :
    ((cfg0.win 2).blk t).view.read (Elt F) G = (cfg0.win 2).cut (grid0.coords t) G := by
  obtain ⟨e0, e1, e2, e3, e4, e5⟩ := idx_facts0 t
  funext j
  show G (((cfg0.win 2).blk t).view.emb j) = G ((cfg0.win 2).xinj (grid0.coords t) j)
  congr 1
  funext a
  apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- What a writing-back point writes back — there is one, the last — is the output block the last point's body left,
    read through the point's block. -/
theorem flushed0_eq (c : Dev nD) (t : Fin cfg0.N) (hf : (cfg0.win 2).flush t = true) :
    (dat0 (F := F) V c).flushed 2 t = ((cfg0.win 2).blk t).view.read (Elt F) (outsAt0 V c 49 last0).1 := by
  have ht : t.val < 50 := lt_of_lt_of_eq t.isLt (show cfg0.N = 50 from N_0)
  have h49 : t.val = 49 := by have := (flush0_2 t).mp hf; omega
  obtain rfl : t = ⟨49, last0⟩ := Fin.ext h49
  rw [read_blk0_2]
  show (cfg0.win 2).cut (grid0.coords ⟨49, last0⟩) ((dat0 (F := F) V c).after 2 ⟨49, last0⟩) = _
  rw [after0_2]

/-- An index of the array is in point t's block iff each coordinate is in the block's range on its axis. -/
theorem mem_blk0 (t : Fin cfg0.N) (i : S1x128.Idx) :
    i ∈ ((cfg0.win 2).blk t).view.set ↔ ∀ a : Fin 2, win0_2.index t a * S1x128.size a ≤ (i a).val
      ∧ (i a).val < win0_2.index t a * S1x128.size a + S1x128.size a := by
  show i ∈ ((View.whole main_v9).slice (win0_2.rect t)).set ↔ _
  rw [View.set_slice_whole, Rect.mem_set_unit]
  exact Iff.rfl

/-- The last point's block covers the whole [1, 128] array. -/
theorem cover0 (i : S1x128.Idx) :
    ∃ t : Fin cfg0.N, (cfg0.win 2).flush t = true ∧ i ∈ ((cfg0.win 2).blk t).view.set := by
  have hi0 : (i 0).val < 1 := idx2_lt0 i
  have hi1 : (i 1).val < 128 := idx2_lt1 i
  obtain ⟨e0, e1, e2, e3, e4, e5⟩ := idx_facts0 ⟨49, last0⟩
  refine ⟨⟨49, last0⟩, (flush0_2 _).mpr rfl, ?_⟩
  rw [mem_blk0]
  intro a
  match a with
  | ⟨0, _⟩ =>
    show win0_2.index ⟨49, last0⟩ (0 : Fin 2) * 1 ≤ (i 0).val ∧ (i 0).val < win0_2.index ⟨49, last0⟩ (0 : Fin 2) * 1 + 1
    rw [e4]; omega
  | ⟨1, _⟩ =>
    show win0_2.index ⟨49, last0⟩ (1 : Fin 2) * 128 ≤ (i 1).val ∧ (i 1).val < win0_2.index ⟨49, last0⟩ (1 : Fin 2) * 128 + 128
    rw [e5]; omega

/-- After the 50 points the [1, 128] output array holds what the last point's body left in the output block. -/
theorem arr0 (c : Dev nD) :
    ((dat0 (F := F) V c).arrAt 2 cfg0.N : S1x128.Idx → Elt F .f32) = (outsAt0 V c 49 last0).1 :=
  (dat0 (F := F) V c).arrAt_eq_of_cover 2 (outsAt0 V c 49 last0).1 (fun t hf => flushed0_eq V c t hf) cover0

end Cert.KernelIdeal.Hand

end
-- ==== Proof.Val.K0Math.lean ====
/-
  The arithmetic of the first launch at one entry of its scratch row, and the regrouping of its fifty block sums.

  The scratch row is first set to the float word 0 in every lane: the extended real 0 (`k0pay1_apply`). At each grid point
  the row s is replaced by s + the column sums of the pointwise product of the point's block x0 of the node table
  ([2000, 128]) with the point's block x1 of the node weights ([2000, 1]) spread along the 128 lanes: lane d receives
  s[0, d] + Σ_r x0[r, d] · x1[r, 0] (`k0pay2_apply`). Block t holds the rows 2000·t … 2000·t + 1999, so the fifty block sums
  taken together are the sum over all 100000 rows (`sum_blocks`), and a row that starts from 0 and receives one increment
  per point holds, after point n, the sum of the increments up to n (`acc_closed`). Addition on the extended reals is a
  commutative monoid, so neither regrouping asks for finiteness.
-/
import proofs.«425700_j4569845202979_3_alg».proof.Proof.Gen.KernelIdeal.Skeleton
import proofs.«425700_j4569845202979_3_alg».proof.Proof.LibSlice
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Data.Fintype.BigOperators
import Mathlib.Logic.Equiv.Fin.Basic
import Mathlib.Algebra.BigOperators.Group.Finset.Basic

noncomputable section

open scoped BigOperators

namespace Cert.KernelIdeal.Hand

open Idealize.ShloMosaic Idealize.ShloMosaic.ValueIdx
open Cert.KernelIdeal Cert.KernelIdeal.Gen

/-! ## The layout operations of the payload, read at an index -/

/-- A column [a, 1] spread along b lanes reads, at (p, c), the column's entry of row p: the lane coordinate is dropped
    because the operand's second axis has extent one, the row coordinate is kept. -/
theorem k0_broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a [2000, 128] array, read at lane d, is the plain sum over the 2000 rows of the entries of
    column d: the reduced index d with the row r put back on axis 0 is (r, d). -/
theorem k0_colsum_apply (src : FVec Ideal S2000x128 .f32) (h : S2000x128.Reduces [0] S128) (hφ : FKind.Formats .f32)
    (hacc : (0x00000000#32 : BitVec 32) = FKind.add.neutral .f32 hφ) (d : Fin 128) :
    multiReduction (F := Ideal) .add [0] S128 src 0x00000000#32 h hφ hacc (ix1 d) = ∑ r : Fin 2000, src (ix2 r d) := by
  refine (Ideal.multiReduction_add_single src 0x00000000#32 h hφ hacc (ix1 d)).trans ?_
  refine Finset.sum_congr rfl fun r _ => congrArg src ?_
  funext a
  match a with
  | ⟨0, _⟩ => exact Fin.ext rfl
  | ⟨1, _⟩ => exact Fin.ext rfl

/-! ## The two payloads at an entry -/

/-- The first payload, the value the scratch row is set to at the first point, is 0 in every lane: the splat of the
    float word 0, reshaped to its own shape. -/
theorem k0pay1_apply (d : Fin 128) : (k0_pay1 (F := Ideal) : S1x128.Idx → EReal) (ix2 (0 : Fin 1) d) = 0 := by
  unfold k0_pay1
  -- a reshape to the same shape is the identity; a splat reads its scalar; the float word 0 is the extended real 0
  refine (congrFun (shapeCast_self _ _) _).trans ?_
  exact Ideal.ofBits_zero_f32

/-- The second payload, the value the scratch row is replaced by at every point, at lane d: the row's old entry plus
    the sum over the block's 2000 rows of the node table's entry times the row's weight. -/
theorem k0pay2_apply (s : Vec Ideal S1x128 .f32) (x0 : Vec Ideal S2000x128 .f32) (x1 : Vec Ideal S2000x1 .f32) (d : Fin 128) :
    (k0_pay2 (F := Ideal) s x0 x1 : S1x128.Idx → EReal) (ix2 (0 : Fin 1) d)
      = s (ix2 (0 : Fin 1) d) + ∑ r : Fin 2000, x0 (ix2 r d) * x1 (ix2 r (0 : Fin 1)) := by
  unfold k0_pay2
  -- the closing reshape to the same shape is the identity, and a sum of two rows is read entry by entry
  refine (congrFun (shapeCast_self _ _) _).trans ?_
  refine congrArg (fun z : EReal => s (ix2 (0 : Fin 1) d) + z) ?_
  -- the vector of column sums as a one-row matrix, read at (0, d), is the vector at d
  refine (Cert.LibSlice.row_of_vec_apply _ _ d).trans ?_
  -- the column sums as a plain sum over the rows
  refine (k0_colsum_apply _ _ _ _ d).trans ?_
  -- each term: the product read entry by entry, the weight column spread along the lanes, its reshape the identity
  refine Finset.sum_congr rfl fun r _ => ?_
  refine congrArg (fun z : EReal => x0 (ix2 r d) * z) ?_
  refine (k0_broadcastTo_a1_ab_apply _ _ r d).trans ?_
  exact congrFun (shapeCast_self _ _) _

/-! ## The fifty blocks and the running sum -/

/-- Fifty blocks of 2000 consecutive rows are the 100000 rows: (t, r) ↦ 2000·t + r is a bijection from the pairs
    onto the rows, and a sum is carried along a bijection. -/
theorem sum_blocks (f : Fin 100000 → EReal) :
    ∑ t : Fin 50, ∑ r : Fin 2000, f ⟨2000 * t.val + r.val, by omega⟩ = ∑ n : Fin 100000, f n := by
  calc ∑ t : Fin 50, ∑ r : Fin 2000, f ⟨2000 * t.val + r.val, by omega⟩
      = ∑ p : Fin 50 × Fin 2000, f ((finProdFinEquiv : Fin 50 × Fin 2000 ≃ Fin (50 * 2000)) p) := by
        rw [Fintype.sum_prod_type]
        refine Finset.sum_congr rfl fun t _ => Finset.sum_congr rfl fun r _ => congrArg f (Fin.ext ?_)
        show 2000 * t.val + r.val = r.val + 2000 * t.val
        omega
    _ = ∑ n : Fin 100000, f n := Equiv.sum_comp (finProdFinEquiv : Fin 50 × Fin 2000 ≃ Fin (50 * 2000)) f

/-- A running sum started from zero is the sum of its increments. -/
theorem acc_closed (a g : ℕ → EReal) (h0 : a 0 = 0 + g 0) (hs : ∀ n, a (n + 1) = a n + g (n + 1)) (n : ℕ) :
    a n = ∑ t ∈ Finset.range (n + 1), g t := by
  induction n with
  | zero => rw [h0, zero_add, Finset.sum_range_one]
  | succ k ih => rw [hs k, ih, Finset.sum_range_succ g (k + 1)]

end Cert.KernelIdeal.Hand

end
-- ==== Proof.Val.K0Sum.lean ====
/-
  What the first launch leaves in its [1, 128] output, at the ideal instance: entry (0, d) is Σ_n embed[n, d] · w[n]
  over all 100000 nodes. The scratch row after point n holds, at (0, d), the sum of the first n + 1 blocks' contributions
  (induction on the point: the first point adds its block to the zero row, each later point adds its block to what the
  point before left); the last point copies the row out; and the 50 blocks of 2000 consecutive nodes are all the nodes.
-/
import proofs.«425700_j4569845202979_3_alg».proof.Proof.Val.K0Pieces
import proofs.«425700_j4569845202979_3_alg».proof.Proof.Val.K0Arr
import proofs.«425700_j4569845202979_3_alg».proof.Proof.Val.K0Math

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-- The node table and the per-node weights as the launch finds them, and a point's two blocks, typed over the literal shapes. -/
abbrev embA (c : Dev nD) : S100000x128.Idx → EReal := V c main_arg0
abbrev wnA (c : Dev nD) : S100000x1.Idx → EReal := V c main_v8
abbrev eblk (c : Dev nD) (t : Fin cfg0.N) : S2000x128.Idx → EReal := iblk0 V c 0 t
abbrev wblk (c : Dev nD) (t : Fin cfg0.N) : S2000x1.Idx → EReal := iblk0 V c 1 t
abbrev scr (c : Dev nD) (n : ℕ) (hn : n < cfg0.N) : S1x128.Idx → EReal := (outsAt0 V c n hn).2

/-- Block `t`'s contribution to column `d`. -/
def blockSum (c : Dev nD) (d : Fin 128) (t : ℕ) : EReal :=
  if h : t < cfg0.N then ∑ r : Fin 2000, eblk V c ⟨t, h⟩ (ix2 r d) * wblk V c ⟨t, h⟩ (ix2 r (0 : Fin 1)) else 0

/-- The scratch row after point `n`, at (0, d): the first n + 1 blocks' contributions. -/
theorem scr_apply (c : Dev nD) (d : Fin 128) : ∀ (n : ℕ) (hn : n < cfg0.N),
    scr V c n hn (ix2 (0 : Fin 1) d) = ∑ t ∈ Finset.range (n + 1), blockSum V c d t
  | 0, hn => by
    show ((outsAt0 V c 0 hn).2 : S1x128.Idx → EReal) (ix2 (0 : Fin 1) d) = _
    rw [scr_zero V c hn]
    refine (k0pay2_apply (k0_pay1 (F := Ideal)) (iblk0 V c 0 ⟨0, hn⟩) (iblk0 V c 1 ⟨0, hn⟩) d).trans ?_
    rw [k0pay1_apply, Finset.sum_range_one, blockSum, dif_pos hn]
    exact zero_add _
  | n + 1, hn => by
    show ((outsAt0 V c (n + 1) hn).2 : S1x128.Idx → EReal) (ix2 (0 : Fin 1) d) = _
    rw [scr_succ V c n hn]
    refine (k0pay2_apply (outsAt0 V c n (Nat.lt_of_succ_lt hn)).2 (iblk0 V c 0 ⟨n + 1, hn⟩) (iblk0 V c 1 ⟨n + 1, hn⟩) d).trans ?_
    rw [Finset.sum_range_succ, ← scr_apply c d n (Nat.lt_of_succ_lt hn), blockSum, dif_pos hn]

/-- THE FIRST LAUNCH'S OUTPUT at (0, d): the weighted column sum over all the nodes. -/
theorem btw_row (c : Dev nD) (d : Fin 128) :
    ((dat0 (F := Ideal) V c).arrAt 2 cfg0.N : S1x128.Idx → EReal) (ix2 (0 : Fin 1) d)
      = ∑ n : Fin 100000, embA V c (ix2 n d) * wnA V c (ix2 n (0 : Fin 1)) := by
  rw [arr0 V c, out_last V c last0]
  refine (scr_apply V c d 49 last0).trans ?_
  rw [Finset.sum_range, ← sum_blocks (fun n => embA V c (ix2 n d) * wnA V c (ix2 n (0 : Fin 1)))]
  refine Finset.sum_congr rfl fun t _ => ?_
  have ht : t.val < cfg0.N := lt_of_lt_of_eq t.isLt N_0.symm
  rw [blockSum, dif_pos ht]
  refine Finset.sum_congr rfl fun r _ => ?_
  exact congrArg₂ (· * ·) (iblk0_0_apply V c ⟨t.val, ht⟩ r d) (iblk0_1_apply V c ⟨t.val, ht⟩ r)

end Cert.KernelIdeal.Hand

end
-- ==== Proof.Val.Bridge.lean ====
/-
  The kernel program's result buffer, at the ideal instance, is the kernel's arrangement of the specification: read back
  through the segments. The last stretch reads entry e of the result at position (e / 2048, e mod 2048) of the third
  launch's output, which is logistic (log x + eps) of its input there; that input is the second launch's output p at the
  wrapped, clamped src word of edge e; p[n] is row n of the node table against the transposed output of the first launch,
  whose entry d is the weighted column sum over all nodes of the per-node weights the first stretch scattered.
-/
import proofs.«425700_j4569845202979_3_alg».proof.Proof.KI.Keep
import proofs.«425700_j4569845202979_3_alg».proof.Proof.Val.Spec
import proofs.«425700_j4569845202979_3_alg».proof.Proof.Val.Host
import proofs.«425700_j4569845202979_3_alg».proof.Proof.Val.K12
import proofs.«425700_j4569845202979_3_alg».proof.Proof.Val.K0Sum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (m : (ℓ : Loc nD τ sig) → Buf (Elt Ideal) ℓ)

/-- The three argument arrays on core `c`, typed over the literal shapes. -/
abbrev argE (c : Dev nD) : S100000x128.Idx → EReal := m ((c : Thread nD τ).loc main_arg0)
abbrev argW (c : Dev nD) : S500000x1.Idx → EReal := m ((c : Thread nD τ).loc main_arg1)
abbrev argI (c : Dev nD) : S500000x2.Idx → BitVec 32 := m ((c : Thread nD τ).loc main_arg2)

/-- The per-node weights as the first launch finds them. -/
theorem wn_eq (c : Dev nD) (n : Fin 100000) :
    wnA (E1 m) c (ix2 n (0 : Fin 1)) = Cert.Spec.wnode (argW m c) (argI m c) n :=
  host0_v8 (W0 m c) n

/-- The node table as the first launch finds it. -/
theorem emb1_eq (c : Dev nD) : embA (E1 m) c = argE m c := W1_arg0 m c

/-- The column the second launch multiplies by: the first launch's output, transposed. -/
theorem btw_eq (c : Dev nD) (d : Fin 128) :
    (E3 m c main_v10 : S128x1.Idx → EReal) (ix2 d (0 : Fin 1)) = Cert.Spec.btwKer (argE m c) (argW m c) (argI m c) d := by
  have h1 := host1_v10 (W2 m c) d
  have h2 : (W2 m c main_v9 : S1x128.Idx → EReal) (ix2 (0 : Fin 1) d)
      = ∑ n : Fin 100000, embA (E1 m) c (ix2 n d) * wnA (E1 m) c (ix2 n (0 : Fin 1)) :=
    (congrFun (W2_v9 m c) _).trans (btw_row (E1 m) c d)
  have h3 : (∑ n : Fin 100000, embA (E1 m) c (ix2 n d) * wnA (E1 m) c (ix2 n (0 : Fin 1)))
      = Cert.Spec.btwKer (argE m c) (argW m c) (argI m c) d := by
    unfold Cert.Spec.btwKer
    refine Finset.sum_congr rfl fun n _ => ?_
    exact congrArg₂ (· * ·) (congrFun (emb1_eq m c) _) (wn_eq m c n)
  exact h1.trans (h2.trans h3)

/-- The per-node scores the second launch leaves. -/
theorem p_eq (c : Dev nD) (n : Fin 100000) :
    (W4 m c main_v11 : S100000x1.Idx → EReal) (ix2 n (0 : Fin 1)) = Cert.Spec.pKer (argE m c) (argW m c) (argI m c) n := by
  have h1 : (W4 m c main_v11 : S100000x1.Idx → EReal) (ix2 n (0 : Fin 1)) = rowDot (E3 m c main_arg0) (E3 m c main_v10) n :=
    (congrFun (W4_v11 m c) _).trans (arr1 (E3 m) c n)
  have h2 : rowDot (E3 m c main_arg0) (E3 m c main_v10) n = Cert.Spec.pKer (argE m c) (argW m c) (argI m c) n := by
    unfold Cert.Spec.pKer
    refine Finset.sum_congr rfl fun k _ => ?_
    exact congrArg₂ (· * ·) (congrFun (W3_arg0 m c) _) (btw_eq m c k)
  exact h1.trans h2

/-- THE RESULT BUFFER at the end of the run. -/
theorem kernel_result (c : Dev nD) :
    (W9 m c main_v25 : S500000x1.Idx → EReal)
      = Cert.Spec.resKer (m ((c : Thread nD τ).loc main_arg0)) (m ((c : Thread nD τ).loc main_arg1)) (m ((c : Thread nD τ).loc main_arg2)) := by
  funext i
  obtain ⟨e, z, rfl⟩ : ∃ (e : Fin 500000) (z : Fin 1), i = ix2 e z := ⟨i 0, i 1, eq_ix2 i⟩
  obtain rfl : z = 0 := Subsingleton.elim _ _
  -- the last stretch: entry e of the result is position (e / 2048, e mod 2048) of the third launch's output
  have h1 := host3_v25 (W8 m c) e
  -- the third launch: logistic (log x + eps) of its input there
  have h2 : (W8 m c main_v22 : S248x2048.Idx → EReal) (ix2 (⟨e.val / 2048, by omega⟩ : Fin 248) (⟨e.val % 2048, by omega⟩ : Fin 2048))
      = Ideal.logistic (Ideal.log ((W7 m c main_v21 : S248x2048.Idx → EReal) (ix2 (⟨e.val / 2048, by omega⟩ : Fin 248) (⟨e.val % 2048, by omega⟩ : Fin 2048)))
          + Ideal.ofBits .f32 0x3727C5AC#32) :=
    (congrFun (W8_v22 m c) _).trans (arr2 (E7 m) c _)
  -- its input there: the second launch's output at the taken src row
  have h3 := host2_v21 (W4 m c) e
  -- the src word is the argument's
  have h4 : (W4 m c main_v1 : S500000.Idx → BitVec 32) (ix1 e) = argI m c (ix2 e (0 : Fin 2)) :=
    (congrFun (W4_v1 m c) _).trans (host0_v1 (W0 m c) e)
  have h5 : (W4 m c main_v11 : S100000x1.Idx → EReal) (ix2 (Cert.Spec.takeRow ((W4 m c main_v1 : S500000.Idx → BitVec 32) (ix1 e))) (0 : Fin 1))
      = Cert.Spec.pKer (argE m c) (argW m c) (argI m c) (Cert.Spec.takeRow (argI m c (ix2 e (0 : Fin 2)))) := by
    rw [h4]; exact p_eq m c _
  refine h1.trans (h2.trans ?_)
  exact congrArg (fun x : EReal => Ideal.logistic (Ideal.log x + Ideal.ofBits .f32 0x3727C5AC#32)) (h3.trans h5)

end Cert.KernelIdeal.Hand

end
-- ==== Proof.lean ====
/-
  The claim: three frames, the idealization's ledger (empty), and the equivalence over the extended reals.

  The kernel program is nine segments: host operations (the per-node weights by a scatter-add over the dst column), the
  first launch (btw[d] = Σ_n embed[n, d] · wnode[n], accumulated over 50 blocks of 2000 nodes in a scratch row), a
  transpose, the second launch (p[n] = Σ_d embed[n, d] · btw[d], block by block), host operations (p read at the
  wrapped, clamped src index; zero padding; a reshape), the third launch (logistic (log x + eps) entry by entry), and
  the reshapes and the slice back to [500000, 1]. One run of those segments, at any float instance, says that every
  weakly fair execution terminates, faults nowhere, and ends with every buffer at the contents folded through the
  segments. Read at the argument buffers that is each kernel program's frame; read at the result buffer, at the
  ideal instance, it is the kernel's arrangement of the specification.

  The reference sums over the edges, Σ_e embed[dst e, d] · weight[e]; the kernel first sums the weights per node and
  then over the nodes. With every float finite the product distributes over the per-node sum, and with every dst word
  a row of the table (the added precondition) the take of the reference reads exactly the node the scatter-add lands
  on: the two arrangements are one function. The src column is read the same way by both programs (a negative word
  has 100000 added, then the index is clamped), so it needs no assumption.
-/
import proofs.«425700_j4569845202979_3_alg».proof.Defs
import proofs.«425700_j4569845202979_3_alg».proof.Proof.Gen.Kernel
import proofs.«425700_j4569845202979_3_alg».proof.Proof.Gen.KernelIdeal
import proofs.«425700_j4569845202979_3_alg».proof.Proof.Gen.ReferenceIdeal
import proofs.«425700_j4569845202979_3_alg».proof.Proof.Gen.ReferenceIdeal.Run
import proofs.«425700_j4569845202979_3_alg».proof.Proof.Gen.Pre_finite_inputs
import proofs.«425700_j4569845202979_3_alg».proof.Proof.KI.Run
import proofs.«425700_j4569845202979_3_alg».proof.Proof.KI.Keep
import proofs.«425700_j4569845202979_3_alg».proof.Proof.K.Run
import proofs.«425700_j4569845202979_3_alg».proof.Proof.K.Keep
import proofs.«425700_j4569845202979_3_alg».proof.Proof.Val.Ref
import proofs.«425700_j4569845202979_3_alg».proof.Proof.Val.Algebra
import proofs.«425700_j4569845202979_3_alg».proof.Proof.Val.Pre
import proofs.«425700_j4569845202979_3_alg».proof.Proof.Val.Bridge
import Idealize.ShloMosaic.Adequacy
import Idealize.ShloMosaic.Init

noncomputable section

namespace Cert.Proof

open Idealize.ShloMosaic Idealize.ShloMosaic.TcCoe Idealize.SL.Sem

/-- An unscoped TensorCore buffer of the word-level program is among those the last thread state holds. -/
theorem mem_uc_k (b : Ref Cert.Kernel.sig .tc) (h : ¬ (Proc.devRef .tc b : DevRef Cert.Kernel.τ Cert.Kernel.sig).isScoped) :
    Proc.devRef .tc b ∈ Pipeline.ucRefs Cert.Kernel.τ Cert.Kernel.sig :=
  Finset.mem_filter.mpr ⟨StableHlo.devRef_mem_tcRefs b, h⟩
/-- The same for the idealized program. -/
theorem mem_uc_ki (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- The word-level program runs and its arguments end as launched: the nine segments' run read at the three argument buffers. -/
theorem frame_k [Cert.Kernel.Facts] [Cert.Pre_finite_inputs.Facts] : Cert.frame_Kernel := fun m ρ _ =>
  (θ_run Cert.Kernel.defs _ _).mono (fun r h c =>
    ⟨(h c _ (mem_uc_k Cert.Kernel.main_arg0 (by decide))).trans (Cert.Kernel.Hand.W9_arg0 m c),
     (h c _ (mem_uc_k Cert.Kernel.main_arg1 (by decide))).trans (Cert.Kernel.Hand.W9_arg1 m c),
     (h c _ (mem_uc_k Cert.Kernel.main_arg2 (by decide))).trans (Cert.Kernel.Hand.W9_arg2 m c)⟩)
    (Cert.Kernel.Hand.run_all (F := Bits) m ρ)

/-- The same for the idealized program. -/
theorem frame_ki [Cert.KernelIdeal.Facts] [Cert.Pre_finite_inputs.Facts] : Cert.frame_KernelIdeal := fun m ρ _ =>
  (θ_run Cert.KernelIdeal.defs _ _).mono (fun r h c =>
    ⟨(h c _ (mem_uc_ki Cert.KernelIdeal.main_arg0 (by decide))).trans (Cert.KernelIdeal.Hand.W9_arg0 m c),
     (h c _ (mem_uc_ki Cert.KernelIdeal.main_arg1 (by decide))).trans (Cert.KernelIdeal.Hand.W9_arg1 m c),
     (h c _ (mem_uc_ki Cert.KernelIdeal.main_arg2 (by decide))).trans (Cert.KernelIdeal.Hand.W9_arg2 m c)⟩)
    (Cert.KernelIdeal.Hand.run_all (F := Ideal) m ρ)

/-- The reference is host operations only: its run with the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs run, the kernel's result buffer ends at the kernel's arrangement and the reference's at the
    reference's arrangement of the same argument arrays, and under the precondition the two arrangements agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W9 m c Cert.KernelIdeal.main_v25, ?_, ?_⟩
  · exact (θ_run Cert.KernelIdeal.defs _ _).mono (fun r h c =>
      ⟨h c _ (mem_uc_ki Cert.KernelIdeal.main_v25 (by decide)),
       (h c _ (mem_uc_ki Cert.KernelIdeal.main_arg0 (by decide))).trans (Cert.KernelIdeal.Hand.W9_arg0 m c),
       (h c _ (mem_uc_ki Cert.KernelIdeal.main_arg1 (by decide))).trans (Cert.KernelIdeal.Hand.W9_arg1 m c),
       (h c _ (mem_uc_ki Cert.KernelIdeal.main_arg2 (by decide))).trans (Cert.KernelIdeal.Hand.W9_arg2 m c)⟩)
      (Cert.KernelIdeal.Hand.run_all (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.RefValue.ref_is_spec _ _ _).trans ?_
    rw [(hagree c).1, (hagree c).2.1, (hagree c).2.2]
    refine (Cert.Spec.resKer_eq_resRef _ _ _
      (Cert.Pre_finite_inputs.Decode.embed_real _ _ _ (hpre c))
      (Cert.Pre_finite_inputs.Decode.weight_real _ _ _ (hpre c))
      (Cert.Pre_finite_inputs.Decode.dst_range _ _ _ (hpre c))).symm.trans ?_
    exact (Cert.KernelIdeal.Hand.kernel_result m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
